-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S1024x128 : Shape := ⟨2, ![1024, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S256x128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S256 .f32) (main_arg13 : FVec F S256x256 .f32) (main_arg14 : FVec F S256 .f32) (main_arg15 : FVec F S256x128 .f32) (main_arg16 : FVec F S128 .f32) (main_arg17 : FVec F S128 .f32) (main_arg18 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128 .f32) (main_arg10 : FVec F S128 .f32) (main_arg11 : FVec F S256x256 .f32) (main_arg12 : FVec F S256 .f32) (main_arg13 : FVec F S256x256 .f32) (main_arg14 : FVec F S256 .f32) (main_arg15 : FVec F S256x128 .f32) (main_arg16 : FVec F S128 .f32) (main_arg17 : FVec F S128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_v48 main_v49 main_v50

def fn_part1 {F : FTy → Type} [FloatOps F] (main_arg5 : FVec F S256x256 .f32) (main_arg6 : FVec F S256 .f32) (main_arg7 : FVec F S256x128 .f32) (main_arg8 : FVec F S128 .f32) (main_arg9 : FVec F S128 .f32) (main_arg10 : FVec F S128 .f32) (main_arg11 : FVec F S256x256 .f32) (main_arg12 : FVec F S256 .f32) (main_arg13 : FVec F S256x256 .f32) (main_arg14 : FVec F S256 .f32) (main_arg15 : FVec F S256x128 .f32) (main_arg16 : FVec F S128 .f32) (main_arg17 : FVec F S128 .f32) (main_arg18 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S500000x128 .f32) (main_arg1 : FVec F S1024x128 .f32) (main_arg2 : IVec S500000 32) (main_arg3 : FVec F S256x256 .f32) (main_arg4 : FVec F S256 .f32) (main_arg5 : FVec F S256x256 .f32) (main_arg6 : FVec F S256 .f32) (main_arg7 : FVec F S256x128 .f32) (main_arg8 : FVec F S128 .f32) (main_arg9 : FVec F S128 .f32) (main_arg10 : FVec F S128 .f32) (main_arg11 : FVec F S256x256 .f32) (main_arg12 : FVec F S256 .f32) (main_arg13 : FVec F S256x256 .f32) (main_arg14 : FVec F S256 .f32) (main_arg15 : FVec F S256x128 .f32) (main_arg16 : FVec F S128 .f32) (main_arg17 : FVec F S128 .f32) (main_arg18 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S500000x128 : Shape := ⟨2, ![500000, 128]⟩
abbrev S1024x128 : Shape := ⟨2, ![1024, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S503808x128 : Shape := ⟨2, ![503808, 128]⟩
abbrev S503808 : Shape := ⟨1, ![503808]⟩
abbrev S128x256 : Shape := ⟨2, ![128, 256]⟩
abbrev S4096x128 : Shape := ⟨2, ![4096, 128]⟩
abbrev S4096 : Shape := ⟨1, ![4096]⟩
abbrev S4096x1024 : Shape := ⟨2, ![4096, 1024]⟩
abbrev S4096x1 : Shape := ⟨2, ![4096, 1]⟩
abbrev S4096x256 : Shape := ⟨2, ![4096, 256]⟩
abbrev S1x256 : Shape := ⟨2, ![1, 256]⟩
abbrev S1x128 : Shape := ⟨2, ![1, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 40
  | .vmem => 27
  | .smem => 0
  | _ => 0

abbrev bufTy : (tb : Table) → Fin (tcTables nBuf tb) → BufTy
  | .hbm, ⟨0, _⟩ => ⟨S500000x128, .f32⟩
  | .hbm, ⟨1, _⟩ => ⟨S1024x128, .f32⟩
  | .hbm, ⟨2, _⟩ => ⟨S500000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S503808x128, .f32⟩
  | .hbm, ⟨22, _⟩ => ⟨S_, .i32⟩
  | .hbm, ⟨23, _⟩ => ⟨S_, .i32⟩
  | .hbm, ⟨24, _⟩ => ⟨S503808, .i32⟩
  | .hbm, ⟨25, _⟩ => ⟨S1024x128, .bf16⟩
  | .hbm, ⟨26, _⟩ => ⟨S128x256, .f32⟩
  | .hbm, ⟨27, _⟩ => ⟨S128x256, .bf16⟩
  | .hbm, ⟨28, _⟩ => ⟨S128x256, .f32⟩
  | .hbm, ⟨29, _⟩ => ⟨S128x256, .bf16⟩
  | .hbm, ⟨30, _⟩ => ⟨S256x256, .bf16⟩
  | .hbm, ⟨31, _⟩ => ⟨S256x128, .bf16⟩
  | .hbm, ⟨32, _⟩ => ⟨S1024x128, .f32⟩
  | .hbm, ⟨33, _⟩ => ⟨S128x256, .f32⟩
  | .hbm, ⟨34, _⟩ => ⟨S128x256, .bf16⟩
  | .hbm, ⟨35, _⟩ => ⟨S128x256, .f32⟩
  | .hbm, ⟨36, _⟩ => ⟨S128x256, .bf16⟩
  | .hbm, ⟨37, _⟩ => ⟨S256x256, .bf16⟩
  | .hbm, ⟨38, _⟩ => ⟨S256x128, .bf16⟩
  | .hbm, ⟨39, _⟩ => ⟨S1024x128, .f32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S1024x128, .bf16⟩
  | .local _ .vmem, ⟨5, _⟩ => ⟨S128x256, .bf16⟩
  | .local _ .vmem, ⟨6, _⟩ => ⟨S128x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x128, .bf16⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S128x256, .bf16⟩
  | .local _ .vmem, ⟨18, _⟩ => ⟨S128x256, .bf16⟩
  | .local _ .vmem, ⟨19, _⟩ => ⟨S256, .f32⟩
  | .local _ .vmem, ⟨20, _⟩ => ⟨S256x256, .bf16⟩
  | .local _ .vmem, ⟨21, _⟩ => ⟨S256, .f32⟩
  | .local _ .vmem, ⟨22, _⟩ => ⟨S256x128, .bf16⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S1024x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

class Facts₀ : Prop where
  pads_S500000x128_S503808x128_038080_000 : S500000x128.Pads (![0, 0] : Fin 2 → Nat) ![3808, 0] ![0, 0] S503808x128
  h_S_ : 0 < S_.numel
  pads_S500000_S503808_038080 : S500000.Pads (![0] : Fin 1 → Nat) ![3808] ![0] S503808
  bitsLt_bf16_f32 : FTy.bits .bf16 < FTy.bits .f32
  slices_S256x256_S128x256_0_0 : S256x256.Slices ![0, 0] S128x256
  slices_S256x256_S128x256_128_0 : S256x256.Slices ![128, 0] S128x256
  inb_S1024x128_S1024x128_0_0 : ∀ a, (![0, 0] : Fin 2 → Nat) a + S1024x128.size a ≤ S1024x128.size a
  h_S1024x128 : 0 < S1024x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096_S4096_0 : ∀ a, (![0] : Fin 1 → Nat) a + S4096.size a ≤ S4096.size a
  h_S4096 : 0 < S4096.numel
  shapeCasts_S4096_S4096 : S4096.ShapeCasts S4096
  iota_S4096x1024_d1_w32 : S4096x1024.Iotas .tc 32 [1]
  shapeCasts_S4096_S4096x1 : S4096.ShapeCasts S4096x1
  broadcasts_S4096x1_S4096x1024 : S4096x1.Broadcasts S4096x1024
  natLt_1_32 : 1 < 32
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  reduces_S4096x128_S4096 : S4096x128.Reduces [1] S4096
  broadcasts_S4096x1_S4096x128 : S4096x1.Broadcasts S4096x128
  broadcasts_S1x256_S1024x256 : S1x256.Broadcasts S1024x256
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  dot_S4096x1024_S1024x128_S4096x128_1_0_0_1_n_n_wf : DotDims.WF S4096x1024 S1024x128 S4096x128 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S4096x1024_S4096x128_S1024x128_0_0_1_1_n_n_wf : DotDims.WF S4096x1024 S4096x128 S1024x128 [0] [0] [1] [1] [] []
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S503808.size a
  hwx0_1 : ∀ i : grid0.Coords, EltTy.bits .i32 = 32 ∨ (Rect.block (s := S503808) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S1024x128.size a
  hwx0_12 : ∀ i : grid0.Coords, EltTy.bits .f32 = 32 ∨ (Rect.block (s := S1024x128) S1024x128.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .bf16 = 32 ∨ (Rect.block (s := S256x128) S256x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x128.size a ≤ S1024x128.size a
  hwx1_11 : ∀ i : grid1.Coords, EltTy.bits .f32 = 32 ∨ (Rect.block (s := S1024x128) S1024x128.size (cc1_transform_11 i) (hinb1_11 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x1024_S4096x128_S1024x128_0_0_1_1_n_n : DotDims S4096x1024 S4096x128 S1024x128 where
  lhsContracting := [0]
  rhsContracting := [0]
  lhsNonContracting := [1]
  rhsNonContracting := [1]
  lhsBatch := []
  rhsBatch := []
  wf := dot_S4096x1024_S4096x128_S1024x128_0_0_1_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1024x128.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v9) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16) S1024x128.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S500000x128 : Shape := ⟨2, ![500000, 128]⟩
abbrev S1024x128 : Shape := ⟨2, ![1024, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S1x128 : Shape := ⟨2, ![1, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 129
  | .vmem => 0
  | .smem => 0
  | _ => 0

abbrev hbmTy0_0 (i : Nat) : BufTy := match i % 128 with
  | 0 => ⟨S500000x128, .f32⟩
  | 1 => ⟨S1024x128, .f32⟩
  | 2 => ⟨S500000, .i32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128, .f32⟩
  | 10 => ⟨S128, .f32⟩
  | 11 => ⟨S256x256, .f32⟩
  | 12 => ⟨S256, .f32⟩
  | 13 => ⟨S256x256, .f32⟩
  | 14 => ⟨S256, .f32⟩
  | 15 => ⟨S256x128, .f32⟩
  | 16 => ⟨S128, .f32⟩
  | 17 => ⟨S128, .f32⟩
  | 18 => ⟨S128, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x128, .f32⟩
  | 28 => ⟨S500000x256, .f32⟩
  | 29 => ⟨S500000x256, .f32⟩
  | 30 => ⟨S1x256, .f32⟩
  | 31 => ⟨S500000x256, .f32⟩
  | 32 => ⟨S500000x256, .f32⟩
  | 33 => ⟨S_, .f32⟩
  | 34 => ⟨S500000x256, .f32⟩
  | 35 => ⟨S500000x256, .f32⟩
  | 36 => ⟨S500000x256, .f32⟩
  | 37 => ⟨S1x256, .f32⟩
  | 38 => ⟨S500000x256, .f32⟩
  | 39 => ⟨S500000x256, .f32⟩
  | 40 => ⟨S_, .f32⟩
  | 41 => ⟨S500000x256, .f32⟩
  | 42 => ⟨S500000x256, .f32⟩
  | 43 => ⟨S500000x128, .f32⟩
  | 44 => ⟨S1x128, .f32⟩
  | 45 => ⟨S500000x128, .f32⟩
  | 46 => ⟨S500000x128, .f32⟩
  | 47 => ⟨S_, .f32⟩
  | 48 => ⟨S500000, .f32⟩
  | 49 => ⟨S500000x1, .f32⟩
  | 50 => ⟨S_, .f32⟩
  | 51 => ⟨S500000x1, .f32⟩
  | 52 => ⟨S500000x1, .f32⟩
  | 53 => ⟨S500000x128, .f32⟩
  | 54 => ⟨S500000x128, .f32⟩
  | 55 => ⟨S500000x128, .f32⟩
  | 56 => ⟨S_, .f32⟩
  | 57 => ⟨S500000, .f32⟩
  | 58 => ⟨S500000x1, .f32⟩
  | 59 => ⟨S_, .f32⟩
  | 60 => ⟨S500000x1, .f32⟩
  | 61 => ⟨S500000x1, .f32⟩
  | 62 => ⟨S500000x128, .f32⟩
  | 63 => ⟨S500000x128, .f32⟩
  | 64 => ⟨S_, .f32⟩
  | 65 => ⟨S500000x1, .f32⟩
  | 66 => ⟨S500000x1, .f32⟩
  | 67 => ⟨S500000x1, .f32⟩
  | 68 => ⟨S500000x128, .f32⟩
  | 69 => ⟨S500000x128, .f32⟩
  | 70 => ⟨S1x128, .f32⟩
  | 71 => ⟨S500000x128, .f32⟩
  | 72 => ⟨S500000x128, .f32⟩
  | 73 => ⟨S1x128, .f32⟩
  | 74 => ⟨S500000x128, .f32⟩
  | 75 => ⟨S500000x128, .f32⟩
  | 76 => ⟨S_, .f32⟩
  | 77 => ⟨S1024x128, .f32⟩
  | 78 => ⟨S500000x1, .i32⟩
  | 79 => ⟨S1024x128, .f32⟩
  | 80 => ⟨S1024x256, .f32⟩
  | 81 => ⟨S1024x256, .f32⟩
  | 82 => ⟨S1x256, .f32⟩
  | 83 => ⟨S1024x256, .f32⟩
  | 84 => ⟨S1024x256, .f32⟩
  | 85 => ⟨S_, .f32⟩
  | 86 => ⟨S1024x256, .f32⟩
  | 87 => ⟨S1024x256, .f32⟩
  | 88 => ⟨S1024x256, .f32⟩
  | 89 => ⟨S1x256, .f32⟩
  | 90 => ⟨S1024x256, .f32⟩
  | 91 => ⟨S1024x256, .f32⟩
  | 92 => ⟨S_, .f32⟩
  | 93 => ⟨S1024x256, .f32⟩
  | 94 => ⟨S1024x256, .f32⟩
  | 95 => ⟨S1024x128, .f32⟩
  | 96 => ⟨S1x128, .f32⟩
  | 97 => ⟨S1024x128, .f32⟩
  | 98 => ⟨S1024x128, .f32⟩
  | 99 => ⟨S_, .f32⟩
  | 100 => ⟨S1024, .f32⟩
  | 101 => ⟨S1024x1, .f32⟩
  | 102 => ⟨S_, .f32⟩
  | 103 => ⟨S1024x1, .f32⟩
  | 104 => ⟨S1024x1, .f32⟩
  | 105 => ⟨S1024x128, .f32⟩
  | 106 => ⟨S1024x128, .f32⟩
  | 107 => ⟨S1024x128, .f32⟩
  | 108 => ⟨S_, .f32⟩
  | 109 => ⟨S1024, .f32⟩
  | 110 => ⟨S1024x1, .f32⟩
  | 111 => ⟨S_, .f32⟩
  | 112 => ⟨S1024x1, .f32⟩
  | 113 => ⟨S1024x1, .f32⟩
  | 114 => ⟨S1024x128, .f32⟩
  | 115 => ⟨S1024x128, .f32⟩
  | 116 => ⟨S_, .f32⟩
  | 117 => ⟨S1024x1, .f32⟩
  | 118 => ⟨S1024x1, .f32⟩
  | 119 => ⟨S1024x1, .f32⟩
  | 120 => ⟨S1024x128, .f32⟩
  | 121 => ⟨S1024x128, .f32⟩
  | 122 => ⟨S1x128, .f32⟩
  | 123 => ⟨S1024x128, .f32⟩
  | 124 => ⟨S1024x128, .f32⟩
  | 125 => ⟨S1x128, .f32⟩
  | 126 => ⟨S1024x128, .f32⟩
  | 127 => ⟨S1024x128, .f32⟩
  | _ => ⟨S500000x128, .f32⟩

abbrev hbmTy0_1 (i : Nat) : BufTy := match i % 128 with
  | 0 => ⟨S1024x128, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call0_cst : Ref sig .tc := ⟨.hbm, 33, rfl⟩
abbrev main_call0_v0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_call1_cst : Ref sig .tc := ⟨.hbm, 40, rfl⟩
abbrev main_call1_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_5 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call2_cst : Ref sig .tc := ⟨.hbm, 85, rfl⟩
abbrev main_call2_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_cst : Ref sig .tc := ⟨.hbm, 92, rfl⟩
abbrev main_call3_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_6 : Ref sig .tc := ⟨.hbm, 99, rfl⟩
abbrev main_v64 : Ref sig .tc := ⟨.hbm, 100, rfl⟩
abbrev main_v65 : Ref sig .tc := ⟨.hbm, 101, rfl⟩
abbrev main_cst_7 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_8 : Ref sig .tc := ⟨.hbm, 108, rfl⟩
abbrev main_v71 : Ref sig .tc := ⟨.hbm, 109, rfl⟩
abbrev main_v72 : Ref sig .tc := ⟨.hbm, 110, rfl⟩
abbrev main_cst_9 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_10 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S1024x128 : S_.BroadcastsInDim S1024x128 (![] : Fin 0 → Fin S1024x128.rank)
  concatenates_S1024x128_S1024x128_S1024x256_d1 : Shape.Concatenates [S1024x128, S1024x128] S1024x256 1
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1x128_S1024x128_0_1 : S1x128.BroadcastsInDim S1024x128 (![0, 1] : Fin 2 → Fin S1024x128.rank)
  reducesTo_S1024x128_S1024_d1 : S1024x128.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  gather_S1024x128_S500000x1_S500000x128_1_0_n_n_0_1_1128_wf : GatherDims.WF S1024x128 S500000x1 S500000x128 [1] [0] [] [0] [] 1 ![1, 128]
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  scatter_S1024x128_S500000x1_S500000x128_1_0_0_1_wf : ScatterDims.WF S1024x128 S500000x1 S500000x128 [1] [0] [0] 1
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []

variable [Facts₀]

def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.KernelFold.lean ====
/-
  What the two regions leave in their result arrays, as values of the payloads, at any float instance.
  Region 0 has 123 points; its result block never moves, is reset at point 0 and written back after point 122 only, so
  the array ends at the accumulator after point 122: point 0 applies the tile update to the reset block, point n + 1 to
  what point n left. Region 1 has one point whose blocks are the whole arrays.
-/
import proofs.«408234_j7662221656191_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen

variable {F : FTy → Type} [FloatOps F]
variable (V : (c : Dev nD) → (b : Ref sig .tc) → Buf (Elt F) ((c : Thread nD τ).loc b))

/-- The tile update at point t applied to an accumulator: the body's stored value over the point's input blocks. -/
def tileP (c : Dev nD) (t : Fin cfg0.N) (acc : Vec F S1024x128 .f32) : Vec F S1024x128 .f32 :=
  k0_pay5 (k0_pay2 (iblk0 V c 1 t))
    (k0_pay3 (iblk0 V c 0 t) (iblk0 V c 1 t) (iblk0 V c 2 t) (iblk0 V c 3 t) (iblk0 V c 4 t) (iblk0 V c 5 t) (iblk0 V c 6 t))
    (k0_pay4 (iblk0 V c 7 t)) (iblk0 V c 8 t) (iblk0 V c 9 t) (iblk0 V c 10 t) (iblk0 V c 11 t) acc

/-- The accumulator after point n: the reset block updated by tiles 0 … n in order. -/
def accK (c : Dev nD) : (n : ℕ) → n < cfg0.N → Vec F S1024x128 .f32
  | 0, h => tileP V c ⟨0, h⟩ (k0_pay1 (F := F))
  | n + 1, h => tileP V c ⟨n + 1, h⟩ (accK c n (Nat.lt_of_succ_lt h))

/-! ## What each case of the body leaves in the result's staging buffer -/

private theorem hz2 : (![0, 0] : Fin 2 → Nat) = fun _ => 0 := funext fun a => by fin_cases a <;> rfl
private theorem hz1 : (![0] : Fin 1 → Nat) = fun _ => 0 := funext fun a => by fin_cases a; rfl

/-- Away from point 0 the body loads the buffer's running contents `xo`, and its one store, which covers the buffer,
    leaves the tile update of `xo`: every load reads a whole buffer, so the payloads are those of the buffers' contents. -/
private theorem out_B (c : Dev nD) (i : grid0.Coords) (a1 : Memref sig .tc .vmem S4096x128 .f32) (h1 : a1.IsWhole) (a2 : Memref sig .tc .vmem S4096 .i32) (h2 : a2.IsWhole) (a3 : Memref sig .tc .vmem S1024x128 .bf16) (h3 : a3.IsWhole) (a4 : Memref sig .tc .vmem S128x256 .bf16) (h4 : a4.IsWhole) (a5 : Memref sig .tc .vmem S128x256 .bf16) (h5 : a5.IsWhole) (a6 : Memref sig .tc .vmem S256 .f32) (h6 : a6.IsWhole) (a7 : Memref sig .tc .vmem S256x256 .bf16) (h7 : a7.IsWhole) (a8 : Memref sig .tc .vmem S256 .f32) (h8 : a8.IsWhole) (a9 : Memref sig .tc .vmem S256x128 .bf16) (h9 : a9.IsWhole) (a10 : Memref sig .tc .vmem S128 .f32) (h10 : a10.IsWhole) (a11 : Memref sig .tc .vmem S128 .f32) (h11 : a11.IsWhole) (a12 : Memref sig .tc .vmem S128 .f32) (h12 : a12.IsWhole) (a13 : Memref sig .tc .vmem S1024x128 .f32) (h13 : a13.IsWhole) (hc : ¬cond0_0 i)
    (x0 : Vec F S4096x128 .f32) (x1 : Vec F S4096 .i32) (x2 : Vec F S1024x128 .bf16) (x3 : Vec F S128x256 .bf16) (x4 : Vec F S128x256 .bf16) (x5 : Vec F S256 .f32) (x6 : Vec F S256x256 .bf16) (x7 : Vec F S256 .f32) (x8 : Vec F S256x128 .bf16) (x9 : Vec F S128 .f32) (x10 : Vec F S128 .f32) (x11 : Vec F S128 .f32) (xo : Vec F S1024x128 .f32) :
    out0_B_12 c i a1 h1 a2 h2 a3 h3 a4 h4 a5 h5 a6 h6 a7 h7 a8 h8 a9 h9 a10 h10 a11 h11 a12 h12 a13 h13 hc x0 x1 x2 x3 x4 x5 x6 x7 x8 x9 x10 x11 xo
      = k0_pay5 (k0_pay2 x1) (k0_pay3 x0 x1 x2 x3 x4 x5 x6) (k0_pay4 x7) x8 x9 x10 x11 xo := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 x7 x8 x9 x10 x11 xo)]
  unfold kernelRun0_B
  dsimp only
  sl_unfold_words
  rw [View.canon_unit_zero (S := S1024x128) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S4096x128) hz2, View.ld_unit_zero (S := S4096) hz1, View.ld_unit_zero (S := S1024x128) hz2, View.ld_unit_zero (S := S128x256) hz2, View.ld_unit_zero (S := S256) hz1, View.ld_unit_zero (S := S256x256) hz2, View.ld_unit_zero (S := S256x128) hz2, View.ld_unit_zero (S := S128) hz1]

/-- At point 0 the body first stores the reset block, loads it back as the accumulator, and its last store, which
    covers the buffer, leaves the tile update of the reset block. -/
private theorem out_A (c : Dev nD) (i : grid0.Coords) (a1 : Memref sig .tc .vmem S4096x128 .f32) (h1 : a1.IsWhole) (a2 : Memref sig .tc .vmem S4096 .i32) (h2 : a2.IsWhole) (a3 : Memref sig .tc .vmem S1024x128 .bf16) (h3 : a3.IsWhole) (a4 : Memref sig .tc .vmem S128x256 .bf16) (h4 : a4.IsWhole) (a5 : Memref sig .tc .vmem S128x256 .bf16) (h5 : a5.IsWhole) (a6 : Memref sig .tc .vmem S256 .f32) (h6 : a6.IsWhole) (a7 : Memref sig .tc .vmem S256x256 .bf16) (h7 : a7.IsWhole) (a8 : Memref sig .tc .vmem S256 .f32) (h8 : a8.IsWhole) (a9 : Memref sig .tc .vmem S256x128 .bf16) (h9 : a9.IsWhole) (a10 : Memref sig .tc .vmem S128 .f32) (h10 : a10.IsWhole) (a11 : Memref sig .tc .vmem S128 .f32) (h11 : a11.IsWhole) (a12 : Memref sig .tc .vmem S128 .f32) (h12 : a12.IsWhole) (a13 : Memref sig .tc .vmem S1024x128 .f32) (h13 : a13.IsWhole) (hc : cond0_0 i)
    (x0 : Vec F S4096x128 .f32) (x1 : Vec F S4096 .i32) (x2 : Vec F S1024x128 .bf16) (x3 : Vec F S128x256 .bf16) (x4 : Vec F S128x256 .bf16) (x5 : Vec F S256 .f32) (x6 : Vec F S256x256 .bf16) (x7 : Vec F S256 .f32) (x8 : Vec F S256x128 .bf16) (x9 : Vec F S128 .f32) (x10 : Vec F S128 .f32) (x11 : Vec F S128 .f32) :
    out0_A_12 c i a1 h1 a2 h2 a3 h3 a4 h4 a5 h5 a6 h6 a7 h7 a8 h8 a9 h9 a10 h10 a11 h11 a12 h12 a13 h13 hc x0 x1 x2 x3 x4 x5 x6 x7 x8 x9 x10 x11
      = k0_pay5 (k0_pay2 x1) (k0_pay3 x0 x1 x2 x3 x4 x5 x6) (k0_pay4 x7) x8 x9 x10 x11 (k0_pay1 (F := F)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6 x7 x8 x9 x10 x11)]
  unfold kernelRun0_A
  dsimp only
  sl_unfold_words
  rw [View.canon_cons_unit_zero (S := S1024x128) hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x128) hz2, View.ld_unit_zero (S := S4096) hz1, View.ld_unit_zero (S := S1024x128) hz2, View.ld_unit_zero (S := S128x256) hz2, View.ld_unit_zero (S := S256) hz1, View.ld_unit_zero (S := S256x256) hz2, View.ld_unit_zero (S := S256x128) hz2, View.ld_unit_zero (S := S128) hz1, View.readCov_unit_zero (S := S1024x128) _ hz2]

/-- What the result's staging buffer holds after point n is the accumulator after point n. -/
theorem outsAt0_eq (c : Dev nD) : ∀ (n : ℕ) (h : n < cfg0.N), outsAt0 V c n h = accK V c n h
  | 0, h => by
    -- point 0 is the resetting case: the update of the reset block
    rw [outsAt0_A V c ⟨0, h⟩ (Nat.zero_mod 123)]
    exact out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) ((hcond0_0 ⟨0, h⟩).mpr (Nat.zero_mod 123)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (iblk0 V c 7 ⟨0, h⟩) (iblk0 V c 8 ⟨0, h⟩) (iblk0 V c 9 ⟨0, h⟩) (iblk0 V c 10 ⟨0, h⟩) (iblk0 V c 11 ⟨0, h⟩)
  | n + 1, h => by
    -- a later point is below 123, so it is not a multiple of 123: the update of what point n left
    have hN : cfg0.N = 123 := N_0
    have hB : ¬(⟨n + 1, h⟩ : Fin cfg0.N).val % 123 = 0 := by dsimp only; omega
    rw [outsAt0_B V c ⟨n + 1, h⟩ hB]
    refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (fun hc => hB ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (iblk0 V c 9 ⟨n + 1, h⟩) (iblk0 V c 10 ⟨n + 1, h⟩) (iblk0 V c 11 ⟨n + 1, h⟩) (outsAt0 V c ((⟨n + 1, h⟩ : Fin cfg0.N).val - 1) (Nat.lt_of_le_of_lt (Nat.sub_le _ _) (⟨n + 1, h⟩ : Fin cfg0.N).isLt))).trans ?_
    show tileP V c ⟨n + 1, h⟩ (outsAt0 V c n _) = tileP V c ⟨n + 1, h⟩ (accK V c n _)
    rw [outsAt0_eq c n]

theorem lt_N0 : 122 < cfg0.N := by rw [show cfg0.N = 123 from N_0]; decide

/-- The last point of region 0. -/
private abbrev tLast : Fin cfg0.N := ⟨122, lt_N0⟩

/-- The result window of region 0 at the last point: its block starts at row 0 and lane 0 and is as large as the
    [1024,128] array, on both axes at once. -/
private theorem lastBlock_whole :
    (∀ a : Fin 2, win0_12.index tLast a * win0_12.size a = 0)
      ∧ (∀ a : Fin 2, win0_12.xsize (grid0.coords tLast) a = main_v9.ty.shape.size a)
      ∧ ∀ a : Fin 2, win0_12.index tLast a * main_v9.ty.shape.size a = 0 := by
  decide +kernel

/-- The only point that writes the result back is the last one, and what it writes is the accumulator after it: a block
    that starts at the origin and is as large as the array reads the array itself. -/
private theorem flushed0 (c : Dev nD) (t : Fin cfg0.N) (hf : (cfg0.win 12).flush t = true) :
    (dat0 V c).flushed 12 t = ((cfg0.win 12).blk t).view.read (Elt F) (accK V c 122 lt_N0) := by
  have hlast : t = tLast := Fin.ext (by
    have h := (flush0_12 t).mp hf
    have hlt : t.val < 123 := lt_of_lt_of_eq t.isLt (show cfg0.N = 123 from N_0)
    show t.val = 122
    omega)
  subst hlast
  have horigin : (fun a => win0_12.index tLast a * main_v9.ty.shape.size a) = fun _ => 0 :=
    funext fun a => lastBlock_whole.2.2 a
  show (cfg0.win 12).cut (grid0.coords tLast) ((dat0 V c).after 12 tLast) = _
  rw [after0_12, outsAt0_eq]
  exact (Memref.read_access_unit_zero (Elt F) main_v9 horigin (fun a => by rw [congrFun horigin a]; simp) (accK V c 122 lt_N0)).symm

/-- Region 0's result array ends at the accumulator after the last point: the last point's block covers every index of
    the array, because it starts at the origin and has the array's extents. -/
theorem region0_arr (c : Dev nD) : (dat0 V c).arrAt 12 cfg0.N = accK V c 122 lt_N0 := by
  refine (dat0 V c).arrAt_eq_of_cover 12 (accK V c 122 lt_N0) (flushed0 V c) fun i => ⟨tLast, (flush0_12 tLast).mpr rfl, ?_⟩
  show i ∈ ((View.whole main_v9).slice (win0_12.rect tLast)).set
  rw [View.set_slice_whole, Rect.mem_set_unit]
  intro a
  show win0_12.index tLast a * win0_12.size a ≤ (i a : Nat)
    ∧ (i a : Nat) < win0_12.index tLast a * win0_12.size a + win0_12.xsize (grid0.coords tLast) a
  rw [lastBlock_whole.1 a, lastBlock_whole.2.1 a, Nat.zero_add]
  exact ⟨Nat.zero_le _, (i a).isLt⟩

/-! ## Region 1: one point, every block a whole array -/

private theorem iblk1_0 (c : Dev nD) (t : Fin cfg1.N) : (iblk1 V c 0 t : Vec F S1024x128 .f32) = V c main_v9 := by
  have hi : win1_0.index t 0 = 0 ∧ win1_0.index t 1 = 0 :=
    (by decide +kernel : ∀ t : Fin grid1.N, win1_0.index t 0 = 0 ∧ win1_0.index t 1 = 0) t
  funext j
  unfold iblk1
  rw [View.read_apply]
  show V c main_v9 _ = V c main_v9 j
  congr 1
  funext a
  apply Fin.ext
  match a with
  | ⟨0, _⟩ => show win1_0.index t 0 * 1024 + 1 * (j 0).val = (j 0).val; rw [hi.1]; omega
  | ⟨1, _⟩ => show win1_0.index t 1 * 128 + 1 * (j 1).val = (j 1).val; rw [hi.2]; omega
private theorem iblk1_1 (c : Dev nD) (t : Fin cfg1.N) : (iblk1 V c 1 t : Vec F S1024x128 .f32) = V c main_arg1 := by
  have hi : win1_1.index t 0 = 0 ∧ win1_1.index t 1 = 0 :=
    (by decide +kernel : ∀ t : Fin grid1.N, win1_1.index t 0 = 0 ∧ win1_1.index t 1 = 0) t
  funext j
  unfold iblk1
  rw [View.read_apply]
  show V c main_arg1 _ = V c main_arg1 j
  congr 1
  funext a
  apply Fin.ext
  match a with
  | ⟨0, _⟩ => show win1_1.index t 0 * 1024 + 1 * (j 0).val = (j 0).val; rw [hi.1]; omega
  | ⟨1, _⟩ => show win1_1.index t 1 * 128 + 1 * (j 1).val = (j 1).val; rw [hi.2]; omega
private theorem iblk1_2 (c : Dev nD) (t : Fin cfg1.N) : (iblk1 V c 2 t : Vec F S128x256 .bf16) = V c main_v11 := by
  have hi : win1_2.index t 0 = 0 ∧ win1_2.index t 1 = 0 :=
    (by decide +kernel : ∀ t : Fin grid1.N, win1_2.index t 0 = 0 ∧ win1_2.index t 1 = 0) t
  funext j
  unfold iblk1
  rw [View.read_apply]
  show V c main_v11 _ = V c main_v11 j
  congr 1
  funext a
  apply Fin.ext
  match a with
  | ⟨0, _⟩ => show win1_2.index t 0 * 128 + 1 * (j 0).val = (j 0).val; rw [hi.1]; omega
  | ⟨1, _⟩ => show win1_2.index t 1 * 256 + 1 * (j 1).val = (j 1).val; rw [hi.2]; omega
private theorem iblk1_3 (c : Dev nD) (t : Fin cfg1.N) : (iblk1 V c 3 t : Vec F S128x256 .bf16) = V c main_v13 := by
  have hi : win1_3.index t 0 = 0 ∧ win1_3.index t 1 = 0 :=
    (by decide +kernel : ∀ t : Fin grid1.N, win1_3.index t 0 = 0 ∧ win1_3.index t 1 = 0) t
  funext j
  unfold iblk1
  rw [View.read_apply]
  show V c main_v13 _ = V c main_v13 j
  congr 1
  funext a
  apply Fin.ext
  match a with
  | ⟨0, _⟩ => show win1_3.index t 0 * 128 + 1 * (j 0).val = (j 0).val; rw [hi.1]; omega
  | ⟨1, _⟩ => show win1_3.index t 1 * 256 + 1 * (j 1).val = (j 1).val; rw [hi.2]; omega
private theorem iblk1_4 (c : Dev nD) (t : Fin cfg1.N) : (iblk1 V c 4 t : Vec F S256 .f32) = V c main_arg12 := by
  have hi : win1_4.index t 0 = 0 :=
    (by decide +kernel : ∀ t : Fin grid1.N, win1_4.index t 0 = 0) t
  funext j
  unfold iblk1
  rw [View.read_apply]
  show V c main_arg12 _ = V c main_arg12 j
  congr 1
  funext a
  apply Fin.ext
  match a with
  | ⟨0, _⟩ => show win1_4.index t 0 * 256 + 1 * (j 0).val = (j 0).val; rw [hi]; omega
private theorem iblk1_5 (c : Dev nD) (t : Fin cfg1.N) : (iblk1 V c 5 t : Vec F S256x256 .bf16) = V c main_v14 := by
  have hi : win1_5.index t 0 = 0 ∧ win1_5.index t 1 = 0 :=
    (by decide +kernel : ∀ t : Fin grid1.N, win1_5.index t 0 = 0 ∧ win1_5.index t 1 = 0) t
  funext j
  unfold iblk1
  rw [View.read_apply]
  show V c main_v14 _ = V c main_v14 j
  congr 1
  funext a
  apply Fin.ext
  match a with
  | ⟨0, _⟩ => show win1_5.index t 0 * 256 + 1 * (j 0).val = (j 0).val; rw [hi.1]; omega
  | ⟨1, _⟩ => show win1_5.index t 1 * 256 + 1 * (j 1).val = (j 1).val; rw [hi.2]; omega
private theorem iblk1_6 (c : Dev nD) (t : Fin cfg1.N) : (iblk1 V c 6 t : Vec F S256 .f32) = V c main_arg14 := by
  have hi : win1_6.index t 0 = 0 :=
    (by decide +kernel : ∀ t : Fin grid1.N, win1_6.index t 0 = 0) t
  funext j
  unfold iblk1
  rw [View.read_apply]
  show V c main_arg14 _ = V c main_arg14 j
  congr 1
  funext a
  apply Fin.ext
  match a with
  | ⟨0, _⟩ => show win1_6.index t 0 * 256 + 1 * (j 0).val = (j 0).val; rw [hi]; omega
private theorem iblk1_7 (c : Dev nD) (t : Fin cfg1.N) : (iblk1 V c 7 t : Vec F S256x128 .bf16) = V c main_v15 := by
  have hi : win1_7.index t 0 = 0 ∧ win1_7.index t 1 = 0 :=
    (by decide +kernel : ∀ t : Fin grid1.N, win1_7.index t 0 = 0 ∧ win1_7.index t 1 = 0) t
  funext j
  unfold iblk1
  rw [View.read_apply]
  show V c main_v15 _ = V c main_v15 j
  congr 1
  funext a
  apply Fin.ext
  match a with
  | ⟨0, _⟩ => show win1_7.index t 0 * 256 + 1 * (j 0).val = (j 0).val; rw [hi.1]; omega
  | ⟨1, _⟩ => show win1_7.index t 1 * 128 + 1 * (j 1).val = (j 1).val; rw [hi.2]; omega
private theorem iblk1_8 (c : Dev nD) (t : Fin cfg1.N) : (iblk1 V c 8 t : Vec F S128 .f32) = V c main_arg16 := by
  have hi : win1_8.index t 0 = 0 :=
    (by decide +kernel : ∀ t : Fin grid1.N, win1_8.index t 0 = 0) t
  funext j
  unfold iblk1
  rw [View.read_apply]
  show V c main_arg16 _ = V c main_arg16 j
  congr 1
  funext a
  apply Fin.ext
  match a with
  | ⟨0, _⟩ => show win1_8.index t 0 * 128 + 1 * (j 0).val = (j 0).val; rw [hi]; omega
private theorem iblk1_9 (c : Dev nD) (t : Fin cfg1.N) : (iblk1 V c 9 t : Vec F S128 .f32) = V c main_arg17 := by
  have hi : win1_9.index t 0 = 0 :=
    (by decide +kernel : ∀ t : Fin grid1.N, win1_9.index t 0 = 0) t
  funext j
  unfold iblk1
  rw [View.read_apply]
  show V c main_arg17 _ = V c main_arg17 j
  congr 1
  funext a
  apply Fin.ext
  match a with
  | ⟨0, _⟩ => show win1_9.index t 0 * 128 + 1 * (j 0).val = (j 0).val; rw [hi]; omega
private theorem iblk1_10 (c : Dev nD) (t : Fin cfg1.N) : (iblk1 V c 10 t : Vec F S128 .f32) = V c main_arg18 := by
  have hi : win1_10.index t 0 = 0 :=
    (by decide +kernel : ∀ t : Fin grid1.N, win1_10.index t 0 = 0) t
  funext j
  unfold iblk1
  rw [View.read_apply]
  show V c main_arg18 _ = V c main_arg18 j
  congr 1
  funext a
  apply Fin.ext
  match a with
  | ⟨0, _⟩ => show win1_10.index t 0 * 128 + 1 * (j 0).val = (j 0).val; rw [hi]; omega

/-- The body's one store covers the result's buffer and every load reads a whole buffer: the buffer ends at the
    stored value over the buffers' contents. -/
private theorem out1_val (x0 : Vec F S1024x128 .f32) (x1 : Vec F S1024x128 .f32) (x2 : Vec F S128x256 .bf16) (x3 : Vec F S128x256 .bf16) (x4 : Vec F S256 .f32) (x5 : Vec F S256x256 .bf16) (x6 : Vec F S256 .f32) (x7 : Vec F S256x128 .bf16) (x8 : Vec F S128 .f32) (x9 : Vec F S128 .f32) (x10 : Vec F S128 .f32) :
    out1_11 x0 x1 x2 x3 x4 x5 x6 x7 x8 x9 x10 = k1_pay1 x1 (k1_pay2 x0 x1 x2 x3 x4 x5 x6 x7 x8) (k1_pay3 x0 x1 x2 x3 x4 x5 x6 x7 x8) x9 x10 := by
  unfold out1_11
  rw [View.canon_unit_zero (S := S1024x128) hz2]
  simp only [View.ld_unit_zero (S := S4096x128) hz2, View.ld_unit_zero (S := S4096) hz1, View.ld_unit_zero (S := S1024x128) hz2, View.ld_unit_zero (S := S128x256) hz2, View.ld_unit_zero (S := S256) hz1, View.ld_unit_zero (S := S256x256) hz2, View.ld_unit_zero (S := S256x128) hz2, View.ld_unit_zero (S := S128) hz1]

/-- Region 1's stored value over the whole input arrays. -/
private abbrev res1 (c : Dev nD) : Vec F S1024x128 .f32 :=
  k1_pay1 (V c main_arg1 : Vec F S1024x128 .f32) (k1_pay2 (V c main_v9 : Vec F S1024x128 .f32) (V c main_arg1 : Vec F S1024x128 .f32) (V c main_v11 : Vec F S128x256 .bf16) (V c main_v13 : Vec F S128x256 .bf16) (V c main_arg12 : Vec F S256 .f32) (V c main_v14 : Vec F S256x256 .bf16) (V c main_arg14 : Vec F S256 .f32) (V c main_v15 : Vec F S256x128 .bf16) (V c main_arg16 : Vec F S128 .f32)) (k1_pay3 (V c main_v9 : Vec F S1024x128 .f32) (V c main_arg1 : Vec F S1024x128 .f32) (V c main_v11 : Vec F S128x256 .bf16) (V c main_v13 : Vec F S128x256 .bf16) (V c main_arg12 : Vec F S256 .f32) (V c main_v14 : Vec F S256x256 .bf16) (V c main_arg14 : Vec F S256 .f32) (V c main_v15 : Vec F S256x128 .bf16) (V c main_arg16 : Vec F S128 .f32)) (V c main_arg17 : Vec F S128 .f32) (V c main_arg18 : Vec F S128 .f32)

/-- What the body leaves in the result's buffer at the one point is that value. -/
private theorem after1_val (c : Dev nD) (t : Fin cfg1.N) : (dat1 V c).after 11 t = res1 V c := by
  rw [after1_11]
  refine (out1_val (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).trans ?_
  rw [iblk1_0 V c t, iblk1_1 V c t, iblk1_2 V c t, iblk1_3 V c t, iblk1_4 V c t, iblk1_5 V c t, iblk1_6 V c t, iblk1_7 V c t, iblk1_8 V c t, iblk1_9 V c t, iblk1_10 V c t]

/-- The one write-back writes it: the result's block is the whole [1024,128] array at zero offsets. -/
private theorem flushed1 (c : Dev nD) (t : Fin cfg1.N) (hf : (cfg1.win 11).flush t = true) :
    (dat1 V c).flushed 11 t = ((cfg1.win 11).blk t).view.read (Elt F) (res1 V c) := by
  obtain rfl : t = t1_0 := fin_N1 t
  show (cfg1.win 11).cut (grid1.coords t1_0) ((dat1 V c).after 11 t1_0) = _
  rw [after1_val]
  have hz' : (fun a => win1_11.index t1_0 a * main_v16.ty.shape.size a) = fun _ => 0 :=
    funext fun a => by fin_cases a <;> decide +kernel
  exact (Memref.read_access_unit_zero (Elt F) main_v16 hz' (fun a => by rw [congrFun hz' a]; simp) (res1 V c)).symm

/-- Region 1's result array ends at the body's stored value over the whole input arrays. -/
theorem region1_arr (c : Dev nD) : (dat1 V c).arrAt 11 cfg1.N
    = k1_pay1 (V c main_arg1 : Vec F S1024x128 .f32)
        (k1_pay2 (V c main_v9 : Vec F S1024x128 .f32) (V c main_arg1 : Vec F S1024x128 .f32) (V c main_v11 : Vec F S128x256 .bf16)
          (V c main_v13 : Vec F S128x256 .bf16) (V c main_arg12 : Vec F S256 .f32) (V c main_v14 : Vec F S256x256 .bf16)
          (V c main_arg14 : Vec F S256 .f32) (V c main_v15 : Vec F S256x128 .bf16) (V c main_arg16 : Vec F S128 .f32))
        (k1_pay3 (V c main_v9 : Vec F S1024x128 .f32) (V c main_arg1 : Vec F S1024x128 .f32) (V c main_v11 : Vec F S128x256 .bf16)
          (V c main_v13 : Vec F S128x256 .bf16) (V c main_arg12 : Vec F S256 .f32) (V c main_v14 : Vec F S256x256 .bf16)
          (V c main_arg14 : Vec F S256 .f32) (V c main_v15 : Vec F S256x128 .bf16) (V c main_arg16 : Vec F S128 .f32))
        (V c main_arg17 : Vec F S128 .f32) (V c main_arg18 : Vec F S128 .f32) :=
  (dat1 V c).arrAt_eq_of_cover 11 (res1 V c) (flushed1 V c) fun i =>
    ⟨t1_0, flush1_11 t1_0, by
      show i ∈ ((View.whole main_v16).slice (win1_11.rect t1_0)).set
      rw [View.set_slice_whole, Rect.mem_set_unit]
      intro a
      have hr : (i 0 : Nat) < 1024 := (i 0).isLt
      have hl : (i 1 : Nat) < 128 := (i 1).isLt
      match a with
      | ⟨0, _⟩ =>
        show win1_11.index t1_0 0 * win1_11.size 0 ≤ (i 0 : Nat) ∧ (i 0 : Nat) < win1_11.index t1_0 0 * win1_11.size 0 + win1_11.xsize (grid1.coords t1_0) 0
        rw [show win1_11.index t1_0 0 * win1_11.size 0 = 0 from by decide +kernel, show win1_11.xsize (grid1.coords t1_0) 0 = 1024 from by decide +kernel]
        omega
      | ⟨1, _⟩ =>
        show win1_11.index t1_0 1 * win1_11.size 1 ≤ (i 1 : Nat) ∧ (i 1 : Nat) < win1_11.index t1_0 1 * win1_11.size 1 + win1_11.xsize (grid1.coords t1_0) 1
        rw [show win1_11.index t1_0 1 * win1_11.size 1 = 0 from by decide +kernel, show win1_11.xsize (grid1.coords t1_0) 1 = 128 from by decide +kernel]
        omega⟩

/-! ## The input blocks of region 0 -/

theorem val_lt (t : Fin cfg0.N) : t.val < 123 := lt_of_lt_of_eq t.isLt (show cfg0.N = 123 from N_0)

/-- Tile t's node rows are rows 4096 t … 4096 t + 4095 of the padded node array. -/
theorem iblk0_x (c : Dev nD) (t : Fin cfg0.N) (r : Fin 4096) (k : Fin 128) :
    (iblk0 V c 0 t : Vec F S4096x128 .f32) (ix2 r k)
      = (V c main_v0 : Vec F S503808x128 .f32) (ix2 ⟨t.val * 4096 + r.val, by have := val_lt t; have := r.isLt; omega⟩ k) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_v0 _ = V c main_v0 _
  congr 1
  funext a
  apply Fin.ext
  match a with
  | ⟨0, _⟩ => show win0_0.index t 0 * 4096 + 1 * r.val = t.val * 4096 + r.val; rw [hi.1]; omega
  | ⟨1, _⟩ => show win0_0.index t 1 * 128 + 1 * k.val = k.val; rw [hi.2]; omega

/-- Tile t's ids are entries 4096 t … 4096 t + 4095 of the padded id array. -/
theorem iblk0_b (c : Dev nD) (t : Fin cfg0.N) (r : Fin 4096) :
    (iblk0 V c 1 t : Vec F S4096 .i32) (ix1 r)
      = (V c main_v1 : Vec F S503808 .i32) (ix1 ⟨t.val * 4096 + r.val, by have := val_lt t; have := r.isLt; omega⟩) := by
  have hi : win0_1.index t 0 = t.val :=
    (by decide +kernel : ∀ t : Fin grid0.N, win0_1.index t 0 = t.val) t
  unfold iblk0
  rw [View.read_apply]
  show V c main_v1 _ = V c main_v1 _
  congr 1
  funext a
  apply Fin.ext
  match a with
  | ⟨0, _⟩ => show win0_1.index t 0 * 4096 + 1 * r.val = t.val * 4096 + r.val; rw [hi]; omega

/-- The other ten input windows never move: their block is the whole array. -/
theorem iblk0_2 (c : Dev nD) (t : Fin cfg0.N) : (iblk0 V c 2 t : Vec F S1024x128 .bf16) = V c main_v2 := by
  have hi : win0_2.index t 0 = 0 ∧ win0_2.index t 1 = 0 :=
    (by decide +kernel : ∀ t : Fin grid0.N, win0_2.index t 0 = 0 ∧ win0_2.index t 1 = 0) t
  funext j
  unfold iblk0
  rw [View.read_apply]
  show V c main_v2 _ = V c main_v2 j
  congr 1
  funext a
  apply Fin.ext
  match a with
  | ⟨0, _⟩ => show win0_2.index t 0 * 1024 + 1 * (j 0).val = (j 0).val; rw [hi.1]; omega
  | ⟨1, _⟩ => show win0_2.index t 1 * 128 + 1 * (j 1).val = (j 1).val; rw [hi.2]; omega
theorem iblk0_3 (c : Dev nD) (t : Fin cfg0.N) : (iblk0 V c 3 t : Vec F S128x256 .bf16) = V c main_v4 := by
  have hi : win0_3.index t 0 = 0 ∧ win0_3.index t 1 = 0 :=
    (by decide +kernel : ∀ t : Fin grid0.N, win0_3.index t 0 = 0 ∧ win0_3.index t 1 = 0) t
  funext j
  unfold iblk0
  rw [View.read_apply]
  show V c main_v4 _ = V c main_v4 j
  congr 1
  funext a
  apply Fin.ext
  match a with
  | ⟨0, _⟩ => show win0_3.index t 0 * 128 + 1 * (j 0).val = (j 0).val; rw [hi.1]; omega
  | ⟨1, _⟩ => show win0_3.index t 1 * 256 + 1 * (j 1).val = (j 1).val; rw [hi.2]; omega
theorem iblk0_4 (c : Dev nD) (t : Fin cfg0.N) : (iblk0 V c 4 t : Vec F S128x256 .bf16) = V c main_v6 := by
  have hi : win0_4.index t 0 = 0 ∧ win0_4.index t 1 = 0 :=
    (by decide +kernel : ∀ t : Fin grid0.N, win0_4.index t 0 = 0 ∧ win0_4.index t 1 = 0) t
  funext j
  unfold iblk0
  rw [View.read_apply]
  show V c main_v6 _ = V c main_v6 j
  congr 1
  funext a
  apply Fin.ext
  match a with
  | ⟨0, _⟩ => show win0_4.index t 0 * 128 + 1 * (j 0).val = (j 0).val; rw [hi.1]; omega
  | ⟨1, _⟩ => show win0_4.index t 1 * 256 + 1 * (j 1).val = (j 1).val; rw [hi.2]; omega
theorem iblk0_5 (c : Dev nD) (t : Fin cfg0.N) : (iblk0 V c 5 t : Vec F S256 .f32) = V c main_arg4 := by
  have hi : win0_5.index t 0 = 0 :=
    (by decide +kernel : ∀ t : Fin grid0.N, win0_5.index t 0 = 0) t
  funext j
  unfold iblk0
  rw [View.read_apply]
  show V c main_arg4 _ = V c main_arg4 j
  congr 1
  funext a
  apply Fin.ext
  match a with
  | ⟨0, _⟩ => show win0_5.index t 0 * 256 + 1 * (j 0).val = (j 0).val; rw [hi]; omega
theorem iblk0_6 (c : Dev nD) (t : Fin cfg0.N) : (iblk0 V c 6 t : Vec F S256x256 .bf16) = V c main_v7 := by
  have hi : win0_6.index t 0 = 0 ∧ win0_6.index t 1 = 0 :=
    (by decide +kernel : ∀ t : Fin grid0.N, win0_6.index t 0 = 0 ∧ win0_6.index t 1 = 0) t
  funext j
  unfold iblk0
  rw [View.read_apply]
  show V c main_v7 _ = V c main_v7 j
  congr 1
  funext a
  apply Fin.ext
  match a with
  | ⟨0, _⟩ => show win0_6.index t 0 * 256 + 1 * (j 0).val = (j 0).val; rw [hi.1]; omega
  | ⟨1, _⟩ => show win0_6.index t 1 * 256 + 1 * (j 1).val = (j 1).val; rw [hi.2]; omega
theorem iblk0_7 (c : Dev nD) (t : Fin cfg0.N) : (iblk0 V c 7 t : Vec F S256 .f32) = V c main_arg6 := by
  have hi : win0_7.index t 0 = 0 :=
    (by decide +kernel : ∀ t : Fin grid0.N, win0_7.index t 0 = 0) t
  funext j
  unfold iblk0
  rw [View.read_apply]
  show V c main_arg6 _ = V c main_arg6 j
  congr 1
  funext a
  apply Fin.ext
  match a with
  | ⟨0, _⟩ => show win0_7.index t 0 * 256 + 1 * (j 0).val = (j 0).val; rw [hi]; omega
theorem iblk0_8 (c : Dev nD) (t : Fin cfg0.N) : (iblk0 V c 8 t : Vec F S256x128 .bf16) = V c main_v8 := by
  have hi : win0_8.index t 0 = 0 ∧ win0_8.index t 1 = 0 :=
    (by decide +kernel : ∀ t : Fin grid0.N, win0_8.index t 0 = 0 ∧ win0_8.index t 1 = 0) t
  funext j
  unfold iblk0
  rw [View.read_apply]
  show V c main_v8 _ = V c main_v8 j
  congr 1
  funext a
  apply Fin.ext
  match a with
  | ⟨0, _⟩ => show win0_8.index t 0 * 256 + 1 * (j 0).val = (j 0).val; rw [hi.1]; omega
  | ⟨1, _⟩ => show win0_8.index t 1 * 128 + 1 * (j 1).val = (j 1).val; rw [hi.2]; omega
theorem iblk0_9 (c : Dev nD) (t : Fin cfg0.N) : (iblk0 V c 9 t : Vec F S128 .f32) = V c main_arg8 := by
  have hi : win0_9.index t 0 = 0 :=
    (by decide +kernel : ∀ t : Fin grid0.N, win0_9.index t 0 = 0) t
  funext j
  unfold iblk0
  rw [View.read_apply]
  show V c main_arg8 _ = V c main_arg8 j
  congr 1
  funext a
  apply Fin.ext
  match a with
  | ⟨0, _⟩ => show win0_9.index t 0 * 128 + 1 * (j 0).val = (j 0).val; rw [hi]; omega
theorem iblk0_10 (c : Dev nD) (t : Fin cfg0.N) : (iblk0 V c 10 t : Vec F S128 .f32) = V c main_arg9 := by
  have hi : win0_10.index t 0 = 0 :=
    (by decide +kernel : ∀ t : Fin grid0.N, win0_10.index t 0 = 0) t
  funext j
  unfold iblk0
  rw [View.read_apply]
  show V c main_arg9 _ = V c main_arg9 j
  congr 1
  funext a
  apply Fin.ext
  match a with
  | ⟨0, _⟩ => show win0_10.index t 0 * 128 + 1 * (j 0).val = (j 0).val; rw [hi]; omega
theorem iblk0_11 (c : Dev nD) (t : Fin cfg0.N) : (iblk0 V c 11 t : Vec F S128 .f32) = V c main_arg10 := by
  have hi : win0_11.index t 0 = 0 :=
    (by decide +kernel : ∀ t : Fin grid0.N, win0_11.index t 0 = 0) t
  funext j
  unfold iblk0
  rw [View.read_apply]
  show V c main_arg10 _ = V c main_arg10 j
  congr 1
  funext a
  apply Fin.ext
  match a with
  | ⟨0, _⟩ => show win0_11.index t 0 * 128 + 1 * (j 0).val = (j 0).val; rw [hi]; omega

end Cert.KernelIdeal.Fold

end
-- ==== Proof.HostGlue.lean ====
/-
  What the arrays hold when each region is entered, as host operations of the launch memory, at any float instance.
  Before region 0: the node array padded with zeros and the id array padded with -1 to 503808 rows, u and the
  stage-A weights narrowed to bf16 (the first weight cut into its top and bottom 128 rows first), the biases and the
  normalisation's scale and shift as launched. Before region 1: region 0's result array, u as launched, the stage-B
  weights narrowed likewise, the biases, scale and shift as launched.
-/
import proofs.«408234_j7662221656191_1_alg».proof.Proof.Gen.KernelIdeal.Frame
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Glue

open Cert.KernelIdeal Cert.KernelIdeal.Gen

variable {F : FTy → Type} [FloatOps F]
variable (m : (ℓ : Loc nD τ sig) → Buf (Elt F) ℓ) (ρ : Dev nD → PrngReg)

/-! ## Each stretch of host operations: what it leaves alone, what it writes

A stretch writes the buffers of a short list; at any other buffer the contents pass through it unchanged. At a buffer
it does write, the contents are the operations' functions applied to the contents the stretch found. -/

section Stretches

variable (V : Valuation τ sig (Elt F))

/-- An operation whose one written buffer is a member of a list writes inside that list. -/
private theorem writes_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The constant 0 is the only buffer the first stretch writes. -/
private theorem keep0 {b : Ref sig .tc} (hb : b ∉ [main_c]) :
    StableHlo.after hostOps0 V (Proc.devRef .tc b) = V (Proc.devRef .tc b) :=
  StableHlo.after_of_writes_sub hostOps0 V (writes_sub (StableHlo.nullary_writes ..) (by decide)) hb

/-- The node array's padding writes its fill value and the padded array. -/
private theorem keep1 {b : Ref sig .tc} (hb : b ∉ [main_call0_v0, main_v0]) :
    StableHlo.after hostOps0_1 V (Proc.devRef .tc b) = V (Proc.devRef .tc b) :=
  StableHlo.after_of_writes_sub hostOps0_1 V
    ⟨writes_sub (StableHlo.unary_writes ..) (by decide), writes_sub (StableHlo.binary_writes ..) (by decide)⟩ hb

/-- The constant -1 is the only buffer the third stretch writes. -/
private theorem keep2 {b : Ref sig .tc} (hb : b ∉ [main_c_0]) :
    StableHlo.after hostOps0_2 V (Proc.devRef .tc b) = V (Proc.devRef .tc b) :=
  StableHlo.after_of_writes_sub hostOps0_2 V (writes_sub (StableHlo.nullary_writes ..) (by decide)) hb

/-- The id array's padding writes its fill value and the padded array. -/
private theorem keep3 {b : Ref sig .tc} (hb : b ∉ [main_call1_v0, main_v1]) :
    StableHlo.after hostOps0_3 V (Proc.devRef .tc b) = V (Proc.devRef .tc b) :=
  StableHlo.after_of_writes_sub hostOps0_3 V
    ⟨writes_sub (StableHlo.unary_writes ..) (by decide), writes_sub (StableHlo.binary_writes ..) (by decide)⟩ hb

/-- The narrowing of u and of the stage-A weights writes the seven buffers main_v2 to main_v8. -/
private theorem keep4 {b : Ref sig .tc} (hb : b ∉ [main_v2, main_v3, main_v4, main_v5, main_v6, main_v7, main_v8]) :
    StableHlo.after hostOps0_4 V (Proc.devRef .tc b) = V (Proc.devRef .tc b) :=
  StableHlo.after_of_writes_sub hostOps0_4 V
    ⟨writes_sub (StableHlo.unary_writes ..) (by decide), writes_sub (StableHlo.unary_writes ..) (by decide),
     writes_sub (StableHlo.unary_writes ..) (by decide), writes_sub (StableHlo.unary_writes ..) (by decide),
     writes_sub (StableHlo.unary_writes ..) (by decide), writes_sub (StableHlo.unary_writes ..) (by decide),
     writes_sub (StableHlo.unary_writes ..) (by decide)⟩ hb

/-- The narrowing of the stage-B weights writes the six buffers main_v10 to main_v15. -/
private theorem keepH1 {b : Ref sig .tc} (hb : b ∉ [main_v10, main_v11, main_v12, main_v13, main_v14, main_v15]) :
    StableHlo.after hostOps1 V (Proc.devRef .tc b) = V (Proc.devRef .tc b) :=
  StableHlo.after_of_writes_sub hostOps1 V
    ⟨writes_sub (StableHlo.unary_writes ..) (by decide), writes_sub (StableHlo.unary_writes ..) (by decide),
     writes_sub (StableHlo.unary_writes ..) (by decide), writes_sub (StableHlo.unary_writes ..) (by decide),
     writes_sub (StableHlo.unary_writes ..) (by decide), writes_sub (StableHlo.unary_writes ..) (by decide)⟩ hb

end Stretches

section Values

variable (V : Valuation τ sig (Elt F))

/-! What each stretch leaves in a buffer it writes, as the operations' functions of what it found. -/

private theorem at0_c : (StableHlo.after hostOps0 V (Proc.devRef .tc main_c) : Vec F S_ .i32) = constantI S_ 32 0#32 := by
  after_results
private theorem at1_v0 : (StableHlo.after hostOps0_1 V (Proc.devRef .tc main_v0) : Vec F S503808x128 .f32)
    = pad S503808x128 ![0, 0] ![3808, 0] ![0, 0] (V (Proc.devRef .tc main_arg0)) (sitofp .f32 (V (Proc.devRef .tc main_c)))
        pads_S500000x128_S503808x128_038080_000 h_S_ := by
  after_results; rfl
private theorem at2_c0 : (StableHlo.after hostOps0_2 V (Proc.devRef .tc main_c_0) : Vec F S_ .i32) = constantI S_ 32 4294967295#32 := by
  after_results
private theorem at3_v1 : (StableHlo.after hostOps0_3 V (Proc.devRef .tc main_v1) : Vec F S503808 .i32)
    = pad S503808 ![0] ![3808] ![0] (V (Proc.devRef .tc main_arg2)) (V (Proc.devRef .tc main_c_0)) pads_S500000_S503808_038080 h_S_ := by
  after_results; rfl
private theorem at4_v2 : (StableHlo.after hostOps0_4 V (Proc.devRef .tc main_v2) : Vec F S1024x128 .bf16)
    = truncf .bf16 (V (Proc.devRef .tc main_arg1) : FVec F S1024x128 .f32) bitsLt_bf16_f32 := by
  after_results
private theorem at4_v4 : (StableHlo.after hostOps0_4 V (Proc.devRef .tc main_v4) : Vec F S128x256 .bf16)
    = truncf .bf16 (extractStridedSlice S128x256 ![0, 0] (V (Proc.devRef .tc main_arg3)) slices_S256x256_S128x256_0_0 : FVec F S128x256 .f32) bitsLt_bf16_f32 := by
  after_results
private theorem at4_v6 : (StableHlo.after hostOps0_4 V (Proc.devRef .tc main_v6) : Vec F S128x256 .bf16)
    = truncf .bf16 (extractStridedSlice S128x256 ![128, 0] (V (Proc.devRef .tc main_arg3)) slices_S256x256_S128x256_128_0 : FVec F S128x256 .f32) bitsLt_bf16_f32 := by
  after_results
private theorem at4_v7 : (StableHlo.after hostOps0_4 V (Proc.devRef .tc main_v7) : Vec F S256x256 .bf16)
    = truncf .bf16 (V (Proc.devRef .tc main_arg5) : FVec F S256x256 .f32) bitsLt_bf16_f32 := by
  after_results
private theorem at4_v8 : (StableHlo.after hostOps0_4 V (Proc.devRef .tc main_v8) : Vec F S256x128 .bf16)
    = truncf .bf16 (V (Proc.devRef .tc main_arg7) : FVec F S256x128 .f32) bitsLt_bf16_f32 := by
  after_results
private theorem atH1_v11 : (StableHlo.after hostOps1 V (Proc.devRef .tc main_v11) : Vec F S128x256 .bf16)
    = truncf .bf16 (extractStridedSlice S128x256 ![0, 0] (V (Proc.devRef .tc main_arg11)) slices_S256x256_S128x256_0_0 : FVec F S128x256 .f32) bitsLt_bf16_f32 := by
  after_results
private theorem atH1_v13 : (StableHlo.after hostOps1 V (Proc.devRef .tc main_v13) : Vec F S128x256 .bf16)
    = truncf .bf16 (extractStridedSlice S128x256 ![128, 0] (V (Proc.devRef .tc main_arg11)) slices_S256x256_S128x256_128_0 : FVec F S128x256 .f32) bitsLt_bf16_f32 := by
  after_results
private theorem atH1_v14 : (StableHlo.after hostOps1 V (Proc.devRef .tc main_v14) : Vec F S256x256 .bf16)
    = truncf .bf16 (V (Proc.devRef .tc main_arg13) : FVec F S256x256 .f32) bitsLt_bf16_f32 := by
  after_results
private theorem atH1_v15 : (StableHlo.after hostOps1 V (Proc.devRef .tc main_v15) : Vec F S256x128 .bf16)
    = truncf .bf16 (V (Proc.devRef .tc main_arg15) : FVec F S256x128 .f32) bitsLt_bf16_f32 := by
  after_results

end Values

/-! ## The fold at a buffer not yet written: its launch contents -/

private theorem not_mem_of_sub {W W' : List (Ref sig .tc)} {b : Ref sig .tc} (hb : b ∉ W) (h : ∀ x ∈ W', x ∈ W) :
    b ∉ W' := fun hm => hb (h b hm)

private theorem W1_keep (c : Dev nD) {b : Ref sig .tc} (hb : b ∉ [main_c]) :
    W1 m ρ c (Proc.devRef .tc b) = m ((c : Thread nD τ).loc b) :=
  (keep0 (W0 m ρ c) hb).trans rfl
private theorem W2_keep (c : Dev nD) {b : Ref sig .tc} (hb : b ∉ [main_c, main_call0_v0, main_v0]) :
    W2 m ρ c (Proc.devRef .tc b) = m ((c : Thread nD τ).loc b) :=
  (keep1 (W1 m ρ c) (not_mem_of_sub hb (by decide))).trans (W1_keep m ρ c (not_mem_of_sub hb (by decide)))
private theorem W3_keep (c : Dev nD) {b : Ref sig .tc} (hb : b ∉ [main_c, main_call0_v0, main_v0, main_c_0]) :
    W3 m ρ c (Proc.devRef .tc b) = m ((c : Thread nD τ).loc b) :=
  (keep2 (W2 m ρ c) (not_mem_of_sub hb (by decide))).trans (W2_keep m ρ c (not_mem_of_sub hb (by decide)))
private theorem W4_keep (c : Dev nD) {b : Ref sig .tc}
    (hb : b ∉ [main_c, main_call0_v0, main_v0, main_c_0, main_call1_v0, main_v1]) :
    W4 m ρ c (Proc.devRef .tc b) = m ((c : Thread nD τ).loc b) :=
  (keep3 (W3 m ρ c) (not_mem_of_sub hb (by decide))).trans (W3_keep m ρ c (not_mem_of_sub hb (by decide)))
/-- A buffer no host operation before region 0 writes holds its launch contents when region 0 is entered. -/
private theorem W5_keep (c : Dev nD) {b : Ref sig .tc}
    (hb : b ∉ [main_c, main_call0_v0, main_v0, main_c_0, main_call1_v0, main_v1, main_v2, main_v3, main_v4, main_v5,
      main_v6, main_v7, main_v8]) :
    W5 m ρ c (Proc.devRef .tc b) = m ((c : Thread nD τ).loc b) :=
  (keep4 (W4 m ρ c) (not_mem_of_sub hb (by decide))).trans (W4_keep m ρ c (not_mem_of_sub hb (by decide)))
/-- If it is moreover no array of region 0's windows, it still does at region 0's exit. -/
private theorem W6_keep (c : Dev nD) {b : Ref sig .tc}
    (hb : b ∉ [main_c, main_call0_v0, main_v0, main_c_0, main_call1_v0, main_v1, main_v2, main_v3, main_v4, main_v5,
      main_v6, main_v7, main_v8])
    (hr : ∀ w, Pipeline.arrRef spec0 w ≠ b) :
    W6 m ρ c (Proc.devRef .tc b) = m ((c : Thread nD τ).loc b) :=
  (W6_of_ne m ρ c b hr).trans (W5_keep m ρ c hb)
/-- And, if the stage-B narrowing does not write it, when region 1 is entered. -/
private theorem W7_keep (c : Dev nD) {b : Ref sig .tc}
    (hb : b ∉ [main_c, main_call0_v0, main_v0, main_c_0, main_call1_v0, main_v1, main_v2, main_v3, main_v4, main_v5,
      main_v6, main_v7, main_v8])
    (hr : ∀ w, Pipeline.arrRef spec0 w ≠ b)
    (h1 : b ∉ [main_v10, main_v11, main_v12, main_v13, main_v14, main_v15]) :
    W7 m ρ c (Proc.devRef .tc b) = m ((c : Thread nD τ).loc b) :=
  (keepH1 (W6 m ρ c) h1).trans (W6_keep m ρ c hb hr)

/-- The two fill values: the constants 0 and -1 as the first and the third stretch leave them. -/
private theorem W1_c (c : Dev nD) : (W1 m ρ c (Proc.devRef .tc main_c) : Vec F S_ .i32) = constantI S_ 32 0#32 :=
  at0_c (W0 m ρ c)
private theorem W3_c0 (c : Dev nD) : (W3 m ρ c (Proc.devRef .tc main_c_0) : Vec F S_ .i32) = constantI S_ 32 4294967295#32 :=
  at2_c0 (W2 m ρ c)

/-! ## On entry to region 0 -/

theorem V5_v0 (c : Dev nD) : (V5 m ρ c main_v0 : Vec F S503808x128 .f32)
    = pad S503808x128 ![0, 0] ![3808, 0] ![0, 0] (m ((c : Thread nD τ).loc main_arg0)) (sitofp .f32 (constantI S_ 32 0#32)) pads_S500000x128_S503808x128_038080_000 h_S_ := by
  -- the three later stretches do not write the padded array; the padding reads the node array and the constant 0
  refine (keep4 (W4 m ρ c) (b := main_v0) (by decide)).trans ?_
  refine (keep3 (W3 m ρ c) (b := main_v0) (by decide)).trans ?_
  refine (keep2 (W2 m ρ c) (b := main_v0) (by decide)).trans ?_
  refine (at1_v0 (W1 m ρ c)).trans ?_
  rw [W1_keep m ρ c (b := main_arg0) (by decide), W1_c m ρ c]
theorem V5_v1 (c : Dev nD) : (V5 m ρ c main_v1 : Vec F S503808 .i32)
    = pad S503808 ![0] ![3808] ![0] (m ((c : Thread nD τ).loc main_arg2)) (constantI S_ 32 4294967295#32) pads_S500000_S503808_038080 h_S_ := by
  -- the narrowing stretch does not write the padded array; the padding reads the id array and the constant -1
  refine (keep4 (W4 m ρ c) (b := main_v1) (by decide)).trans ?_
  refine (at3_v1 (W3 m ρ c)).trans ?_
  rw [W3_keep m ρ c (b := main_arg2) (by decide), W3_c0 m ρ c]
theorem V5_v2 (c : Dev nD) : (V5 m ρ c main_v2 : Vec F S1024x128 .bf16) = (truncf .bf16 ((m ((c : Thread nD τ).loc main_arg1)) : FVec F S1024x128 .f32) bitsLt_bf16_f32) := by
  refine (at4_v2 (W4 m ρ c)).trans ?_
  rw [W4_keep m ρ c (b := main_arg1) (by decide)]
theorem V5_v4 (c : Dev nD) : (V5 m ρ c main_v4 : Vec F S128x256 .bf16)
    = (truncf .bf16 (extractStridedSlice S128x256 ![0, 0] (m ((c : Thread nD τ).loc main_arg3)) slices_S256x256_S128x256_0_0 : FVec F S128x256 .f32) bitsLt_bf16_f32) := by
  refine (at4_v4 (W4 m ρ c)).trans ?_
  rw [W4_keep m ρ c (b := main_arg3) (by decide)]
theorem V5_v6 (c : Dev nD) : (V5 m ρ c main_v6 : Vec F S128x256 .bf16)
    = (truncf .bf16 (extractStridedSlice S128x256 ![128, 0] (m ((c : Thread nD τ).loc main_arg3)) slices_S256x256_S128x256_128_0 : FVec F S128x256 .f32) bitsLt_bf16_f32) := by
  refine (at4_v6 (W4 m ρ c)).trans ?_
  rw [W4_keep m ρ c (b := main_arg3) (by decide)]
theorem V5_v7 (c : Dev nD) : (V5 m ρ c main_v7 : Vec F S256x256 .bf16) = (truncf .bf16 ((m ((c : Thread nD τ).loc main_arg5)) : FVec F S256x256 .f32) bitsLt_bf16_f32) := by
  refine (at4_v7 (W4 m ρ c)).trans ?_
  rw [W4_keep m ρ c (b := main_arg5) (by decide)]
theorem V5_v8 (c : Dev nD) : (V5 m ρ c main_v8 : Vec F S256x128 .bf16) = (truncf .bf16 ((m ((c : Thread nD τ).loc main_arg7)) : FVec F S256x128 .f32) bitsLt_bf16_f32) := by
  refine (at4_v8 (W4 m ρ c)).trans ?_
  rw [W4_keep m ρ c (b := main_arg7) (by decide)]
theorem V5_arg4 (c : Dev nD) : V5 m ρ c main_arg4 = (m ((c : Thread nD τ).loc main_arg4)) := W5_keep m ρ c (b := main_arg4) (by decide)
theorem V5_arg6 (c : Dev nD) : V5 m ρ c main_arg6 = (m ((c : Thread nD τ).loc main_arg6)) := W5_keep m ρ c (b := main_arg6) (by decide)
theorem V5_arg8 (c : Dev nD) : V5 m ρ c main_arg8 = (m ((c : Thread nD τ).loc main_arg8)) := W5_keep m ρ c (b := main_arg8) (by decide)
theorem V5_arg9 (c : Dev nD) : V5 m ρ c main_arg9 = (m ((c : Thread nD τ).loc main_arg9)) := W5_keep m ρ c (b := main_arg9) (by decide)
theorem V5_arg10 (c : Dev nD) : V5 m ρ c main_arg10 = (m ((c : Thread nD τ).loc main_arg10)) := W5_keep m ρ c (b := main_arg10) (by decide)

/-! ## On entry to region 1 -/

theorem V7_v9 (c : Dev nD) : V7 m ρ c main_v9 = (dat0 (V5 m ρ) c).arrAt 12 cfg0.N :=
  -- the stage-B narrowing does not write region 0's result array, which is its window 12's
  (keepH1 (W6 m ρ c) (b := main_v9) (by decide)).trans (W6_arr m ρ c 12)
theorem V7_arg1 (c : Dev nD) : V7 m ρ c main_arg1 = (m ((c : Thread nD τ).loc main_arg1)) :=
  W7_keep m ρ c (b := main_arg1) (by decide) (by decide) (by decide)
theorem V7_v11 (c : Dev nD) : (V7 m ρ c main_v11 : Vec F S128x256 .bf16)
    = (truncf .bf16 (extractStridedSlice S128x256 ![0, 0] (m ((c : Thread nD τ).loc main_arg11)) slices_S256x256_S128x256_0_0 : FVec F S128x256 .f32) bitsLt_bf16_f32) := by
  refine (atH1_v11 (W6 m ρ c)).trans ?_
  rw [W6_keep m ρ c (b := main_arg11) (by decide) (by decide)]
theorem V7_v13 (c : Dev nD) : (V7 m ρ c main_v13 : Vec F S128x256 .bf16)
    = (truncf .bf16 (extractStridedSlice S128x256 ![128, 0] (m ((c : Thread nD τ).loc main_arg11)) slices_S256x256_S128x256_128_0 : FVec F S128x256 .f32) bitsLt_bf16_f32) := by
  refine (atH1_v13 (W6 m ρ c)).trans ?_
  rw [W6_keep m ρ c (b := main_arg11) (by decide) (by decide)]
theorem V7_v14 (c : Dev nD) : (V7 m ρ c main_v14 : Vec F S256x256 .bf16) = (truncf .bf16 ((m ((c : Thread nD τ).loc main_arg13)) : FVec F S256x256 .f32) bitsLt_bf16_f32) := by
  refine (atH1_v14 (W6 m ρ c)).trans ?_
  rw [W6_keep m ρ c (b := main_arg13) (by decide) (by decide)]
theorem V7_v15 (c : Dev nD) : (V7 m ρ c main_v15 : Vec F S256x128 .bf16) = (truncf .bf16 ((m ((c : Thread nD τ).loc main_arg15)) : FVec F S256x128 .f32) bitsLt_bf16_f32) := by
  refine (atH1_v15 (W6 m ρ c)).trans ?_
  rw [W6_keep m ρ c (b := main_arg15) (by decide) (by decide)]
theorem V7_arg12 (c : Dev nD) : V7 m ρ c main_arg12 = (m ((c : Thread nD τ).loc main_arg12)) :=
  W7_keep m ρ c (b := main_arg12) (by decide) (by decide) (by decide)
theorem V7_arg14 (c : Dev nD) : V7 m ρ c main_arg14 = (m ((c : Thread nD τ).loc main_arg14)) :=
  W7_keep m ρ c (b := main_arg14) (by decide) (by decide) (by decide)
theorem V7_arg16 (c : Dev nD) : V7 m ρ c main_arg16 = (m ((c : Thread nD τ).loc main_arg16)) :=
  W7_keep m ρ c (b := main_arg16) (by decide) (by decide) (by decide)
theorem V7_arg17 (c : Dev nD) : V7 m ρ c main_arg17 = (m ((c : Thread nD τ).loc main_arg17)) :=
  W7_keep m ρ c (b := main_arg17) (by decide) (by decide) (by decide)
theorem V7_arg18 (c : Dev nD) : V7 m ρ c main_arg18 = (m ((c : Thread nD τ).loc main_arg18)) :=
  W7_keep m ρ c (b := main_arg18) (by decide) (by decide) (by decide)

/-- The result buffer after the run is region 1's result array. -/
theorem W8_v16 (c : Dev nD) : W8 m ρ c (Proc.devRef .tc main_v16) = (dat1 (V7 m ρ) c).arrAt 11 cfg1.N :=
  W8_arr m ρ c 11

end Cert.KernelIdeal.Glue

end
-- ==== Proof.Spec.lean ====
/-
  The mathematics both programs compute, stated once over the extended reals, index by index.

  A node n of graph b = batch n carries the row x n (128 features); graph b carries the row u b (128 features).
  Stage A feeds the pair (x n, u b) through three dense layers (256, 256, 128 wide; the first one sees the pair as one
  256-long row, its weight's top 128 rows meeting x n and its bottom 128 rows meeting u b), a rectifier after the first
  two, and a layer normalisation over the 128 outputs; the results of all nodes of one graph are summed (agg b).
  Stage B feeds the pair (agg b, u b) through the same architecture with its own weights and adds u b.

  Nothing here needs a finite value: the laws used downstream are 0 * a = 0, 1 * a = a and the commutative-monoid laws
  of +, which hold on every extended real.
-/
import Idealize.ShloMosaic.PureOps.Ideal
import Idealize.ShloMosaic.Lib.ValueIdx

noncomputable section

open Idealize.ShloMosaic Idealize.ShloMosaic.ValueIdx
open scoped BigOperators

namespace Cert.Spec

/-- The divisor of both means: the f32 word of 128, never evaluated (the same word on both sides). -/
abbrev c128 : EReal := Ideal.ofBits .f32 0x43000000#32
/-- The variance's offset: the f32 word nearest 1e-5, never evaluated (the same word on both sides). -/
abbrev ceps : EReal := Ideal.ofBits .f32 0x3727C5AC#32

/-- A matrix as a function of a row and a column. -/
abbrev rows {α : Type} {A B : ℕ} (X : (⟨2, ![A, B]⟩ : Shape).Idx → α) (a : Fin A) (b : Fin B) : α := X (ix2 a b)
/-- A vector as a function of its coordinate. -/
abbrev vec {α : Type} {A : ℕ} (v : (⟨1, ![A]⟩ : Shape).Idx → α) (a : Fin A) : α := v (ix1 a)
/-- The top 128 rows of a 256-row weight. -/
abbrev top {α : Type} {B : ℕ} (W : (⟨2, ![256, B]⟩ : Shape).Idx → α) (k : Fin 128) (j : Fin B) : α :=
  W (ix2 ⟨k.val, by have := k.isLt; omega⟩ j)
/-- The bottom 128 rows of a 256-row weight. -/
abbrev bot {α : Type} {B : ℕ} (W : (⟨2, ![256, B]⟩ : Shape).Idx → α) (k : Fin 128) (j : Fin B) : α :=
  W (ix2 ⟨128 + k.val, by have := k.isLt; omega⟩ j)

/-- One dense layer on a row: the row times the weight, plus the bias. -/
def dense {K J : ℕ} (W : Fin K → Fin J → EReal) (b : Fin J → EReal) (h : Fin K → EReal) (j : Fin J) : EReal :=
  (∑ k, h k * W k j) + b j

/-- The first layer on a pair of 128-long rows: the first against the weight's top half, the second against its bottom half. -/
def dense2 (Wt Wb : Fin 128 → Fin 256 → EReal) (b : Fin 256 → EReal) (p q : Fin 128 → EReal) (j : Fin 256) : EReal :=
  ((∑ k, p k * Wt k j) + (∑ k, q k * Wb k j)) + b j

/-- The rectifier. -/
def relu {J : ℕ} (v : Fin J → EReal) (j : Fin J) : EReal := max (v j) 0

/-- A 128-long row's mean: its sum divided by the word of 128. -/
def mean (v : Fin 128 → EReal) : EReal := Ideal.div (∑ k, v k) c128

/-- Layer normalisation of a 128-long row: centred, scaled by the inverse root of the mean square deviation plus the
    offset, then the affine map (g, be). -/
def layerNorm (g be v : Fin 128 → EReal) (d : Fin 128) : EReal :=
  ((v d - mean v) * Ideal.rsqrt (Ideal.div (∑ k, (v k - mean v) * (v k - mean v)) c128 + ceps)) * g d + be d

/-- The three layers and the normalisation, on a pair of 128-long rows. -/
def mlpLN (Wt Wb : Fin 128 → Fin 256 → EReal) (b1 : Fin 256 → EReal) (W2 : Fin 256 → Fin 256 → EReal) (b2 : Fin 256 → EReal)
    (W3 : Fin 256 → Fin 128 → EReal) (b3 g be : Fin 128 → EReal) (p q : Fin 128 → EReal) : Fin 128 → EReal :=
  layerNorm g be (dense W3 b3 (relu (dense W2 b2 (relu (dense2 Wt Wb b1 p q)))))

section Model

variable (x : (⟨2, ![500000, 128]⟩ : Shape).Idx → EReal) (u : (⟨2, ![1024, 128]⟩ : Shape).Idx → EReal)
  (batch : (⟨1, ![500000]⟩ : Shape).Idx → BitVec 32)
  (W1a : (⟨2, ![256, 256]⟩ : Shape).Idx → EReal) (b1a : (⟨1, ![256]⟩ : Shape).Idx → EReal)
  (W2a : (⟨2, ![256, 256]⟩ : Shape).Idx → EReal) (b2a : (⟨1, ![256]⟩ : Shape).Idx → EReal)
  (W3a : (⟨2, ![256, 128]⟩ : Shape).Idx → EReal) (b3a ga bea : (⟨1, ![128]⟩ : Shape).Idx → EReal)
  (W1b : (⟨2, ![256, 256]⟩ : Shape).Idx → EReal) (b1b : (⟨1, ![256]⟩ : Shape).Idx → EReal)
  (W2b : (⟨2, ![256, 256]⟩ : Shape).Idx → EReal) (b2b : (⟨1, ![256]⟩ : Shape).Idx → EReal)
  (W3b : (⟨2, ![256, 128]⟩ : Shape).Idx → EReal) (b3b gb beb : (⟨1, ![128]⟩ : Shape).Idx → EReal)

/-- Stage A on one node's row p and one graph's row q. -/
def nodeRow (p q : Fin 128 → EReal) : Fin 128 → EReal :=
  mlpLN (top W1a) (bot W1a) (vec b1a) (rows W2a) (vec b2a) (rows W3a) (vec b3a) (vec ga) (vec bea) p q

/-- Graph b's aggregate: the sum, over the nodes whose id reads b as a signed word, of stage A on (x n, u b). -/
def agg (b : Fin 1024) (d : Fin 128) : EReal :=
  ∑ n : Fin 500000, if (batch (ix1 n)).toInt = (b.val : ℤ) then nodeRow W1a b1a W2a b2a W3a b3a ga bea (rows x n) (rows u b) d else 0

/-- The result at graph b, feature d: stage B on (agg b, u b), plus u b. -/
def out (b : Fin 1024) (d : Fin 128) : EReal :=
  mlpLN (top W1b) (bot W1b) (vec b1b) (rows W2b) (vec b2b) (rows W3b) (vec b3b) (vec gb) (vec beb)
    (agg x u batch W1a b1a W2a b2a W3a b3a ga bea b) (rows u b) d + rows u b d

/-- The result array. -/
def result : (⟨2, ![1024, 128]⟩ : Shape).Idx → EReal := fun i =>
  out x u batch W1a b1a W2a b2a W3a b3a ga bea W1b b1b W2b b2b W3b b3b gb beb (i 0) (i 1)

theorem result_ix2 (b : Fin 1024) (d : Fin 128) :
    result x u batch W1a b1a W2a b2a W3a b3a ga bea W1b b1b W2b b2b W3b b3b gb beb (ix2 b d)
      = out x u batch W1a b1a W2a b2a W3a b3a ga bea W1b b1b W2b b2b W3b b3b gb beb b d := rfl

end Model

end Cert.Spec

end
-- ==== Proof.TileValue.lean ====
/-
  One tile of stage A, read at an index. A tile holds 4096 node rows x and their graph ids bt. The body forms the
  one-hot matrix of the ids against the 1024 graph numbers, gathers u by multiplying it into the table, runs the three
  layers and the normalisation row by row, and adds to the accumulator the one-hot matrix's transpose times the
  normalised rows. At graph b and feature d that is: the accumulator there, plus the sum over the tile's rows r of the
  one-hot coefficient of (r, b) times stage A's row function on (x r, the one-hot-gathered row of u).
-/
import proofs.«408234_j7662221656191_1_alg».proof.Proof.Gen.KernelIdeal.Skeleton
import proofs.«408234_j7662221656191_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.TileValue

open Cert.KernelIdeal Cert.KernelIdeal.Gen Cert.Spec

/-- The one-hot coefficient of a tile row's id against graph number q. -/
abbrev hot (bt : Vec Ideal S4096 .i32) (r : Fin 4096) (q : Fin 1024) : EReal :=
  if bt (ix1 r) = BitVec.ofNat 32 q.val then 1 else 0

/-! ## Columns: a vector stood up as one column, and a column laid along every column -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrix and the reset value -/

/-- A one-bit word widened to 32 bits and read signed is 1 for the set bit and 0 for the clear one. -/
private theorem toInt_setWidth_ofBool (c : Bool) : ((BitVec.ofBool c).setWidth 32).toInt = if c then 1 else 0 := by
  cases c <;> decide

/-- The one-hot matrix of the tile's ids, read at (r, q). -/
theorem onehot_apply (bt : Vec Ideal S4096 .i32) (r : Fin 4096) (q : Fin 1024) :
    k0_pay2 (F := Ideal) bt (ix2 r q) = hot bt r q := by
  unfold k0_pay2
  rw [shapeCast_self]
  show ((((BitVec.ofBool
      (broadcastTo S4096x1024 (shapeCast S4096x1 bt shapeCasts_S4096_S4096x1) broadcasts_S4096x1_S4096x1024 (ix2 r q)
        == iota .tc S4096x1024 32 [1] iota_S4096x1024_d1_w32 (ix2 r q))).setWidth 32).toInt : ℝ) : EReal) = _
  rw [broadcastTo_a1_ab_apply, shapeCast_a_a1_apply, iota_single_apply, toInt_setWidth_ofBool]
  show _ = if bt (ix1 r) = BitVec.ofNat 32 q.val then (1 : EReal) else 0
  by_cases h : bt (ix1 r) = BitVec.ofNat 32 q.val
  · rw [if_pos h, if_pos (beq_iff_eq.mpr h)]; norm_num
  · rw [if_neg h, if_neg (fun hh => h (beq_iff_eq.mp hh))]; norm_num

/-- The accumulator's reset value is 0 everywhere. -/
theorem reset_apply (b : Fin 1024) (d : Fin 128) : k0_pay1 (F := Ideal) (ix2 b d) = 0 := by
  show Ideal.ofBits .f32 0x00000000#32 = 0
  exact Ideal.ofBits_zero_f32

/-! ## The five products, each read at an index as a sum over its contracted coordinate

Four of them contract the left operand's columns against the right operand's rows; the last contracts the ROWS of both
(the one-hot matrix's transpose times the normalised rows). For each shape record: where each operand's index reads the
result's index and where the contracted coordinate, axis by axis; then the product at `(i, j)`. -/

/-! ### `[4096, 1024] × [1024, 128]`: the gather of u by the one-hot matrix -/

private theorem lhs_gather_0 (i : S4096x128.Idx) (q : dot_S4096x1024_S1024x128_S4096x128_1_0_0_1_n_n.contr.Idx) :
    (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide), dif_pos (show (0 : Fin S4096x1024.rank) ∈ dot_S4096x1024_S1024x128_S4096x128_1_0_0_1_n_n.lhsNonContracting by decide)]
  rfl
private theorem lhs_gather_1 (i : S4096x128.Idx) (q : dot_S4096x1024_S1024x128_S4096x128_1_0_0_1_n_n.contr.Idx) :
    (dot_S4096x1024_S1024x128_S4096x128_1_0_0_1_n_n.lhsIdx i q 1).val = (q ⟨0, by decide⟩).val :=
  dot_S4096x1024_S1024x128_S4096x128_1_0_0_1_n_n.lhsIdx_val_of_single rfl i q
private theorem rhs_gather_0 (i : S4096x128.Idx) (q : dot_S4096x1024_S1024x128_S4096x128_1_0_0_1_n_n.contr.Idx) :
    (dot_S4096x1024_S1024x128_S4096x128_1_0_0_1_n_n.rhsIdx i q 0).val = (q ⟨0, by decide⟩).val :=
  dot_S4096x1024_S1024x128_S4096x128_1_0_0_1_n_n.rhsIdx_val_of_single rfl i q
private theorem rhs_gather_1 (i : S4096x128.Idx) (q : dot_S4096x1024_S1024x128_S4096x128_1_0_0_1_n_n.contr.Idx) :
    (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide), dif_pos (show (1 : Fin S1024x128.rank) ∈ dot_S4096x1024_S1024x128_S4096x128_1_0_0_1_n_n.rhsNonContracting by decide)]
  rfl

/-- The gather product at (r, k): the sum over the 1024 graph numbers. -/
private theorem mm_gather_apply (lhs : FVec Ideal S4096x1024 .bf16) (rhs : FVec Ideal S1024x128 .bf16) (r : Fin 4096) (k : Fin 128) :
    matmul dot_S4096x1024_S1024x128_S4096x128_1_0_0_1_n_n none lhs rhs (constant (F := Ideal) S4096x128 .f32 0x00000000#32) (ix2 r k)
      = ∑ q : Fin 1024, lhs (ix2 r q) * rhs (ix2 q k) := by
  show FloatOps.matmul dot_S4096x1024_S1024x128_S4096x128_1_0_0_1_n_n none lhs rhs (constant (F := Ideal) S4096x128 .f32 0x00000000#32) (ix2 r k) = _
  rw [Ideal.matmul_constant_zero_apply, ← Equiv.sum_comp (ValueIdx.contrEquiv1 dot_S4096x1024_S1024x128_S4096x128_1_0_0_1_n_n 1024 rfl rfl).symm]
  refine Finset.sum_congr rfl fun q _ => ?_
  have hq := ValueIdx.contrEquiv1_symm_val dot_S4096x1024_S1024x128_S4096x128_1_0_0_1_n_n 1024 rfl rfl q
  have el : dot_S4096x1024_S1024x128_S4096x128_1_0_0_1_n_n.lhsIdx (ix2 r k) ((ValueIdx.contrEquiv1 dot_S4096x1024_S1024x128_S4096x128_1_0_0_1_n_n 1024 rfl rfl).symm q) = ix2 r q := funext fun a => Fin.ext (by
    match a with
    | ⟨0, _⟩ => exact lhs_gather_0 _ _
    | ⟨1, _⟩ => exact (lhs_gather_1 _ _).trans hq)
  have er : dot_S4096x1024_S1024x128_S4096x128_1_0_0_1_n_n.rhsIdx (ix2 r k) ((ValueIdx.contrEquiv1 dot_S4096x1024_S1024x128_S4096x128_1_0_0_1_n_n 1024 rfl rfl).symm q) = ix2 q k := funext fun a => Fin.ext (by
    match a with
    | ⟨0, _⟩ => exact (rhs_gather_0 _ _).trans hq
    | ⟨1, _⟩ => exact rhs_gather_1 _ _)
  rw [el, er]

/-! ### `[4096, 128] × [128, 256]`: each half of the first layer -/

private theorem lhs_first_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
private theorem lhs_first_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
private theorem rhs_first_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
private theorem rhs_first_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- A first-layer product at (r, j): the sum over the 128 input features. -/
private theorem mm_first_apply (lhs : FVec Ideal S4096x128 .bf16) (rhs : FVec Ideal S128x256 .bf16) (r : Fin 4096) (j : Fin 256) :
    matmul dot_S4096x128_S128x256_S4096x256_1_0_0_1_n_n none lhs rhs (constant (F := Ideal) S4096x256 .f32 0x00000000#32) (ix2 r j)
      = ∑ k : Fin 128, lhs (ix2 r k) * rhs (ix2 k j) := by
  show FloatOps.matmul dot_S4096x128_S128x256_S4096x256_1_0_0_1_n_n none lhs rhs (constant (F := Ideal) S4096x256 .f32 0x00000000#32) (ix2 r j) = _
  rw [Ideal.matmul_constant_zero_apply, ← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 r j) ((ValueIdx.contrEquiv1 dot_S4096x128_S128x256_S4096x256_1_0_0_1_n_n 128 rfl rfl).symm k) = ix2 r k := funext fun a => Fin.ext (by
    match a with
    | ⟨0, _⟩ => exact lhs_first_0 _ _
    | ⟨1, _⟩ => exact (lhs_first_1 _ _).trans hk)
  have er : dot_S4096x128_S128x256_S4096x256_1_0_0_1_n_n.rhsIdx (ix2 r j) ((ValueIdx.contrEquiv1 dot_S4096x128_S128x256_S4096x256_1_0_0_1_n_n 128 rfl rfl).symm k) = ix2 k j := funext fun a => Fin.ext (by
    match a with
    | ⟨0, _⟩ => exact (rhs_first_0 _ _).trans hk
    | ⟨1, _⟩ => exact rhs_first_1 _ _)
  rw [el, er]

/-! ### `[4096, 256] × [256, 256]`: the second layer -/

private theorem lhs_second_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
private theorem lhs_second_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
private theorem rhs_second_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
private theorem rhs_second_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The second-layer product at (r, j): the sum over the 256 hidden features. -/
private theorem mm_second_apply (lhs : FVec Ideal S4096x256 .bf16) (rhs : FVec Ideal S256x256 .bf16) (r : Fin 4096) (j : Fin 256) :
    matmul dot_S4096x256_S256x256_S4096x256_1_0_0_1_n_n none lhs rhs (constant (F := Ideal) S4096x256 .f32 0x00000000#32) (ix2 r j)
      = ∑ k : Fin 256, lhs (ix2 r k) * rhs (ix2 k j) := by
  show FloatOps.matmul dot_S4096x256_S256x256_S4096x256_1_0_0_1_n_n none lhs rhs (constant (F := Ideal) S4096x256 .f32 0x00000000#32) (ix2 r j) = _
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r j) ((ValueIdx.contrEquiv1 dot_S4096x256_S256x256_S4096x256_1_0_0_1_n_n 256 rfl rfl).symm k) = ix2 r k := funext fun a => Fin.ext (by
    match a with
    | ⟨0, _⟩ => exact lhs_second_0 _ _
    | ⟨1, _⟩ => exact (lhs_second_1 _ _).trans hk)
  have er : dot_S4096x256_S256x256_S4096x256_1_0_0_1_n_n.rhsIdx (ix2 r j) ((ValueIdx.contrEquiv1 dot_S4096x256_S256x256_S4096x256_1_0_0_1_n_n 256 rfl rfl).symm k) = ix2 k j := funext fun a => Fin.ext (by
    match a with
    | ⟨0, _⟩ => exact (rhs_second_0 _ _).trans hk
    | ⟨1, _⟩ => exact rhs_second_1 _ _)
  rw [el, er]

/-! ### `[4096, 256] × [256, 128]`: the third layer -/

private theorem lhs_third_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
private theorem lhs_third_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
private theorem rhs_third_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
private theorem rhs_third_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The third-layer product at (r, j): the sum over the 256 hidden features. -/
private theorem mm_third_apply (lhs : FVec Ideal S4096x256 .bf16) (rhs : FVec Ideal S256x128 .bf16) (r : Fin 4096) (j : Fin 128) :
    matmul dot_S4096x256_S256x128_S4096x128_1_0_0_1_n_n none lhs rhs (constant (F := Ideal) S4096x128 .f32 0x00000000#32) (ix2 r j)
      = ∑ k : Fin 256, lhs (ix2 r k) * rhs (ix2 k j) := by
  show FloatOps.matmul dot_S4096x256_S256x128_S4096x128_1_0_0_1_n_n none lhs rhs (constant (F := Ideal) S4096x128 .f32 0x00000000#32) (ix2 r j) = _
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 r j) ((ValueIdx.contrEquiv1 dot_S4096x256_S256x128_S4096x128_1_0_0_1_n_n 256 rfl rfl).symm k) = ix2 r k := funext fun a => Fin.ext (by
    match a with
    | ⟨0, _⟩ => exact lhs_third_0 _ _
    | ⟨1, _⟩ => exact (lhs_third_1 _ _).trans hk)
  have er : dot_S4096x256_S256x128_S4096x128_1_0_0_1_n_n.rhsIdx (ix2 r j) ((ValueIdx.contrEquiv1 dot_S4096x256_S256x128_S4096x128_1_0_0_1_n_n 256 rfl rfl).symm k) = ix2 k j := funext fun a => Fin.ext (by
    match a with
    | ⟨0, _⟩ => exact (rhs_third_0 _ _).trans hk
    | ⟨1, _⟩ => exact rhs_third_1 _ _)
  rw [el, er]

/-! ### `[4096, 1024]ᵀ × [4096, 128]`: the scatter, contracting the tile's rows on both sides -/

private theorem lhs_scatter_0 (i : S1024x128.Idx) (q : dot_S4096x1024_S4096x128_S1024x128_0_0_1_1_n_n.contr.Idx) :
    (dot_S4096x1024_S4096x128_S1024x128_0_0_1_1_n_n.lhsIdx i q 0).val = (q ⟨0, by decide⟩).val :=
  dot_S4096x1024_S4096x128_S1024x128_0_0_1_1_n_n.lhsIdx_val_of_single rfl i q
private theorem lhs_scatter_1 (i : S1024x128.Idx) (q : dot_S4096x1024_S4096x128_S1024x128_0_0_1_1_n_n.contr.Idx) :
    (dot_S4096x1024_S4096x128_S1024x128_0_0_1_1_n_n.lhsIdx i q 1).val = (i 0).val := by
  unfold DotDims.lhsIdx
  rw [dif_neg (show ¬(1 : Fin S4096x1024.rank) ∈ dot_S4096x1024_S4096x128_S1024x128_0_0_1_1_n_n.lhsBatch by decide), dif_pos (show (1 : Fin S4096x1024.rank) ∈ dot_S4096x1024_S4096x128_S1024x128_0_0_1_1_n_n.lhsNonContracting by decide)]
  rfl
private theorem rhs_scatter_0 (i : S1024x128.Idx) (q : dot_S4096x1024_S4096x128_S1024x128_0_0_1_1_n_n.contr.Idx) :
    (dot_S4096x1024_S4096x128_S1024x128_0_0_1_1_n_n.rhsIdx i q 0).val = (q ⟨0, by decide⟩).val :=
  dot_S4096x1024_S4096x128_S1024x128_0_0_1_1_n_n.rhsIdx_val_of_single rfl i q
private theorem rhs_scatter_1 (i : S1024x128.Idx) (q : dot_S4096x1024_S4096x128_S1024x128_0_0_1_1_n_n.contr.Idx) :
    (dot_S4096x1024_S4096x128_S1024x128_0_0_1_1_n_n.rhsIdx i q 1).val = (i 1).val := by
  unfold DotDims.rhsIdx
  rw [dif_neg (show ¬(1 : Fin S4096x128.rank) ∈ dot_S4096x1024_S4096x128_S1024x128_0_0_1_1_n_n.rhsBatch by decide), dif_pos (show (1 : Fin S4096x128.rank) ∈ dot_S4096x1024_S4096x128_S1024x128_0_0_1_1_n_n.rhsNonContracting by decide)]
  rfl

/-- The scatter product at (b, d): the sum over the tile's 4096 rows of the left operand at (r, b) times the right at (r, d). -/
private theorem mm_scatter_apply (lhs : FVec Ideal S4096x1024 .bf16) (rhs : FVec Ideal S4096x128 .bf16) (b : Fin 1024) (d : Fin 128) :
    matmul dot_S4096x1024_S4096x128_S1024x128_0_0_1_1_n_n none lhs rhs (constant (F := Ideal) S1024x128 .f32 0x00000000#32) (ix2 b d)
      = ∑ r : Fin 4096, lhs (ix2 r b) * rhs (ix2 r d) := by
  show FloatOps.matmul dot_S4096x1024_S4096x128_S1024x128_0_0_1_1_n_n none lhs rhs (constant (F := Ideal) S1024x128 .f32 0x00000000#32) (ix2 b d) = _
  rw [Ideal.matmul_constant_zero_apply, ← Equiv.sum_comp (ValueIdx.contrEquiv1 dot_S4096x1024_S4096x128_S1024x128_0_0_1_1_n_n 4096 rfl rfl).symm]
  refine Finset.sum_congr rfl fun r _ => ?_
  have hr := ValueIdx.contrEquiv1_symm_val dot_S4096x1024_S4096x128_S1024x128_0_0_1_1_n_n 4096 rfl rfl r
  have el : dot_S4096x1024_S4096x128_S1024x128_0_0_1_1_n_n.lhsIdx (ix2 b d) ((ValueIdx.contrEquiv1 dot_S4096x1024_S4096x128_S1024x128_0_0_1_1_n_n 4096 rfl rfl).symm r) = ix2 r b := funext fun a => Fin.ext (by
    match a with
    | ⟨0, _⟩ => exact (lhs_scatter_0 _ _).trans hr
    | ⟨1, _⟩ => exact lhs_scatter_1 _ _)
  have er : dot_S4096x1024_S4096x128_S1024x128_0_0_1_1_n_n.rhsIdx (ix2 b d) ((ValueIdx.contrEquiv1 dot_S4096x1024_S4096x128_S1024x128_0_0_1_1_n_n 4096 rfl rfl).symm r) = ix2 r d := funext fun a => Fin.ext (by
    match a with
    | ⟨0, _⟩ => exact (rhs_scatter_0 _ _).trans hr
    | ⟨1, _⟩ => exact rhs_scatter_1 _ _)
  rw [el, er]

/-! ## Row-wise readings of the pointwise and keepdims operations -/

/-- The rectifier against the splat of the zero word is `max · 0`. -/
private theorem relu_apply {s : Shape} (v : FVec Ideal s .f32) (i : s.Idx) :
    maximumf v (broadcast s (Scalar.ofBits (F := Ideal) .f32 0x00000000#32)) i = max (v i) 0 := by
  show max (v i) (Ideal.ofBits .f32 0x00000000#32) = _
  rw [Ideal.ofBits_zero_f32]

/-- A 256-long bias laid along every row of a 4096-row tile reads the bias at the column. -/
private theorem bias256_apply (c : Vec Ideal S256 .f32) (r : Fin 4096) (j : Fin 256) :
    broadcastTo S4096x256 (shapeCast S1x256 c shapeCasts_S256_S1x256) broadcasts_S1x256_S4096x256 (ix2 r j) = c (ix1 j) := by
  rw [broadcastTo_1b_ab_apply, shapeCast_a_1a_apply]

/-- A 128-long bias laid along every row of a 4096-row tile reads the bias at the column. -/
private theorem bias128_apply (c : Vec Ideal S128 .f32) (r : Fin 4096) (j : Fin 128) :
    broadcastTo S4096x128 (shapeCast S1x128 c shapeCasts_S128_S1x128) broadcasts_S1x128_S4096x128 (ix2 r j) = c (ix1 j) := by
  rw [broadcastTo_1b_ab_apply, shapeCast_a_1a_apply]

/-- The sum along each row of a 4096 × 128 tile, read at row r: the sum over the 128 columns. -/
private theorem rowsum_apply (y : FVec Ideal S4096x128 .f32) (r : Fin 4096) :
    multiReduction (F := Ideal) .add [1] S4096 y 0x00000000#32 reduces_S4096x128_S4096 (.inl rfl) rfl (ix1 r)
      = ∑ k : Fin 128, y (ix2 r k) := by
  refine (Ideal.multiReduction_add_single y 0x00000000#32 reduces_S4096x128_S4096 (.inl rfl) rfl (ix1 r)).trans ?_
  refine Finset.sum_congr rfl fun k _ => congrArg y ?_
  funext a
  match a with
  | ⟨0, _⟩ => rfl
  | ⟨1, _⟩ => rfl

/-- A per-row scalar (a 4096-long vector stood up as a column) laid along the 128 columns reads the row's scalar. -/
private theorem column_apply (c : FVec Ideal S4096 .f32) (r : Fin 4096) (d : Fin 128) :
    broadcastTo S4096x128 (shapeCast S4096x1 c shapeCasts_S4096_S4096x1) broadcasts_S4096x1_S4096x128 (ix2 r d) = c (ix1 r) := by
  rw [broadcastTo_a1_ab_apply, shapeCast_a_a1_apply]

/-- The inverse root taken entry by entry. -/
private theorem rsqrt_apply {s : Shape} (a : FVec Ideal s .f32) (i : s.Idx) : rsqrt a i = Ideal.rsqrt (a i) := rfl

/-! ## The tile's intermediate arrays, and each read at a row -/

/-- The gathered rows of u: the one-hot matrix times the table. -/
private def gathered (bt : Vec Ideal S4096 .i32) (u : Vec Ideal S1024x128 .bf16) : FVec Ideal S4096x128 .f32 :=
  matmul dot_S4096x1024_S1024x128_S4096x128_1_0_0_1_n_n none (k0_pay2 (F := Ideal) bt)
    (shapeCast S1024x128 u shapeCasts_S1024x128_S1024x128 : FVec Ideal S1024x128 .bf16) (constant (F := Ideal) S4096x128 .f32 0x00000000#32)

/-- Row r of the gathered rows is the one-hot combination of u's rows. -/
private theorem gathered_apply (bt : Vec Ideal S4096 .i32) (u : Vec Ideal S1024x128 .bf16) (r : Fin 4096) (k : Fin 128) :
    gathered bt u (ix2 r k) = ∑ q : Fin 1024, hot bt r q * u (ix2 q k) := by
  unfold gathered
  rw [mm_gather_apply, shapeCast_self]
  exact Finset.sum_congr rfl fun q _ => by rw [onehot_apply]

/-- The first layer with its rectifier: x against one weight, the gathered rows against the other, the bias, max with 0. -/
private def hidden1 (x : Vec Ideal S4096x128 .f32) (bt : Vec Ideal S4096 .i32) (u : Vec Ideal S1024x128 .bf16)
    (w1x w1u : Vec Ideal S128x256 .bf16) (b1 : Vec Ideal S256 .f32) : FVec Ideal S4096x256 .f32 :=
  maximumf
    (addf
      (addf
        (matmul dot_S4096x128_S128x256_S4096x256_1_0_0_1_n_n none
          (truncf .bf16 (shapeCast S4096x128 x shapeCasts_S4096x128_S4096x128 : FVec Ideal S4096x128 .f32) bitsLt_bf16_f32)
          (shapeCast S128x256 w1x shapeCasts_S128x256_S128x256 : FVec Ideal S128x256 .bf16) (constant (F := Ideal) S4096x256 .f32 0x00000000#32))
        (matmul dot_S4096x128_S128x256_S4096x256_1_0_0_1_n_n none
          (truncf .bf16 (gathered bt u) bitsLt_bf16_f32)
          (shapeCast S128x256 w1u shapeCasts_S128x256_S128x256 : FVec Ideal S128x256 .bf16) (constant (F := Ideal) S4096x256 .f32 0x00000000#32)))
      (broadcastTo S4096x256 (shapeCast S1x256 b1 shapeCasts_S256_S1x256 : FVec Ideal S1x256 .f32) broadcasts_S1x256_S4096x256))
    (broadcast S4096x256 (Scalar.ofBits (F := Ideal) .f32 0x00000000#32))

/-- Row r of the first layer is the rectified first layer of the specification on (x r, the gathered row). -/
private theorem hidden1_apply (x : Vec Ideal S4096x128 .f32) (bt : Vec Ideal S4096 .i32) (u : Vec Ideal S1024x128 .bf16)
    (w1x w1u : Vec Ideal S128x256 .bf16) (b1 : Vec Ideal S256 .f32) (r : Fin 4096) (j : Fin 256) :
    hidden1 x bt u w1x w1u b1 (ix2 r j)
      = relu (dense2 (rows w1x) (rows w1u) (vec b1) (rows x r) (fun k => ∑ q : Fin 1024, hot bt r q * u (ix2 q k))) j := by
  unfold hidden1
  rw [relu_apply, addf_apply, addf_apply, mm_first_apply, mm_first_apply, bias256_apply, shapeCast_self, shapeCast_self,
    shapeCast_self]
  refine congrArg (fun t => max (((∑ k : Fin 128, x (ix2 r k) * w1x (ix2 k j)) + t) + b1 (ix1 j)) 0)
    (Finset.sum_congr rfl fun k _ => ?_)
  rw [truncf_apply, gathered_apply]

/-- The second layer before its bias: the product of the rectified first layer with the second weight. -/
private theorem pay3_eq (x : Vec Ideal S4096x128 .f32) (bt : Vec Ideal S4096 .i32) (u : Vec Ideal S1024x128 .bf16)
    (w1x w1u : Vec Ideal S128x256 .bf16) (b1 : Vec Ideal S256 .f32) (w2 : Vec Ideal S256x256 .bf16) :
    k0_pay3 (F := Ideal) x bt u w1x w1u b1 w2
      = matmul dot_S4096x256_S256x256_S4096x256_1_0_0_1_n_n none (truncf .bf16 (hidden1 x bt u w1x w1u b1) bitsLt_bf16_f32)
          (shapeCast S256x256 w2 shapeCasts_S256x256_S256x256 : FVec Ideal S256x256 .bf16) (constant (F := Ideal) S4096x256 .f32 0x00000000#32) := rfl

/-- The second bias as a one-row array reads the bias at the column. -/
private theorem pay4_apply (b2 : Vec Ideal S256 .f32) (j : Fin 256) :
    k0_pay4 (F := Ideal) b2 (ix2 (0 : Fin 1) j) = b2 (ix1 j) := by
  unfold k0_pay4
  exact shapeCast_a_1a_apply b2 shapeCasts_S256_S1x256 (0 : Fin 1) j

/-- The second layer's bias and rectifier on a product p and a one-row bias c. -/
private def hidden2 (p : FVec Ideal S4096x256 .f32) (c : FVec Ideal S1x256 .f32) : FVec Ideal S4096x256 .f32 :=
  maximumf (addf p (broadcastTo S4096x256 c broadcasts_S1x256_S4096x256))
    (broadcast S4096x256 (Scalar.ofBits (F := Ideal) .f32 0x00000000#32))

private theorem hidden2_apply (p : FVec Ideal S4096x256 .f32) (c : FVec Ideal S1x256 .f32) (r : Fin 4096) (j : Fin 256) :
    hidden2 p c (ix2 r j) = max (p (ix2 r j) + c (ix2 (0 : Fin 1) j)) 0 := by
  unfold hidden2
  rw [relu_apply, addf_apply, broadcastTo_1b_ab_apply]

/-- The third layer on a hidden array h: the product with the third weight, plus the bias. -/
private def out3 (h : FVec Ideal S4096x256 .f32) (w3 : Vec Ideal S256x128 .bf16) (b3 : Vec Ideal S128 .f32) :
    FVec Ideal S4096x128 .f32 :=
  addf
    (matmul dot_S4096x256_S256x128_S4096x128_1_0_0_1_n_n none (truncf .bf16 h bitsLt_bf16_f32)
      (shapeCast S256x128 w3 shapeCasts_S256x128_S256x128 : FVec Ideal S256x128 .bf16) (constant (F := Ideal) S4096x128 .f32 0x00000000#32))
    (broadcastTo S4096x128 (shapeCast S1x128 b3 shapeCasts_S128_S1x128 : FVec Ideal S1x128 .f32) broadcasts_S1x128_S4096x128)

/-- Row r of the third layer is the specification's dense layer on row r of h. -/
private theorem out3_apply (h : FVec Ideal S4096x256 .f32) (w3 : Vec Ideal S256x128 .bf16) (b3 : Vec Ideal S128 .f32)
    (r : Fin 4096) (j : Fin 128) :
    out3 h w3 b3 (ix2 r j) = dense (rows w3) (vec b3) (fun k => h (ix2 r k)) j := by
  unfold out3
  rw [addf_apply, mm_third_apply, bias128_apply, shapeCast_self]
  rfl

/-- Each row's mean, as a column: the row's sum divided by the word of 128. -/
private def rowMean (y : FVec Ideal S4096x128 .f32) : FVec Ideal S4096x1 .f32 :=
  divf
    (shapeCast S4096x1 (multiReduction (F := Ideal) .add [1] S4096 y 0x00000000#32 reduces_S4096x128_S4096 (.inl rfl) rfl)
      shapeCasts_S4096_S4096x1)
    (broadcast S4096x1 (Scalar.ofBits (F := Ideal) .f32 0x43000000#32))

private theorem rowMean_apply (y : FVec Ideal S4096x128 .f32) (r : Fin 4096) (c : Fin 1) :
    rowMean y (ix2 r c) = mean (fun k => y (ix2 r k)) := by
  unfold rowMean
  rw [divf_apply, shapeCast_a_a1_apply, rowsum_apply]
  rfl

/-- The rows with their means taken off. -/
private def centred (y : FVec Ideal S4096x128 .f32) : FVec Ideal S4096x128 .f32 :=
  subf y (broadcastTo S4096x128 (rowMean y) broadcasts_S4096x1_S4096x128)

private theorem centred_apply (y : FVec Ideal S4096x128 .f32) (r : Fin 4096) (d : Fin 128) :
    centred y (ix2 r d) = y (ix2 r d) - mean (fun k => y (ix2 r k)) := by
  unfold centred
  rw [subf_apply, broadcastTo_a1_ab_apply, rowMean_apply]

/-- Each row's scale, as a column: the inverse root of the mean square deviation plus the offset word. -/
private def rowScale (y : FVec Ideal S4096x128 .f32) : FVec Ideal S4096x1 .f32 :=
  rsqrt
    (addf
      (divf
        (shapeCast S4096x1
          (multiReduction (F := Ideal) .add [1] S4096 (mulf (centred y) (centred y)) 0x00000000#32 reduces_S4096x128_S4096
            (.inl rfl) rfl)
          shapeCasts_S4096_S4096x1)
        (broadcast S4096x1 (Scalar.ofBits (F := Ideal) .f32 0x43000000#32)))
      (broadcast S4096x1 (Scalar.ofBits (F := Ideal) .f32 0x3727C5AC#32)))

private theorem rowScale_apply (y : FVec Ideal S4096x128 .f32) (r : Fin 4096) (c : Fin 1) :
    rowScale y (ix2 r c)
      = Ideal.rsqrt (Ideal.div (∑ k : Fin 128, (y (ix2 r k) - mean (fun k => y (ix2 r k))) * (y (ix2 r k) - mean (fun k => y (ix2 r k)))) c128 + ceps) := by
  unfold rowScale
  rw [rsqrt_apply, addf_apply, divf_apply, shapeCast_a_a1_apply, rowsum_apply]
  refine congrArg (fun t => Ideal.rsqrt (Ideal.div t c128 + ceps)) (Finset.sum_congr rfl fun k _ => ?_)
  rw [mulf_apply, centred_apply]

/-- The normalisation of every row of y with the affine map (g, be). -/
private def normed (y : FVec Ideal S4096x128 .f32) (g be : Vec Ideal S128 .f32) : FVec Ideal S4096x128 .f32 :=
  addf
    (mulf
      (mulf (centred y) (broadcastTo S4096x128 (rowScale y) broadcasts_S4096x1_S4096x128))
      (broadcastTo S4096x128 (shapeCast S1x128 g shapeCasts_S128_S1x128 : FVec Ideal S1x128 .f32) broadcasts_S1x128_S4096x128))
    (broadcastTo S4096x128 (shapeCast S1x128 be shapeCasts_S128_S1x128 : FVec Ideal S1x128 .f32) broadcasts_S1x128_S4096x128)

/-- Row r of the normalised array is the specification's layer normalisation of row r of y. -/
private theorem normed_apply (y : FVec Ideal S4096x128 .f32) (g be : Vec Ideal S128 .f32) (r : Fin 4096) (d : Fin 128) :
    normed y g be (ix2 r d) = layerNorm (vec g) (vec be) (fun k => y (ix2 r k)) d := by
  unfold normed
  rw [addf_apply, mulf_apply, mulf_apply, centred_apply, broadcastTo_a1_ab_apply, rowScale_apply, bias128_apply, bias128_apply]
  rfl

/-- The tile's update is the accumulator plus the scatter product of the one-hot matrix with the normalised third layer. -/
private theorem pay5_eq (hotm : FVec Ideal S4096x1024 .bf16) (p : FVec Ideal S4096x256 .f32) (c : FVec Ideal S1x256 .f32)
    (w3 : Vec Ideal S256x128 .bf16) (b3 g be : Vec Ideal S128 .f32) (acc : Vec Ideal S1024x128 .f32) :
    k0_pay5 (F := Ideal) hotm p c w3 b3 g be acc
      = addf (shapeCast S1024x128 acc shapeCasts_S1024x128_S1024x128 : FVec Ideal S1024x128 .f32)
          (matmul dot_S4096x1024_S4096x128_S1024x128_0_0_1_1_n_n none hotm
            (truncf .bf16 (normed (out3 (hidden2 p c) w3 b3) g be) bitsLt_bf16_f32)
            (constant (F := Ideal) S1024x128 .f32 0x00000000#32)) := rfl

/-- The tile's update of the accumulator, read at graph b, feature d. -/
theorem tile_apply (x : Vec Ideal S4096x128 .f32) (bt : Vec Ideal S4096 .i32) (u : Vec Ideal S1024x128 .bf16)
    (w1x w1u : Vec Ideal S128x256 .bf16) (b1 : Vec Ideal S256 .f32) (w2 : Vec Ideal S256x256 .bf16) (b2 : Vec Ideal S256 .f32)
    (w3 : Vec Ideal S256x128 .bf16) (b3 g be : Vec Ideal S128 .f32) (acc : Vec Ideal S1024x128 .f32)
    (b : Fin 1024) (d : Fin 128) :
    k0_pay5 (F := Ideal) (k0_pay2 bt) (k0_pay3 x bt u w1x w1u b1 w2) (k0_pay4 b2) w3 b3 g be acc (ix2 b d)
      = acc (ix2 b d) + ∑ r : Fin 4096, hot bt r b *
          mlpLN (rows w1x) (rows w1u) (vec b1) (rows w2) (vec b2) (rows w3) (vec b3) (vec g) (vec be)
            (rows x r) (fun k => ∑ q : Fin 1024, hot bt r q * u (ix2 q k)) d := by
  rw [pay5_eq, addf_apply, shapeCast_self, mm_scatter_apply]
  refine congrArg (acc (ix2 b d) + ·) (Finset.sum_congr rfl fun r _ => ?_)
  rw [onehot_apply, truncf_apply, normed_apply]
  refine congrArg (hot bt r b * ·) ?_
  refine congrArg (fun v => layerNorm (vec g) (vec be) v d) (funext fun j => ?_)
  rw [out3_apply]
  refine congrArg (fun v => dense (rows w3) (vec b3) v j) (funext fun k => ?_)
  rw [hidden2_apply, pay4_apply, pay3_eq, mm_second_apply, shapeCast_self]
  refine congrArg (fun t => max (t + b2 (ix1 k)) 0) (Finset.sum_congr rfl fun m _ => ?_)
  rw [truncf_apply, hidden1_apply]

end Cert.KernelIdeal.TileValue

end
-- ==== Proof.StageBValue.lean ====
/-
  Stage B, read at an index: the body runs the three layers and the normalisation on the pair (agg b, u b), row by
  row, and adds u b.
-/
import proofs.«408234_j7662221656191_1_alg».proof.Proof.Gen.KernelIdeal.Skeleton
import proofs.«408234_j7662221656191_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.StageBValue

open Cert.KernelIdeal Cert.KernelIdeal.Gen Cert.Spec

/-! ## Layout: a vector stood up as a column, a column spread over the lanes, a bias spread over the rows -/

section Layout
variable {α : Type}

/-- An `[a]` array cast to the column `[a, 1]` reads, at `(i, u)`, the operand at `i`: both have row-major position `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(p, q)`, the column's entry of row `p`. -/
private theorem broadcastTo_a1_ac_apply {a c : ℕ} (v : (⟨2, ![a, 1]⟩ : Shape).Idx → α)
    (h : (⟨2, ![a, 1]⟩ : Shape).Broadcasts ⟨2, ![a, c]⟩) (p : Fin a) (q : Fin c) :
    broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A bias `[n]`, laid as one row and spread over `m` rows, reads at `(p, j)` the bias at `j`. -/
private theorem biasRows_apply {m n : ℕ} (v : (⟨1, ![n]⟩ : Shape).Idx → α) (hc : (⟨1, ![n]⟩ : Shape).ShapeCasts ⟨2, ![1, n]⟩)
    (hb : (⟨2, ![1, n]⟩ : Shape).Broadcasts ⟨2, ![m, n]⟩) (p : Fin m) (j : Fin n) :
    broadcastTo ⟨2, ![m, n]⟩ (shapeCast ⟨2, ![1, n]⟩ v hc) hb (ix2 p j) = v (ix1 j) :=
  (broadcastTo_1b_ab_apply _ hb p j).trans (shapeCast_a_1a_apply v hc 0 j)

end Layout

/-- The inverse root of a vector, at an index. -/
private theorem rsqrt_apply {s : Shape} {φ : FTy} (a : FVec Ideal s φ) (i : s.Idx) : rsqrt a i = Ideal.rsqrt (a i) := rfl

/-- The lane sum of a 1024 × 128 vector at row `b` is the sum of that row. -/
private theorem rowSum_apply (src : FVec Ideal S1024x128 .f32) (b : Fin 1024) :
    multiReduction (F := Ideal) .add [1] S1024 src 0x00000000#32 reduces_S1024x128_S1024 (.inl rfl) rfl (ix1 b)
      = ∑ k : Fin 128, src (ix2 b k) := by
  refine (Ideal.multiReduction_add_single src 0x00000000#32 reduces_S1024x128_S1024 (.inl rfl) rfl (ix1 b)).trans ?_
  exact Finset.sum_congr rfl fun k _ => congrArg src (funext fun a => by
    match a with
    | ⟨0, _⟩ => rfl
    | ⟨1, _⟩ => rfl)

/-! ## The three products, at an index: row `b` of the left operand against column `j` of the right one

The operand indices of each product, axis by axis; then the contraction index is replaced by its one coordinate. -/

private theorem lhs_w1_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
private theorem lhs_w1_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
private theorem rhs_w1_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
private theorem rhs_w1_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A 1024 × 128 operand against a 128 × 256 weight, into the zero splat: at `(b, j)` the sum over `k` of the products. -/
private theorem matmul_w1_apply (lhs : FVec Ideal S1024x128 .bf16) (rhs : FVec Ideal S128x256 .bf16) (b : Fin 1024) (j : Fin 256) :
    matmul dot_S1024x128_S128x256_S1024x256_1_0_0_1_n_n none lhs rhs (constant (F := Ideal) S1024x256 .f32 0x00000000#32) (ix2 b j)
      = ∑ k : Fin 128, lhs (ix2 b k) * rhs (ix2 k j) := by
  simp only [matmul]
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 b j) ((ValueIdx.contrEquiv1 dot_S1024x128_S128x256_S1024x256_1_0_0_1_n_n 128 rfl rfl).symm k) = ix2 b k := funext fun a => Fin.ext (by
    match a with
    | ⟨0, _⟩ => exact lhs_w1_0 _ _
    | ⟨1, _⟩ => exact (lhs_w1_1 _ _).trans hk)
  have er : dot_S1024x128_S128x256_S1024x256_1_0_0_1_n_n.rhsIdx (ix2 b j) ((ValueIdx.contrEquiv1 dot_S1024x128_S128x256_S1024x256_1_0_0_1_n_n 128 rfl rfl).symm k) = ix2 k j := funext fun a => Fin.ext (by
    match a with
    | ⟨0, _⟩ => exact (rhs_w1_0 _ _).trans hk
    | ⟨1, _⟩ => exact rhs_w1_1 _ _)
  rw [el, er]

private theorem lhs_w2_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhs_w2_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhs_w2_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhs_w2_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A 1024 × 256 operand against a 256 × 256 weight, into the zero splat: at `(b, j)` the sum over `k` of the products. -/
private theorem matmul_w2_apply (lhs : FVec Ideal S1024x256 .bf16) (rhs : FVec Ideal S256x256 .bf16) (b : Fin 1024) (j : Fin 256) :
    matmul dot_S1024x256_S256x256_S1024x256_1_0_0_1_n_n none lhs rhs (constant (F := Ideal) S1024x256 .f32 0x00000000#32) (ix2 b j)
      = ∑ k : Fin 256, lhs (ix2 b k) * rhs (ix2 k j) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 b j) ((ValueIdx.contrEquiv1 dot_S1024x256_S256x256_S1024x256_1_0_0_1_n_n 256 rfl rfl).symm k) = ix2 b k := funext fun a => Fin.ext (by
    match a with
    | ⟨0, _⟩ => exact lhs_w2_0 _ _
    | ⟨1, _⟩ => exact (lhs_w2_1 _ _).trans hk)
  have er : dot_S1024x256_S256x256_S1024x256_1_0_0_1_n_n.rhsIdx (ix2 b j) ((ValueIdx.contrEquiv1 dot_S1024x256_S256x256_S1024x256_1_0_0_1_n_n 256 rfl rfl).symm k) = ix2 k j := funext fun a => Fin.ext (by
    match a with
    | ⟨0, _⟩ => exact (rhs_w2_0 _ _).trans hk
    | ⟨1, _⟩ => exact rhs_w2_1 _ _)
  rw [el, er]

private theorem lhs_w3_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
private theorem lhs_w3_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
private theorem rhs_w3_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
private theorem rhs_w3_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- A 1024 × 256 operand against a 256 × 128 weight, into the zero splat: at `(b, j)` the sum over `k` of the products. -/
private theorem matmul_w3_apply (lhs : FVec Ideal S1024x256 .bf16) (rhs : FVec Ideal S256x128 .bf16) (b : Fin 1024) (j : Fin 128) :
    matmul dot_S1024x256_S256x128_S1024x128_1_0_0_1_n_n none lhs rhs (constant (F := Ideal) S1024x128 .f32 0x00000000#32) (ix2 b j)
      = ∑ k : Fin 256, lhs (ix2 b k) * rhs (ix2 k j) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 b j) ((ValueIdx.contrEquiv1 dot_S1024x256_S256x128_S1024x128_1_0_0_1_n_n 256 rfl rfl).symm k) = ix2 b k := funext fun a => Fin.ext (by
    match a with
    | ⟨0, _⟩ => exact lhs_w3_0 _ _
    | ⟨1, _⟩ => exact (lhs_w3_1 _ _).trans hk)
  have er : dot_S1024x256_S256x128_S1024x128_1_0_0_1_n_n.rhsIdx (ix2 b j) ((ValueIdx.contrEquiv1 dot_S1024x256_S256x128_S1024x128_1_0_0_1_n_n 256 rfl rfl).symm k) = ix2 k j := funext fun a => Fin.ext (by
    match a with
    | ⟨0, _⟩ => exact (rhs_w3_0 _ _).trans hk
    | ⟨1, _⟩ => exact rhs_w3_1 _ _)
  rw [el, er]

/-! ## The three layers as the body computes them, each read at `(b, j)` as the specification's layer on row `b` -/

/-- The first layer: the two products added, the bias, the rectifier. -/
private def layer1 (p q : FVec Ideal S1024x128 .f32) (wa wb : FVec Ideal S128x256 .bf16) (c : FVec Ideal S256 .f32) :
    FVec Ideal S1024x256 .f32 :=
  maximumf
    (addf
      (addf
        (matmul dot_S1024x128_S128x256_S1024x256_1_0_0_1_n_n none (truncf .bf16 p bitsLt_bf16_f32) wa (constant (F := Ideal) S1024x256 .f32 0x00000000#32))
        (matmul dot_S1024x128_S128x256_S1024x256_1_0_0_1_n_n none (truncf .bf16 q bitsLt_bf16_f32) wb (constant (F := Ideal) S1024x256 .f32 0x00000000#32)))
      (broadcastTo S1024x256 (shapeCast S1x256 c shapeCasts_S256_S1x256) broadcasts_S1x256_S1024x256))
    (broadcast S1024x256 (Scalar.ofBits (F := Ideal) .f32 0x00000000#32))

private theorem layer1_apply (p q : FVec Ideal S1024x128 .f32) (wa wb : FVec Ideal S128x256 .bf16) (c : FVec Ideal S256 .f32)
    (b : Fin 1024) (j : Fin 256) :
    layer1 p q wa wb c (ix2 b j) = relu (dense2 (rows wa) (rows wb) (vec c) (rows p b) (rows q b)) j := by
  unfold layer1 relu dense2
  rw [maximumf_apply, addf_apply, addf_apply, matmul_w1_apply, matmul_w1_apply, biasRows_apply, broadcast_apply]
  exact congrArg (max _) Ideal.ofBits_zero_f32

/-- The second layer: the product, the bias, the rectifier. -/
private def layer2 (h : FVec Ideal S1024x256 .f32) (w : FVec Ideal S256x256 .bf16) (c : FVec Ideal S256 .f32) :
    FVec Ideal S1024x256 .f32 :=
  maximumf
    (addf
      (matmul dot_S1024x256_S256x256_S1024x256_1_0_0_1_n_n none (truncf .bf16 h bitsLt_bf16_f32) w (constant (F := Ideal) S1024x256 .f32 0x00000000#32))
      (broadcastTo S1024x256 (shapeCast S1x256 c shapeCasts_S256_S1x256) broadcasts_S1x256_S1024x256))
    (broadcast S1024x256 (Scalar.ofBits (F := Ideal) .f32 0x00000000#32))

private theorem layer2_apply (h : FVec Ideal S1024x256 .f32) (w : FVec Ideal S256x256 .bf16) (c : FVec Ideal S256 .f32)
    (b : Fin 1024) (j : Fin 256) :
    layer2 h w c (ix2 b j) = relu (dense (rows w) (vec c) (rows h b)) j := by
  unfold layer2 relu dense
  rw [maximumf_apply, addf_apply, matmul_w2_apply, biasRows_apply, broadcast_apply]
  exact congrArg (max _) Ideal.ofBits_zero_f32

/-- The third layer: the product and the bias. -/
private def layer3 (h : FVec Ideal S1024x256 .f32) (w : FVec Ideal S256x128 .bf16) (c : FVec Ideal S128 .f32) :
    FVec Ideal S1024x128 .f32 :=
  addf
    (matmul dot_S1024x256_S256x128_S1024x128_1_0_0_1_n_n none (truncf .bf16 h bitsLt_bf16_f32) w (constant (F := Ideal) S1024x128 .f32 0x00000000#32))
    (broadcastTo S1024x128 (shapeCast S1x128 c shapeCasts_S128_S1x128) broadcasts_S1x128_S1024x128)

private theorem layer3_apply (h : FVec Ideal S1024x256 .f32) (w : FVec Ideal S256x128 .bf16) (c : FVec Ideal S128 .f32)
    (b : Fin 1024) (j : Fin 128) :
    layer3 h w c (ix2 b j) = dense (rows w) (vec c) (rows h b) j := by
  unfold layer3 dense
  rw [addf_apply, matmul_w3_apply, biasRows_apply]
  rfl

/-- The vector the body normalises is the three layers on (agg, u): the casts to the same shape are the identity. -/
private theorem pay2_eq (agg u : FVec Ideal S1024x128 .f32) (w1a w1u : FVec Ideal S128x256 .bf16) (b1 : FVec Ideal S256 .f32)
    (w2 : FVec Ideal S256x256 .bf16) (b2 : FVec Ideal S256 .f32) (w3 : FVec Ideal S256x128 .bf16) (b3 : FVec Ideal S128 .f32) :
    k1_pay2 (F := Ideal) agg u w1a w1u b1 w2 b2 w3 b3 = layer3 (layer2 (layer1 agg u w1a w1u b1) w2 b2) w3 b3 := by
  have e : k1_pay2 (F := Ideal) agg u w1a w1u b1 w2 b2 w3 b3
      = layer3 (layer2 (layer1 (shapeCast S1024x128 agg shapeCasts_S1024x128_S1024x128) u
            (shapeCast S128x256 w1a shapeCasts_S128x256_S128x256) (shapeCast S128x256 w1u shapeCasts_S128x256_S128x256) b1)
          (shapeCast S256x256 w2 shapeCasts_S256x256_S256x256) b2)
        (shapeCast S256x128 w3 shapeCasts_S256x128_S256x128) b3 := rfl
  rw [e]
  simp only [shapeCast_self]

/-- The vector the body normalises, at `(b, j)`: the specification's three layers on the rows `agg b`, `u b`. -/
private theorem pay2_apply (agg u : FVec Ideal S1024x128 .f32) (w1a w1u : FVec Ideal S128x256 .bf16) (b1 : FVec Ideal S256 .f32)
    (w2 : FVec Ideal S256x256 .bf16) (b2 : FVec Ideal S256 .f32) (w3 : FVec Ideal S256x128 .bf16) (b3 : FVec Ideal S128 .f32)
    (b : Fin 1024) (j : Fin 128) :
    k1_pay2 (F := Ideal) agg u w1a w1u b1 w2 b2 w3 b3 (ix2 b j)
      = dense (rows w3) (vec b3) (relu (dense (rows w2) (vec b2) (relu (dense2 (rows w1a) (rows w1u) (vec b1) (rows agg b) (rows u b))))) j := by
  have e1 : rows (layer1 agg u w1a w1u b1) b = relu (dense2 (rows w1a) (rows w1u) (vec b1) (rows agg b) (rows u b)) :=
    funext fun k => layer1_apply agg u w1a w1u b1 b k
  have e2 : rows (layer2 (layer1 agg u w1a w1u b1) w2 b2) b
      = relu (dense (rows w2) (vec b2) (relu (dense2 (rows w1a) (rows w1u) (vec b1) (rows agg b) (rows u b)))) :=
    funext fun k => (layer2_apply (layer1 agg u w1a w1u b1) w2 b2 b k).trans (by rw [e1])
  rw [pay2_eq]
  exact (layer3_apply (layer2 (layer1 agg u w1a w1u b1) w2 b2) w3 b3 b j).trans (by rw [e2])

/-- The lane sums the body carries, at row `b`: the sum of that row of the vector it normalises. -/
private theorem pay3_apply (agg u : FVec Ideal S1024x128 .f32) (w1a w1u : FVec Ideal S128x256 .bf16) (b1 : FVec Ideal S256 .f32)
    (w2 : FVec Ideal S256x256 .bf16) (b2 : FVec Ideal S256 .f32) (w3 : FVec Ideal S256x128 .bf16) (b3 : FVec Ideal S128 .f32)
    (b : Fin 1024) :
    k1_pay3 (F := Ideal) agg u w1a w1u b1 w2 b2 w3 b3 (ix1 b)
      = ∑ k : Fin 128, k1_pay2 (F := Ideal) agg u w1a w1u b1 w2 b2 w3 b3 (ix2 b k) :=
  rowSum_apply (k1_pay2 (F := Ideal) agg u w1a w1u b1 w2 b2 w3 b3) b

/-! ## The normalisation as the body computes it, from a vector `X` and its lane sums `s` -/

/-- The column of means: the lane sums, stood up as a column, over the word of 128. -/
private def meanCol (s : FVec Ideal S1024 .f32) : FVec Ideal S1024x1 .f32 :=
  divf (shapeCast S1024x1 s shapeCasts_S1024_S1024x1) (broadcast S1024x1 (Scalar.ofBits (F := Ideal) .f32 0x43000000#32))

private theorem meanCol_apply (s : FVec Ideal S1024 .f32) (b : Fin 1024) (u : Fin 1) :
    meanCol s (ix2 b u) = Ideal.div (s (ix1 b)) c128 := by
  unfold meanCol
  rw [divf_apply, shapeCast_a_a1_apply, broadcast_apply]
  rfl

/-- The vector less its column of means. -/
private def centred (X : FVec Ideal S1024x128 .f32) (s : FVec Ideal S1024 .f32) : FVec Ideal S1024x128 .f32 :=
  subf X (broadcastTo S1024x128 (meanCol s) broadcasts_S1024x1_S1024x128)

private theorem centred_apply (X : FVec Ideal S1024x128 .f32) (s : FVec Ideal S1024 .f32) (b : Fin 1024) (d : Fin 128) :
    centred X s (ix2 b d) = X (ix2 b d) - Ideal.div (s (ix1 b)) c128 := by
  unfold centred
  rw [subf_apply, broadcastTo_a1_ac_apply, meanCol_apply]

/-- The column of mean square deviations. -/
private def varCol (X : FVec Ideal S1024x128 .f32) (s : FVec Ideal S1024 .f32) : FVec Ideal S1024x1 .f32 :=
  divf
    (shapeCast S1024x1
      (multiReduction (F := Ideal) .add [1] S1024 (mulf (centred X s) (centred X s)) 0x00000000#32 reduces_S1024x128_S1024 (.inl rfl) rfl)
      shapeCasts_S1024_S1024x1)
    (broadcast S1024x1 (Scalar.ofBits (F := Ideal) .f32 0x43000000#32))

private theorem varCol_apply (X : FVec Ideal S1024x128 .f32) (s : FVec Ideal S1024 .f32) (b : Fin 1024) (u : Fin 1) :
    varCol X s (ix2 b u)
      = Ideal.div (∑ k : Fin 128, (X (ix2 b k) - Ideal.div (s (ix1 b)) c128) * (X (ix2 b k) - Ideal.div (s (ix1 b)) c128)) c128 := by
  unfold varCol
  rw [divf_apply, shapeCast_a_a1_apply, broadcast_apply, rowSum_apply]
  refine congrArg (fun t => Ideal.div t c128) (Finset.sum_congr rfl fun k _ => ?_)
  rw [mulf_apply, centred_apply]

/-- The stored vector: centred, times the inverse root of the deviation plus the offset, times g, plus be, plus u. -/
private theorem pay1_eq (v2 X : FVec Ideal S1024x128 .f32) (s : FVec Ideal S1024 .f32) (g be : FVec Ideal S128 .f32) :
    k1_pay1 (F := Ideal) v2 X s g be
      = addf
          (addf
            (mulf
              (mulf (centred X s)
                (broadcastTo S1024x128
                  (rsqrt (addf (varCol X s) (broadcast S1024x1 (Scalar.ofBits (F := Ideal) .f32 0x3727C5AC#32))))
                  broadcasts_S1024x1_S1024x128))
              (broadcastTo S1024x128 (shapeCast S1x128 g shapeCasts_S128_S1x128) broadcasts_S1x128_S1024x128))
            (broadcastTo S1024x128 (shapeCast S1x128 be shapeCasts_S128_S1x128) broadcasts_S1x128_S1024x128))
          v2 := rfl

private theorem pay1_apply (v2 X : FVec Ideal S1024x128 .f32) (s : FVec Ideal S1024 .f32) (g be : FVec Ideal S128 .f32)
    (b : Fin 1024) (d : Fin 128) :
    k1_pay1 (F := Ideal) v2 X s g be (ix2 b d)
      = ((X (ix2 b d) - Ideal.div (s (ix1 b)) c128)
            * Ideal.rsqrt (Ideal.div (∑ k : Fin 128, (X (ix2 b k) - Ideal.div (s (ix1 b)) c128) * (X (ix2 b k) - Ideal.div (s (ix1 b)) c128)) c128 + ceps))
          * g (ix1 d) + be (ix1 d) + v2 (ix2 b d) := by
  rw [pay1_eq, addf_apply, addf_apply, mulf_apply, mulf_apply, centred_apply, broadcastTo_a1_ac_apply, biasRows_apply,
    biasRows_apply, rsqrt_apply, addf_apply, varCol_apply, broadcast_apply]
  rfl

/-- The graph-level stage's stored value at graph b, feature d. -/
theorem stageB_apply (agg u : Vec Ideal S1024x128 .f32) (w1a w1u : Vec Ideal S128x256 .bf16) (b1 : Vec Ideal S256 .f32)
    (w2 : Vec Ideal S256x256 .bf16) (b2 : Vec Ideal S256 .f32) (w3 : Vec Ideal S256x128 .bf16) (b3 g be : Vec Ideal S128 .f32)
    (b : Fin 1024) (d : Fin 128) :
    k1_pay1 (F := Ideal) u (k1_pay2 agg u w1a w1u b1 w2 b2 w3 b3) (k1_pay3 agg u w1a w1u b1 w2 b2 w3 b3) g be (ix2 b d)
      = mlpLN (rows w1a) (rows w1u) (vec b1) (rows w2) (vec b2) (rows w3) (vec b3) (vec g) (vec be)
          (rows agg b) (rows u b) d + u (ix2 b d) := by
  have hX : ∀ k : Fin 128, k1_pay2 (F := Ideal) agg u w1a w1u b1 w2 b2 w3 b3 (ix2 b k)
      = dense (rows w3) (vec b3) (relu (dense (rows w2) (vec b2) (relu (dense2 (rows w1a) (rows w1u) (vec b1) (rows agg b) (rows u b))))) k :=
    fun k => pay2_apply agg u w1a w1u b1 w2 b2 w3 b3 b k
  refine (pay1_apply u (k1_pay2 (F := Ideal) agg u w1a w1u b1 w2 b2 w3 b3) (k1_pay3 (F := Ideal) agg u w1a w1u b1 w2 b2 w3 b3) g be b d).trans ?_
  rw [pay3_apply agg u w1a w1u b1 w2 b2 w3 b3 b]
  simp only [hX]
  rfl

end Cert.KernelIdeal.StageBValue

end
-- ==== Proof.SumLaws.lean ====
/-
  Sum laws over a commutative monoid and over the extended reals, used to join a one-hot matrix product to a gather
  and to a segment sum: a sum over 123 blocks of 4096 is one sum over 503808; a sum over 503808 whose tail beyond
  500000 vanishes is the sum over 500000; a sum over 256 splits into its two halves of 128; a one-hot row against a
  table picks the table's row; a 32-bit word is the word of b < 1024 exactly when its signed reading is b.
-/
import Mathlib.Data.EReal.Basic
import Mathlib.Data.EReal.Operations
import Mathlib.Algebra.BigOperators.Fin
import Mathlib.Algebra.BigOperators.Group.Finset.Piecewise
import Mathlib.Data.Fintype.BigOperators
import Mathlib.Logic.Equiv.Fin.Basic

open scoped BigOperators

namespace Cert.SumLaws

/-- The word of b < 1024 has its sign bit clear, so its signed reading is b itself. -/
private theorem toInt_word (b : Fin 1024) : (BitVec.ofNat 32 b.val).toInt = (b.val : ℤ) := by
  have hb := b.isLt
  have hmod : b.val % 2 ^ 32 = b.val := Nat.mod_eq_of_lt (by omega)
  rw [BitVec.toInt_eq_toNat_of_lt (by rw [BitVec.toNat_ofNat, hmod]; omega), BitVec.toNat_ofNat, hmod]

/-- A 32-bit word equals the word of b < 1024 exactly when its signed reading is b. -/
theorem word_eq_iff (w : BitVec 32) (b : Fin 1024) : w = BitVec.ofNat 32 b.val ↔ w.toInt = (b.val : ℤ) := by
  constructor
  · intro h
    rw [h, toInt_word]
  · intro h
    -- the signed reading is injective on words
    apply BitVec.eq_of_toInt_eq
    rw [h, toInt_word]

/-- No b < 1024 is read by the word of -1. -/
theorem neg_one_ne (b : Fin 1024) : (4294967295#32 : BitVec 32) ≠ BitVec.ofNat 32 b.val := by
  intro h
  -- the all-ones word reads -1, which is no natural number
  have h1 : (4294967295#32 : BitVec 32).toInt = -1 := by decide
  have h2 := (word_eq_iff _ b).mp h
  rw [h1] at h2
  omega

/-- A one-hot row against a table picks the table's row. -/
theorem onehot_pick (w : BitVec 32) (f : Fin 1024 → EReal) (b : Fin 1024) (hw : w = BitVec.ofNat 32 b.val) :
    ∑ b' : Fin 1024, (if w = BitVec.ofNat 32 b'.val then (1 : EReal) else 0) * f b' = f b := by
  -- only the term at b survives: b' ↦ word of b' is injective below 1024
  rw [Finset.sum_eq_single b]
  · rw [if_pos hw, one_mul]
  · intro b' _ hne
    have hnw : ¬ w = BitVec.ofNat 32 b'.val := by
      intro h'
      apply hne
      have e := (word_eq_iff w b).mp hw
      have e' := (word_eq_iff w b').mp h'
      apply Fin.ext
      omega
    rw [if_neg hnw, zero_mul]
  · intro hb
    exact absurd (Finset.mem_univ b) hb

/-- A one-hot coefficient times a value is the value where the word matches and 0 elsewhere. -/
theorem onehot_mul (w : BitVec 32) (b : Fin 1024) (a : EReal) :
    (if w = BitVec.ofNat 32 b.val then (1 : EReal) else 0) * a = if w.toInt = (b.val : ℤ) then a else 0 := by
  by_cases h : w = BitVec.ofNat 32 b.val
  · rw [if_pos h, if_pos ((word_eq_iff w b).mp h), one_mul]
  · rw [if_neg h, if_neg (fun h' => h ((word_eq_iff w b).mpr h')), zero_mul]

/-- 123 blocks of 4096 are 503808. -/
theorem sum_tiles {M : Type*} [AddCommMonoid M] (f : Fin 503808 → M) :
    ∑ t : Fin 123, ∑ r : Fin 4096, f ⟨t.val * 4096 + r.val, by have := t.isLt; have := r.isLt; omega⟩ = ∑ n : Fin 503808, f n := by
  -- the double sum is a sum over pairs (t, r), and (t, r) ↦ r + 4096 * t is a bijection onto the 123 * 4096 indices
  have hpair := Fintype.sum_prod_type' (fun (t : Fin 123) (r : Fin 4096) =>
    f ⟨t.val * 4096 + r.val, by have := t.isLt; have := r.isLt; omega⟩)
  refine hpair.symm.trans ?_
  refine Fintype.sum_equiv (finProdFinEquiv (m := 123) (n := 4096)) _ f ?_
  rintro ⟨t, r⟩
  refine congrArg f (Fin.ext ?_)
  show t.val * 4096 + r.val = r.val + 4096 * t.val
  omega

/-- A sum over 503808 whose terms beyond 500000 vanish is the sum over 500000. -/
theorem sum_padded {M : Type*} [AddCommMonoid M] (f : Fin 503808 → M) (hz : ∀ n : Fin 503808, 500000 ≤ n.val → f n = 0) :
    ∑ n : Fin 503808, f n = ∑ n : Fin 500000, f ⟨n.val, by have := n.isLt; omega⟩ := by
  -- 503808 = 500000 + 3808: the first part is the wanted sum, the second part is all zeros
  have hsplit := Fin.sum_univ_add (a := 500000) (b := 3808) f
  have htail : ∑ i : Fin 3808, f (Fin.natAdd 500000 i) = 0 :=
    Finset.sum_eq_zero (fun i _ => hz _ (Nat.le_add_right 500000 i.val))
  refine hsplit.trans ?_
  rw [htail, add_zero]
  exact Finset.sum_congr rfl (fun i _ => rfl)

/-- A sum over 256 is the sum over its first 128 plus the sum over its last 128. -/
theorem sum_256_split {M : Type*} [AddCommMonoid M] (f : Fin 256 → M) :
    ∑ k : Fin 256, f k = (∑ k : Fin 128, f ⟨k.val, by have := k.isLt; omega⟩) + ∑ k : Fin 128, f ⟨128 + k.val, by have := k.isLt; omega⟩ := by
  -- 256 = 128 + 128; the two embeddings of Fin 128 are k ↦ k and k ↦ 128 + k
  have hsplit := Fin.sum_univ_add (a := 128) (b := 128) f
  refine hsplit.trans ?_
  exact congrArg₂ (· + ·) (Finset.sum_congr rfl (fun i _ => rfl)) (Finset.sum_congr rfl (fun i _ => rfl))

/-- The partial sums over the first n + 1 of 123 blocks, as a recursion: what an accumulator holds after block n. -/
theorem sum_range_succ_blocks {M : Type*} [AddCommMonoid M] (g : ℕ → M) (n : ℕ) :
    (∑ t ∈ Finset.range (n + 1), g t) = (∑ t ∈ Finset.range n, g t) + g n := Finset.sum_range_succ g n

end Cert.SumLaws
-- ==== Proof.KernelValue.lean ====
/-
  The kernel's result array at the ideal instance is the model's result of the launch arrays.
  Region 1 applies stage B to region 0's result array, and region 0's result array is the accumulator after its last
  tile. At graph b and feature d the accumulator after tile n is the sum over tiles 0 … n and over each tile's 4096 rows
  of the one-hot coefficient times stage A on the row: the one-hot row against u picks u b where the id reads b, and
  the coefficient is 0 elsewhere, so each term is stage A on (x row, u b) where the id reads b and 0 elsewhere. The
  123 tiles of 4096 rows are the 503808 padded rows; the 3808 padding rows carry the id -1, which reads no b; the
  first 500000 rows are the node array's.
-/
import proofs.«408234_j7662221656191_1_alg».proof.Proof.KernelFold
import proofs.«408234_j7662221656191_1_alg».proof.Proof.HostGlue
import proofs.«408234_j7662221656191_1_alg».proof.Proof.TileValue
import proofs.«408234_j7662221656191_1_alg».proof.Proof.StageBValue
import proofs.«408234_j7662221656191_1_alg».proof.Proof.SumLaws
import proofs.«408234_j7662221656191_1_alg».proof.Proof.Spec
import Idealize.ShloMosaic.Lib.KernelVsHost

set_option maxRecDepth 16384

noncomputable section

open Idealize.ShloMosaic Idealize.ShloMosaic.TcCoe Idealize.SL.Sem Idealize.ShloMosaic.ValueIdx
open scoped BigOperators

namespace Cert.KernelIdeal.KernelValue

open Cert.KernelIdeal Cert.KernelIdeal.Gen Cert.Spec Cert.SumLaws
open Cert.KernelIdeal.Fold Cert.KernelIdeal.Glue Cert.KernelIdeal.TileValue Cert.KernelIdeal.StageBValue

/-! ## Narrowing, cutting and padding, read at an index at the ideal instance -/

/-- Narrowing to bf16 changes no extended real: a narrowed matrix has the same rows. -/
theorem rows_narrow {A B : ℕ} (X : FVec Ideal ⟨2, ![A, B]⟩ .f32) :
    rows (truncf .bf16 X bitsLt_bf16_f32 : FVec Ideal ⟨2, ![A, B]⟩ .bf16) = rows X := rfl

/-- The cut [0:128, 0:256] of a 256-row weight is its top half. -/
theorem rows_cut_top (W : FVec Ideal S256x256 .f32) :
    rows (extractStridedSlice S128x256 ![0, 0] W slices_S256x256_S128x256_0_0) = top W := by
  funext k j
  show extractStridedSlice S128x256 ![0, 0] W slices_S256x256_S128x256_0_0 (ix2 k j) = W (ix2 ⟨k.val, _⟩ j)
  unfold extractStridedSlice
  congr 1
  funext a
  apply Fin.ext
  match a with
  | ⟨0, _⟩ => show 0 + k.val = k.val; omega
  | ⟨1, _⟩ => show 0 + j.val = j.val; omega

/-- The cut [128:256, 0:256] of a 256-row weight is its bottom half. -/
theorem rows_cut_bot (W : FVec Ideal S256x256 .f32) :
    rows (extractStridedSlice S128x256 ![128, 0] W slices_S256x256_S128x256_128_0) = bot W := by
  funext k j
  show extractStridedSlice S128x256 ![128, 0] W slices_S256x256_S128x256_128_0 (ix2 k j) = W (ix2 ⟨128 + k.val, _⟩ j)
  unfold extractStridedSlice
  congr 1
  funext a
  apply Fin.ext
  match a with
  | ⟨0, _⟩ => show 128 + k.val = 128 + k.val; rfl
  | ⟨1, _⟩ => show 0 + j.val = j.val; omega

/-- A padded node row below 500000 is the node array's row. -/
theorem padx_inside (X : FVec Ideal S500000x128 .f32) (v : FVec Ideal S_ .f32) (n : Fin 503808) (hn : n.val < 500000) (k : Fin 128) :
    pad S503808x128 ![0, 0] ![3808, 0] ![0, 0] X v pads_S500000x128_S503808x128_038080_000 h_S_ (ix2 n k) = X (ix2 ⟨n.val, hn⟩ k) :=
  pad_apply_of_inside _ _ _ X v _ _ (ix2 n k) (ix2 ⟨n.val, hn⟩ k) fun a => by
    match a with
    | ⟨0, _⟩ => show n.val = 0 + n.val * (0 + 1); omega
    | ⟨1, _⟩ => show k.val = 0 + k.val * (0 + 1); omega

/-- So the padded row of a node, as a function of the feature, is the node array's row. -/
theorem padx_rows (X : FVec Ideal S500000x128 .f32) (v : FVec Ideal S_ .f32) (n : Fin 500000) :
    (fun k => pad S503808x128 ![0, 0] ![3808, 0] ![0, 0] X v pads_S500000x128_S503808x128_038080_000 h_S_
      (ix2 (⟨n.val, by have := n.isLt; omega⟩ : Fin 503808) k)) = rows X n :=
  funext fun k => padx_inside X v _ n.isLt k

/-- A padded id below 500000 is the id array's entry. -/
theorem padb_inside (Bt : IVec S500000 32) (v : IVec S_ 32) (n : Fin 503808) (hn : n.val < 500000) :
    pad S503808 ![0] ![3808] ![0] Bt v pads_S500000_S503808_038080 h_S_ (ix1 n) = Bt (ix1 ⟨n.val, hn⟩) :=
  pad_apply_of_inside _ _ _ Bt v _ _ (ix1 n) (ix1 ⟨n.val, hn⟩) fun a => by
    match a with
    | ⟨0, _⟩ => show n.val = 0 + n.val * (0 + 1); omega

/-- A padded id from 500000 on is the padding word. -/
theorem padb_outside (Bt : IVec S500000 32) (v : IVec S_ 32) (n : Fin 503808) (hn : 500000 ≤ n.val) :
    pad S503808 ![0] ![3808] ![0] Bt v pads_S500000_S503808_038080 h_S_ (ix1 n) = v (Shape.Idx.first h_S_) :=
  pad_apply_of_not_inside _ _ _ Bt v _ _ (ix1 n) ⟨0, by decide⟩ fun h => by
    have h3 : (n.val - 0) / (0 + 1) < 500000 := h.2.2
    omega

variable (m : (ℓ : Loc nD τ sig) → Buf (Elt Ideal) ℓ) (ρ : Dev nD → PrngReg)

/-! ## One padded row's term, and one tile -/

/-- Stage A with region 0's weights as the region finds them, on a pair of rows. -/
def rowK (c : Dev nD) (p q : Fin 128 → EReal) : Fin 128 → EReal :=
  mlpLN (rows (V5 m ρ c main_v4 : Vec Ideal S128x256 .bf16)) (rows (V5 m ρ c main_v6 : Vec Ideal S128x256 .bf16))
    (vec (V5 m ρ c main_arg4 : Vec Ideal S256 .f32)) (rows (V5 m ρ c main_v7 : Vec Ideal S256x256 .bf16))
    (vec (V5 m ρ c main_arg6 : Vec Ideal S256 .f32)) (rows (V5 m ρ c main_v8 : Vec Ideal S256x128 .bf16))
    (vec (V5 m ρ c main_arg8 : Vec Ideal S128 .f32)) (vec (V5 m ρ c main_arg9 : Vec Ideal S128 .f32))
    (vec (V5 m ρ c main_arg10 : Vec Ideal S128 .f32)) p q

/-- Padded row n's contribution to graph b, feature d: stage A on (the row, u b) where the id reads b, else 0. -/
def term (c : Dev nD) (b : Fin 1024) (d : Fin 128) (n : Fin 503808) : EReal :=
  if ((V5 m ρ c main_v1 : Vec Ideal S503808 .i32) (ix1 n)).toInt = (b.val : ℤ) then
    rowK m ρ c (fun k => (V5 m ρ c main_v0 : Vec Ideal S503808x128 .f32) (ix2 n k))
      (rows (V5 m ρ c main_v2 : Vec Ideal S1024x128 .bf16) b) d
  else 0

/-- Row r of tile t is padded row 4096 t + r. -/
def rowOf (t : Fin cfg0.N) (r : Fin 4096) : Fin 503808 :=
  ⟨t.val * 4096 + r.val, by have := Fold.val_lt t; have := r.isLt; omega⟩

/-- A tile's update at graph b, feature d: the accumulator there plus the tile's rows' terms. -/
theorem tile_term (c : Dev nD) (t : Fin cfg0.N) (acc : Vec Ideal S1024x128 .f32) (b : Fin 1024) (d : Fin 128) :
    tileP (V5 m ρ) c t acc (ix2 b d) = acc (ix2 b d) + ∑ r : Fin 4096, term m ρ c b d (rowOf t r) := by
  unfold tileP
  rw [tile_apply]
  refine congrArg (acc (ix2 b d) + ·) (Finset.sum_congr rfl fun r _ => ?_)
  rw [iblk0_2, iblk0_3, iblk0_4, iblk0_5, iblk0_6, iblk0_7, iblk0_8, iblk0_9, iblk0_10, iblk0_11]
  have hid : (iblk0 (V5 m ρ) c 1 t : Vec Ideal S4096 .i32) (ix1 r)
      = (V5 m ρ c main_v1 : Vec Ideal S503808 .i32) (ix1 (rowOf t r)) := iblk0_b (V5 m ρ) c t r
  have hrow : rows (iblk0 (V5 m ρ) c 0 t : Vec Ideal S4096x128 .f32) r
      = fun k => (V5 m ρ c main_v0 : Vec Ideal S503808x128 .f32) (ix2 (rowOf t r) k) :=
    funext fun k => iblk0_x (V5 m ρ) c t r k
  unfold term rowK
  rw [hrow]
  by_cases hw : (iblk0 (V5 m ρ) c 1 t : Vec Ideal S4096 .i32) (ix1 r) = BitVec.ofNat 32 b.val
  · have hg : (fun k => ∑ q : Fin 1024, hot (iblk0 (V5 m ρ) c 1 t) r q * (V5 m ρ c main_v2 : Vec Ideal S1024x128 .bf16) (ix2 q k))
        = rows (V5 m ρ c main_v2 : Vec Ideal S1024x128 .bf16) b :=
      funext fun k => onehot_pick _ (fun q => (V5 m ρ c main_v2 : Vec Ideal S1024x128 .bf16) (ix2 q k)) b hw
    rw [hg, if_pos ((word_eq_iff _ b).mp (hid ▸ hw))]
    show (if _ then (1 : EReal) else 0) * _ = _
    rw [if_pos hw, one_mul]
  · rw [if_neg fun h => hw (hid ▸ (word_eq_iff _ b).mpr h)]
    show (if _ then (1 : EReal) else 0) * _ = _
    rw [if_neg hw, zero_mul]

/-! ## The accumulator as a sum over the tiles so far -/

/-- Tile t's rows' terms; 0 beyond the grid. -/
def tileSum (c : Dev nD) (b : Fin 1024) (d : Fin 128) (t : ℕ) : EReal :=
  if ht : t < cfg0.N then ∑ r : Fin 4096, term m ρ c b d (rowOf ⟨t, ht⟩ r) else 0

/-- The accumulator after tile n, at graph b, feature d, is the sum of tiles 0 … n. -/
theorem acc_sum (c : Dev nD) (b : Fin 1024) (d : Fin 128) :
    ∀ (n : ℕ) (h : n < cfg0.N), accK (V5 m ρ) c n h (ix2 b d) = ∑ t ∈ Finset.range (n + 1), tileSum m ρ c b d t
  | 0, h => by
    show tileP (V5 m ρ) c ⟨0, h⟩ (k0_pay1 (F := Ideal)) (ix2 b d) = _
    rw [tile_term, reset_apply, zero_add, Finset.sum_range_one]
    unfold tileSum
    rw [dif_pos h]
  | n + 1, h => by
    show tileP (V5 m ρ) c ⟨n + 1, h⟩ (accK (V5 m ρ) c n (Nat.lt_of_succ_lt h)) (ix2 b d) = _
    rw [tile_term, acc_sum c b d n (Nat.lt_of_succ_lt h), Finset.sum_range_succ _ (n + 1)]
    congr 1
    unfold tileSum
    rw [dif_pos h]

/-- After the last tile: the sum over all 503808 padded rows. -/
theorem acc_last (c : Dev nD) (b : Fin 1024) (d : Fin 128) :
    accK (V5 m ρ) c 122 Fold.lt_N0 (ix2 b d) = ∑ n : Fin 503808, term m ρ c b d n := by
  rw [acc_sum, ← sum_tiles, Finset.sum_range]
  refine Finset.sum_congr rfl fun t _ => ?_
  unfold tileSum
  rw [dif_pos (show t.val < cfg0.N from by rw [show cfg0.N = 123 from N_0]; exact t.isLt)]
  rfl

/-! ## The padded rows are the nodes -/

/-- A padding row contributes nothing: its id is the word of -1, which reads no graph number. -/
theorem term_pad (c : Dev nD) (b : Fin 1024) (d : Fin 128) (n : Fin 503808) (hn : 500000 ≤ n.val) :
    term m ρ c b d n = 0 := by
  unfold term
  rw [V5_v1, padb_outside _ _ n hn]
  refine if_neg fun h => ?_
  exact neg_one_ne b ((word_eq_iff _ b).mpr h)

/-- A node's row contributes the model's term. -/
theorem term_node (c : Dev nD) (b : Fin 1024) (d : Fin 128) (n : Fin 500000) :
    term m ρ c b d ⟨n.val, by have := n.isLt; omega⟩
      = if ((m ((c.tc : Thread nD τ).loc main_arg2)) (ix1 n)).toInt = (b.val : ℤ) then
          nodeRow (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
            (rows (m ((c.tc : Thread nD τ).loc main_arg0)) n) (rows (m ((c.tc : Thread nD τ).loc main_arg1)) b) d
        else 0 := by
  unfold term rowK nodeRow
  rw [V5_v1, V5_v0, V5_v2, V5_v4, V5_v6, V5_v7, V5_v8, V5_arg4, V5_arg6, V5_arg8, V5_arg9, V5_arg10,
    padb_inside _ _ _ n.isLt, rows_narrow, rows_narrow, rows_narrow, rows_narrow, rows_narrow, rows_cut_top, rows_cut_bot]
  rw [padx_rows]

/-- Region 0's result array at graph b, feature d is the model's aggregate. -/
theorem agg_eq (c : Dev nD) (b : Fin 1024) (d : Fin 128) :
    accK (V5 m ρ) c 122 Fold.lt_N0 (ix2 b d)
      = agg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b d := by
  rw [acc_last, sum_padded _ (fun n hn => term_pad m ρ c b d n hn)]
  unfold agg
  exact Finset.sum_congr rfl fun n _ => term_node m ρ c b d n

/-! ## The result -/

/-- The result buffer after the run is the model's result of the launch arrays. -/
theorem kernel_eq (c : Dev nD) :
    (W8 m ρ c (Proc.devRef .tc main_v16) : Vec Ideal S1024x128 .f32)
      = Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
  rw [W8_v16, region1_arr, V7_v9, region0_arr, V7_arg1, V7_v11, V7_v13, V7_v14, V7_v15, V7_arg12, V7_arg14, V7_arg16,
    V7_arg17, V7_arg18]
  funext i
  obtain ⟨b, d, rfl⟩ : ∃ (b : Fin 1024) (d : Fin 128), i = ix2 b d := ⟨i 0, i 1, eq_ix2 i⟩
  rw [stageB_apply, result_ix2]
  unfold out
  rw [rows_narrow, rows_narrow, rows_narrow, rows_narrow, rows_cut_top, rows_cut_bot]
  have hag : rows (accK (V5 m ρ) c 122 Fold.lt_N0) b = agg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b :=
    funext fun d' => agg_eq m ρ c b d'
  rw [hag]

end Cert.KernelIdeal.KernelValue

end
-- ==== Proof.RefNode.lean ====
/-
  The reference's stage A, read at node n and feature d: the concatenated row (x n, gathered row) through the first
  256-by-256 product is the row x n against the weight's top half plus the gathered row against its bottom half;
  then the bias, the rectifier, the second and third layers and the normalisation, each read at an index.
-/
import proofs.«408234_j7662221656191_1_alg».proof.Proof.Gen.ReferenceIdeal.Read
import proofs.«408234_j7662221656191_1_alg».proof.Proof.Spec
import proofs.«408234_j7662221656191_1_alg».proof.Proof.SumLaws
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.Spec

/-- The concatenated row at a column below 128 is the node's own row. -/
private theorem cat_left (x0 : (⟨S500000x128, .f32⟩ : BufTy).Contents (Elt Ideal)) (x1 : (⟨S1024x128, .f32⟩ : BufTy).Contents (Elt Ideal)) (x2 : (⟨S500000, .i32⟩ : BufTy).Contents (Elt Ideal)) (n : Fin 500000) (k : Fin 128) :
    val_main_v7 (F := Ideal) x0 x1 x2 (ix2 n ⟨k.val, by have := k.isLt; omega⟩) = x0 (ix2 n k) := by
  unfold val_main_v7
  generalize val_main_v6 (F := Ideal) x1 x2 = ug
  exact concatenate_pair_apply_left (1 : Fin S500000x256.rank) x0 ug concatenates_S500000x128_S500000x128_S500000x256_d1
    (ix2 n ⟨k.val, by have := k.isLt; omega⟩) rfl (ix2 n k)
    (fun b => match b with | ⟨0, _⟩ => rfl | ⟨1, _⟩ => rfl)

/-- The concatenated row at a column 128 + k is the gathered row at k. -/
private theorem cat_right (x0 : (⟨S500000x128, .f32⟩ : BufTy).Contents (Elt Ideal)) (x1 : (⟨S1024x128, .f32⟩ : BufTy).Contents (Elt Ideal)) (x2 : (⟨S500000, .i32⟩ : BufTy).Contents (Elt Ideal)) (n : Fin 500000) (k : Fin 128) :
    val_main_v7 (F := Ideal) x0 x1 x2 (ix2 n ⟨128 + k.val, by have := k.isLt; omega⟩)
      = val_main_v6 (F := Ideal) x1 x2 (ix2 n k) := by
  unfold val_main_v7
  generalize val_main_v6 (F := Ideal) x1 x2 = ug
  exact concatenate_pair_apply_right (1 : Fin S500000x256.rank) x0 ug concatenates_S500000x128_S500000x128_S500000x256_d1
    (ix2 n ⟨128 + k.val, by have := k.isLt; omega⟩) rfl rfl (ix2 n k)
    (fun b => match b with | ⟨0, _⟩ => fun _ => rfl | ⟨1, _⟩ => fun h => absurd rfl h)
    (Nat.add_comm _ _)

/-- The first layer at node n, output j: the node's row against the weight's top half, the gathered row against its
    bottom half, plus the bias. -/
private theorem layer1 (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (n : Fin 500000) (j : Fin 256) :
    val_main_v11 (F := Ideal) x0 x1 x2 x3 x4 (ix2 n j) = (dense2 (top x3) (bot x3) (vec x4) (rows x0 n) (rows (val_main_v6 (F := Ideal) x1 x2) n)) j := by
  have hl : ∀ k : Fin 256, lidx_main_v8 (ix2 n j) k = ix2 n k := fun k => funext fun a => Fin.ext (by match a with | ⟨0, _⟩ => rfl | ⟨1, _⟩ => rfl)
  have hr : ∀ k : Fin 256, ridx_main_v8 (ix2 n j) k = ix2 k j := fun k => funext fun a => Fin.ext (by match a with | ⟨0, _⟩ => rfl | ⟨1, _⟩ => rfl)
  have hb : idx_main_v9 (idx_main_v10 (ix2 n j)) = ix1 j := funext fun a => Fin.ext (by match a with | ⟨0, _⟩ => rfl)
  rw [val_main_v11_apply, val_main_v8_apply, val_main_v10_apply, val_main_v9_apply, Cert.SumLaws.sum_256_split]
  simp only [hl, hr, hb, cat_left, cat_right, Ideal.addf_def]
  rfl

/-- The rectifier after the first layer. -/
private theorem act1 (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (n : Fin 500000) (j : Fin 256) :
    val_main_v12 (F := Ideal) x0 x1 x2 x3 x4 (ix2 n j) = relu (dense2 (top x3) (bot x3) (vec x4) (rows x0 n) (rows (val_main_v6 (F := Ideal) x1 x2) n)) j := by
  rw [val_main_v12_apply, val_main_call0_v0_apply, val_main_call0_cst_apply, layer1]
  simp only [Ideal.maximumf_def, Ideal.ofBits_def, Ideal.ofBits_zero_f32]
  rfl

/-- The second layer at node n, output j. -/
private theorem layer2 (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (n : Fin 500000) (j : Fin 256) :
    val_main_v16 (F := Ideal) x0 x1 x2 x3 x4 x5 x6 (ix2 n j) = (dense (rows x5) (vec x6) (relu (dense2 (top x3) (bot x3) (vec x4) (rows x0 n) (rows (val_main_v6 (F := Ideal) x1 x2) n)))) j := by
  have hl : ∀ k : Fin 256, lidx_main_v13 (ix2 n j) k = ix2 n k := fun k => funext fun a => Fin.ext (by match a with | ⟨0, _⟩ => rfl | ⟨1, _⟩ => rfl)
  have hr : ∀ k : Fin 256, ridx_main_v13 (ix2 n j) k = ix2 k j := fun k => funext fun a => Fin.ext (by match a with | ⟨0, _⟩ => rfl | ⟨1, _⟩ => rfl)
  have hb : idx_main_v14 (idx_main_v15 (ix2 n j)) = ix1 j := funext fun a => Fin.ext (by match a with | ⟨0, _⟩ => rfl)
  rw [val_main_v16_apply, val_main_v13_apply, val_main_v15_apply, val_main_v14_apply]
  simp only [hl, hr, hb, act1, Ideal.addf_def]
  rfl

/-- The rectifier after the second layer. -/
private theorem act2 (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (n : Fin 500000) (j : Fin 256) :
    val_main_v17 (F := Ideal) x0 x1 x2 x3 x4 x5 x6 (ix2 n j) = relu (dense (rows x5) (vec x6) (relu (dense2 (top x3) (bot x3) (vec x4) (rows x0 n) (rows (val_main_v6 (F := Ideal) x1 x2) n)))) j := by
  rw [val_main_v17_apply, val_main_call1_v0_apply, val_main_call1_cst_apply, layer2]
  simp only [Ideal.maximumf_def, Ideal.ofBits_def, Ideal.ofBits_zero_f32]
  rfl

/-- The third layer at node n, output j. -/
private theorem layer3 (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (n : Fin 500000) (j : Fin 128) :
    val_main_v21 (F := Ideal) x0 x1 x2 x3 x4 x5 x6 x7 x8 (ix2 n j) = (dense (rows x7) (vec x8) (relu (dense (rows x5) (vec x6) (relu (dense2 (top x3) (bot x3) (vec x4) (rows x0 n) (rows (val_main_v6 (F := Ideal) x1 x2) n)))))) j := by
  have hl : ∀ k : Fin 256, lidx_main_v18 (ix2 n j) k = ix2 n k := fun k => funext fun a => Fin.ext (by match a with | ⟨0, _⟩ => rfl | ⟨1, _⟩ => rfl)
  have hr : ∀ k : Fin 256, ridx_main_v18 (ix2 n j) k = ix2 k j := fun k => funext fun a => Fin.ext (by match a with | ⟨0, _⟩ => rfl | ⟨1, _⟩ => rfl)
  have hb : idx_main_v19 (idx_main_v20 (ix2 n j)) = ix1 j := funext fun a => Fin.ext (by match a with | ⟨0, _⟩ => rfl)
  rw [val_main_v21_apply, val_main_v18_apply, val_main_v20_apply, val_main_v19_apply]
  simp only [hl, hr, hb, act2, Ideal.addf_def]
  rfl

/-- The row mean of the third layer's output: the row's sum (from the zero word) over the word of 128. -/
private theorem mean_apply (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (n : Fin 500000) :
    val_main_v25 (F := Ideal) x0 x1 x2 x3 x4 x5 x6 x7 x8 (ix2 n (⟨0, Nat.one_pos⟩ : Fin 1)) = mean (fun k : Fin 128 => val_main_v21 (F := Ideal) x0 x1 x2 x3 x4 x5 x6 x7 x8 (ix2 n k)) := by
  have h23 : idx_main_v23 (ix2 n (⟨0, Nat.one_pos⟩ : Fin 1)) = ix1 n := funext fun a => Fin.ext (by match a with | ⟨0, _⟩ => rfl)
  have h22 : ∀ k : Fin 128, idx_main_v22 (ix1 n) k = ix2 n k := fun k => funext fun a => Fin.ext (by match a with | ⟨0, _⟩ => rfl | ⟨1, _⟩ => rfl)
  rw [val_main_v25_apply, val_main_v23_apply, val_main_v24_apply, val_main_cst_1_apply, h23, val_main_v22_apply,
    val_main_cst_apply]
  simp only [h22, Ideal.hostDivf_def, Ideal.ofBits_def, Ideal.ofBits_zero_f32, zero_add]
  rfl

/-- The mean square deviation of the row, over the word of 128, plus the offset word. -/
private theorem var_apply (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (n : Fin 500000) :
    val_main_v36 (F := Ideal) x0 x1 x2 x3 x4 x5 x6 x7 x8 (ix2 n (⟨0, Nat.one_pos⟩ : Fin 1))
      = Ideal.div (∑ k : Fin 128, ((fun k : Fin 128 => val_main_v21 (F := Ideal) x0 x1 x2 x3 x4 x5 x6 x7 x8 (ix2 n k)) k - mean (fun k : Fin 128 => val_main_v21 (F := Ideal) x0 x1 x2 x3 x4 x5 x6 x7 x8 (ix2 n k))) * ((fun k : Fin 128 => val_main_v21 (F := Ideal) x0 x1 x2 x3 x4 x5 x6 x7 x8 (ix2 n k)) k - mean (fun k : Fin 128 => val_main_v21 (F := Ideal) x0 x1 x2 x3 x4 x5 x6 x7 x8 (ix2 n k)))) c128 + ceps := by
  have h30 : idx_main_v30 (ix2 n (⟨0, Nat.one_pos⟩ : Fin 1)) = ix1 n := funext fun a => Fin.ext (by match a with | ⟨0, _⟩ => rfl)
  have h29 : ∀ k : Fin 128, idx_main_v29 (ix1 n) k = ix2 n k := fun k => funext fun a => Fin.ext (by match a with | ⟨0, _⟩ => rfl | ⟨1, _⟩ => rfl)
  have h26 : ∀ k : Fin 128, idx_main_v26 (ix2 n k) = ix2 n (⟨0, Nat.one_pos⟩ : Fin 1) := fun k => funext fun a => Fin.ext (by match a with | ⟨0, _⟩ => rfl | ⟨1, _⟩ => rfl)
  rw [val_main_v36_apply, val_main_v32_apply, val_main_v30_apply, val_main_v31_apply, val_main_cst_3_apply,
    val_main_v35_apply, val_main_cst_4_apply, h30, val_main_v29_apply, val_main_cst_2_apply]
  simp only [h29, val_main_v28_apply, val_main_v27_apply, val_main_v26_apply, h26, mean_apply, Ideal.hostDivf_def,
    Ideal.addf_def, Ideal.subf_def, Ideal.mulf_def, Ideal.ofBits_def, Ideal.ofBits_zero_f32, zero_add]

/-- The normalisation at node n, feature d, over the third layer's row. -/
private theorem norm_apply (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 x9 x10 : (⟨S128, .f32⟩ : BufTy).Contents (Elt Ideal)) (n : Fin 500000) (d : Fin 128) :
    val_main_v45 (F := Ideal) x0 x1 x2 x3 x4 x5 x6 x7 x8 x9 x10 (ix2 n d) = layerNorm (vec x9) (vec x10) (fun k : Fin 128 => val_main_v21 (F := Ideal) x0 x1 x2 x3 x4 x5 x6 x7 x8 (ix2 n k)) d := by
  have h33 : idx_main_v33 (ix2 n d) = ix2 n (⟨0, Nat.one_pos⟩ : Fin 1) := funext fun a => Fin.ext (by match a with | ⟨0, _⟩ => rfl | ⟨1, _⟩ => rfl)
  have h38 : idx_main_v38 (ix2 n d) = ix2 n (⟨0, Nat.one_pos⟩ : Fin 1) := funext fun a => Fin.ext (by match a with | ⟨0, _⟩ => rfl | ⟨1, _⟩ => rfl)
  have h41 : idx_main_v40 (idx_main_v41 (ix2 n d)) = ix1 d := funext fun a => Fin.ext (by match a with | ⟨0, _⟩ => rfl)
  have h44 : idx_main_v43 (idx_main_v44 (ix2 n d)) = ix1 d := funext fun a => Fin.ext (by match a with | ⟨0, _⟩ => rfl)
  rw [val_main_v45_apply, val_main_v42_apply, val_main_v39_apply, val_main_v34_apply, val_main_v33_apply,
    val_main_v38_apply, val_main_v37_apply, val_main_v41_apply, val_main_v40_apply, val_main_v44_apply,
    val_main_v43_apply, h33, h38, h41, h44, mean_apply, var_apply]
  simp only [Ideal.addf_def, Ideal.subf_def, Ideal.mulf_def, Ideal.hostUnary_rsqrt_def]
  rfl

/-- Stage A of the reference at node n, feature d, over the gathered rows. -/
theorem node_apply (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 x9 x10 : (⟨S128, .f32⟩ : BufTy).Contents (Elt Ideal)) (n : Fin 500000) (d : Fin 128) :
    val_main_v45 (F := Ideal) x0 x1 x2 x3 x4 x5 x6 x7 x8 x9 x10 (ix2 n d)
      = mlpLN (top x3) (bot x3) (vec x4) (rows x5) (vec x6) (rows x7) (vec x8) (vec x9) (vec x10)
          (rows x0 n) (rows (val_main_v6 (F := Ideal) x1 x2) n) d := by
  rw [norm_apply]
  have hrow : (fun k : Fin 128 => val_main_v21 (F := Ideal) x0 x1 x2 x3 x4 x5 x6 x7 x8 (ix2 n k)) = (dense (rows x7) (vec x8) (relu (dense (rows x5) (vec x6) (relu (dense2 (top x3) (bot x3) (vec x4) (rows x0 n) (rows (val_main_v6 (F := Ideal) x1 x2) n)))))) := funext fun k => layer3 x0 x1 x2 x3 x4 x5 x6 x7 x8 n k
  rw [hrow]
  rfl

end Cert.ReferenceIdeal.RefValue

end
-- ==== Proof.RefGather.lean ====
/-
  The reference's gather of u by the node ids, read at node n: an id that reads b in [0, 1024) as a signed word is not
  negative, so the wrap leaves it, and the clamp into [0, 1023] leaves it: the gathered row is row b of u.
-/
import proofs.«408234_j7662221656191_1_alg».proof.Proof.Gen.ReferenceIdeal.Read
import proofs.«408234_j7662221656191_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.Spec

/-- The program's gather read at (n, k). On the table's row axis (collapsed, named by the start index map) the operand
    coordinate is the start index at (n, 0), read signed and clamped into [0, 1024 − 1]; on the column axis (the one offset
    axis, slice size 128) the start is 0 and the coordinate is the result's own k. -/
private theorem gather_read {α : Type} {w : Nat} (x : S1024x128.Idx → α) (idx : IVec S500000x1 w)
    (n : Fin 500000) (k : Fin 128) :
    Host.gather gather_S1024x128_S500000x1_S500000x128_1_0_n_n_0_1_1128 x idx (ix2 n k)
      = x (ix2 (⟨min (idx (ix2 n 0)).toInt.toNat 1023, by omega⟩ : Fin 1024) k) := by
  unfold Host.gather
  congr 1
  funext a
  refine Fin.ext ?_
  show gather_S1024x128_S500000x1_S500000x128_1_0_n_n_0_1_1128.start (ix2 n k) idx a
      + gather_S1024x128_S500000x1_S500000x128_1_0_n_n_0_1_1128.batchCoord (ix2 n k) a
      + gather_S1024x128_S500000x1_S500000x128_1_0_n_n_0_1_1128.offCoord (ix2 n k) a = _
  rw [GatherDims.batchCoord_eq_zero _ _ _ List.not_mem_nil, Nat.add_zero]
  match a with
  | ⟨0, h0⟩ =>
    -- the row axis is collapsed: no offset coordinate; the start is the clamped index
    rw [GatherDims.offCoord_eq_zero _ _ _
      (fun h => ((GatherDims.mem_sKept _ _).mp h).1 (List.mem_singleton.mpr rfl)), Nat.add_zero]
    unfold GatherDims.start
    rw [dif_pos (show (⟨0, h0⟩ : Fin S1024x128.rank) ∈ gather_S1024x128_S500000x1_S500000x128_1_0_n_n_0_1_1128.startIndexMap from
      List.mem_singleton.mpr rfl)]
    have hsi : gather_S1024x128_S500000x1_S500000x128_1_0_n_n_0_1_1128.siIdx (ix2 n k)
        ⟨List.idxOf (⟨0, h0⟩ : Fin S1024x128.rank) gather_S1024x128_S500000x1_S500000x128_1_0_n_n_0_1_1128.startIndexMap,
          List.idxOf_lt_length_iff.2 (List.mem_singleton.mpr rfl)⟩ = ix2 n 0 := by
      funext c; refine Fin.ext ?_
      match c with
      | ⟨0, _⟩ => rfl
      | ⟨1, _⟩ => rfl
    rw [hsi]
    rfl
  | ⟨1, h1⟩ =>
    -- the column axis is not in the start index map: the start is 0, and the offset coordinate is k
    unfold GatherDims.start
    rw [dif_neg (show ¬ (⟨1, h1⟩ : Fin S1024x128.rank) ∈ gather_S1024x128_S500000x1_S500000x128_1_0_n_n_0_1_1128.startIndexMap from
        fun h => Nat.one_ne_zero (congrArg Fin.val (List.mem_singleton.mp h))),
      Nat.zero_add]
    rfl

/-- The gathered row of a node whose id reads b is row b of the table. -/
theorem gather_apply (x1 : (⟨S1024x128, .f32⟩ : BufTy).Contents (Elt Ideal)) (x2 : (⟨S500000, .i32⟩ : BufTy).Contents (Elt Ideal)) (n : Fin 500000) (k : Fin 128) (b : Fin 1024)
    (hb : (x2 (ix1 n)).toInt = (b.val : ℤ)) :
    val_main_v6 (F := Ideal) x1 x2 (ix2 n k) = x1 (ix2 b k) := by
  unfold val_main_v6
  rw [gather_read]
  -- the start index at (n, 0) is the id itself: the id is not negative, so the wrap's select keeps it
  have hix : idx_main_v5 (ix2 n 0) = ix1 n := by
    funext a; match a with | ⟨0, _⟩ => rfl
  have hnn : IntOp.cmpi .slt (x2 (ix1 n)) (0#32) = 0#1 := by
    refine eq_zero_of_ne_one (fun h => ?_)
    have hlt := IntOp.cmpi_slt.mp h
    rw [hb, show (0#32 : BitVec 32).toInt = 0 from by decide] at hlt
    omega
  have h5 : val_main_v5 (F := Ideal) x2 (ix2 n 0) = x2 (ix1 n) := by
    rw [val_main_v5_apply, hix, val_main_v4_apply, val_main_v1_apply, val_main_v0_apply, val_main_c_apply, hnn, select_zero]
  -- read signed it is b, and b ≤ 1023: the clamp keeps it
  have key : ∀ (m : Nat) (hm : m < 1024), m = b.val → x1 (ix2 (⟨m, hm⟩ : Fin 1024) k) = x1 (ix2 b k) := by
    intro m hm h; subst h; rfl
  refine key _ _ ?_
  rw [h5, hb, Int.toNat_natCast]
  have := b.isLt
  omega

end Cert.ReferenceIdeal.RefValue

end
-- ==== Proof.LibScatterRows.lean ====
/-
  Host scatter-add read at an element, for the two segment sums of an `[N, D]` array and of an `[N]` array by
  an id column of shape `[N, 1]` into `G` segments.

  At the ideal instance a host scatter-add is, at each operand element, the operand's value plus the sum of the
  update elements whose result index is that element. For the row scatter (update window axis 1, inserted window
  axis 0, the one scatter index component going to operand axis 0, the index vector on axis 1 of the id column)
  update element `(n, j')` lands on operand element `(g, j)` exactly when row `n`'s id, read signed, is `g` and
  `j' = j`; so element `(g, j)` of the result is the operand's plus the sum over the rows `n` with id `g` of
  `upd (n, j)`. The vector scatter (no window axis) is the same without the column. An id outside `[0, G)` lands
  nowhere: its update is dropped.

  Last, two small facts a block-wise one-hot accumulation meets: the 32-bit word equality `w = g` against a small
  natural `g` is the signed reading `w.toInt = g`; and a double sum over `a` blocks of `b` rows is the single sum
  over the `a * b` rows, row `n` in block `n / b` at position `n % b`.
-/
import Idealize.ShloMosaic.PureOps.Ideal
import Idealize.ShloMosaic.Lib.ValueIdx
import Mathlib.Logic.Equiv.Fin.Basic

noncomputable section

open scoped BigOperators

namespace Cert.LibScatterRows

open Idealize.ShloMosaic Idealize.ShloMosaic.ValueIdx

/-! ## The result index, for any scatter -/

/-- A scatter's result index for update index `jj` is `i` exactly when, on every operand axis, the
    start (read signed) plus the window coordinate is `i`'s coordinate: the range test of
    `ScatterDims.resultIdx?` is then met by `i`'s own bounds, and an update that fails it lands nowhere. -/
theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: `[N, D]` updates into `[G, D]` by an `[N, 1]` id column -/

section Rows
variable {G D N : Nat}

/-- The operand shape `[G, D]`. -/
abbrev sR (G D : Nat) : Shape := ⟨2, ![G, D]⟩
/-- The id column's shape `[N, 1]`. -/
abbrev siR (N : Nat) : Shape := ⟨2, ![N, 1]⟩
/-- The updates' shape `[N, D]`. -/
abbrev uR (N D : Nat) : Shape := ⟨2, ![N, D]⟩

/-- The start index of update element `(n', j')` is read at `(n', 0)` of the id column, whatever the component. -/
theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

/-- On operand axis 0 the window starts at row `n'`'s id, read signed. -/
theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

/-- On operand axis 1, which the index map does not name, the window starts at 0. -/
theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

/-- Operand axis 0 is an inserted window axis: its window coordinate is 0. -/
theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

/-- Operand axis 1 takes the update's window axis 1: its window coordinate is the update's column. -/
theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

/-- The row scatter's result index, at dimension numbers given by their literals: update row `n'`, column `j'`
    lands on operand row `g`, column `j` exactly when row `n'`'s id, read signed, is `g` and the columns agree. -/
theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

/-- The row scatter's result index, for any record with these dimension numbers (each hypothesis is `rfl` for a
    record defined by the four literals): update row `n'`, column `j'` lands on operand row `g`, column `j` exactly
    when row `n'`'s id, read signed and not clamped, is `g` and the columns agree. -/
theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

/-- The row segment sum: element `(g, j)` of the scatter-add is the operand's plus the sum, over the rows whose id
    (read signed) is `g`, of the update's element in column `j`. A row whose id is outside `[0, G)` is dropped. -/
theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

/-! ## The vector scatter: `[N]` updates into `[G]` by an `[N, 1]` id column -/

section Vec
variable {G N : Nat}

/-- The operand shape `[G]`. -/
abbrev sV (G : Nat) : Shape := ⟨1, ![G]⟩
/-- The updates' shape `[N]`. -/
abbrev uV (N : Nat) : Shape := ⟨1, ![N]⟩

/-- The start index of update element `n'` is read at `(n', 0)` of the id column, whatever the component. -/
theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

/-- On the operand's one axis the window starts at element `n'`'s id, read signed. -/
theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

/-- The operand's one axis is an inserted window axis: its window coordinate is 0. -/
theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

/-- The vector scatter's result index, at dimension numbers given by their literals: update element `n'` lands on
    operand element `g` exactly when its id, read signed, is `g`. -/
theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

/-- The vector scatter's result index, for any record with these dimension numbers (each hypothesis is `rfl` for a
    record defined by the four literals): update element `n'` lands on operand element `g` exactly when its id,
    read signed and not clamped, is `g`. -/
theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

/-- The vector segment sum: element `g` of the scatter-add is the operand's plus the sum, over the elements whose
    id (read signed) is `g`, of the update's element. An element whose id is outside `[0, G)` is dropped. -/
theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

/-! ## The one-hot word compare, and sums taken block by block -/

/-- A natural below `2 ^ 31`, as a 32-bit word, reads signed as itself. -/
theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

/-- A 32-bit word equals the word of a natural below `2 ^ 31` exactly when its signed reading is that natural. -/
theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

/-- The one-hot compare against a segment number below 256: the word equality is the signed reading's. -/
theorem eq_ofNat_iff_toInt_fin (w : BitVec 32) (g : Fin 256) :
    w = BitVec.ofNat 32 g.val ↔ w.toInt = (g.val : ℤ) :=
  eq_ofNat_iff_toInt w g.val (by have := g.isLt; omega)

/-- The same with the segment number cast into the words. -/
theorem eq_natCast_iff_toInt_fin (w : BitVec 32) (g : Fin 256) :
    w = ((g.val : ℕ) : BitVec 32) ↔ w.toInt = (g.val : ℤ) :=
  eq_ofNat_iff_toInt_fin w g

/-- A one-hot weighted sum is the sum over the selected terms: `0 * x = 0` and `1 * x = x` hold for every extended
    real, the infinities included. -/
theorem sum_onehot_mul {N : Nat} (w : Fin N → BitVec 32) (g : Fin 256) (h : Fin N → EReal) :
    ∑ n, (if w n = BitVec.ofNat 32 g.val then (1 : EReal) else 0) * h n
      = ∑ n, if (w n).toInt = (g.val : ℤ) then h n else 0 := by
  refine Finset.sum_congr rfl fun n _ => ?_
  by_cases hc : w n = BitVec.ofNat 32 g.val
  · rw [if_pos hc, if_pos ((eq_ofNat_iff_toInt_fin (w n) g).1 hc), one_mul]
  · rw [if_neg hc, if_neg fun h' => hc ((eq_ofNat_iff_toInt_fin (w n) g).2 h'), zero_mul]

/-- A sum taken block by block, `a` blocks of `b` terms, is the one sum over the `a * b` terms: term `n` is in
    block `n / b` at position `n % b`. -/
theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

/-- Twenty blocks of 5000 rows are the 100000 rows: row `n` is in block `n / 5000` at position `n % 5000`. -/
theorem sum_blocks_20_5000 {M : Type*} [AddCommMonoid M] (f : Fin 20 → Fin 5000 → M) :
    ∑ t, ∑ r, f t r
      = ∑ n : Fin 100000, f ⟨n.val / 5000, by have := n.isLt; omega⟩ ⟨n.val % 5000, by have := n.isLt; omega⟩ :=
  sum_blocks 20 5000 f

end Cert.LibScatterRows
-- ==== Proof.RefScatter.lean ====
/-
  The reference's segment sum, read at graph b and feature d: the zero operand plus the sum over the nodes whose id
  reads b as a signed word of the node's stage-A value there; an id outside [0, 1024) lands nowhere.
-/
import proofs.«408234_j7662221656191_1_alg».proof.Proof.Gen.ReferenceIdeal.Read
import proofs.«408234_j7662221656191_1_alg».proof.Proof.Spec
import Idealize.ShloMosaic.Lib.ValueIdx
import Idealize.ShloMosaic.Lib.Pipeline.Value
import Idealize.ShloMosaic.PureOps.Ideal.Laws
import proofs.«408234_j7662221656191_1_alg».proof.Proof.LibScatterRows

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.Spec

/-- Row `n` of the id column reads node `n`'s id: the column's index `(n, 0)` goes back to the vector's index `n`. -/
private theorem idx_v47_row (n : Fin 500000) : idx_main_v47 (ix2 n (0 : Fin 1)) = ix1 n := by
  funext a
  match a with
  | ⟨0, _⟩ => rfl

/-- The segment sum at graph b, feature d. -/
theorem scatter_apply (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 x9 x10 : (⟨S128, .f32⟩ : BufTy).Contents (Elt Ideal)) (b : Fin 1024) (d : Fin 128) :
    val_main_v48 (F := Ideal) x0 x1 x2 x3 x4 x5 x6 x7 x8 x9 x10 (ix2 b d)
      = ∑ n : Fin 500000, if (x2 (ix1 n)).toInt = (b.val : ℤ) then val_main_v45 (F := Ideal) x0 x1 x2 x3 x4 x5 x6 x7 x8 x9 x10 (ix2 n d) else 0 := by
  unfold val_main_v48
  -- the updates stay one opaque array: nothing below looks inside them
  generalize val_main_v45 (F := Ideal) x0 x1 x2 x3 x4 x5 x6 x7 x8 x9 x10 = h
  -- at the ideal values the host's accumulating scatter is the exact sum of the updates landing on each element
  simp only [Host.scatterAdd, Ideal.hostScatterAdd_def]
  -- row scatter: update (n, j) lands on (b, d) exactly when row n's id reads b and j = d
  rw [Cert.LibScatterRows.hostScatterAdd_rows _ rfl rfl rfl rfl]
  -- the operand is the zero splat
  rw [val_main_v46_apply, val_main_cst_5_apply, Ideal.ofBits_def, Ideal.ofBits_zero_f32, zero_add]
  -- the id column at (n, 0) is the id vector at n
  simp only [val_main_v47_apply, idx_v47_row]

end Cert.ReferenceIdeal.RefValue

end
-- ==== Proof.RefStageB.lean ====
/-
  The reference's stage B, read at graph b and feature d: the concatenated row (agg b, u b) through the first product is
  agg b against the weight's top half plus u b against its bottom half; then as stage A; plus u b.
-/
import proofs.«408234_j7662221656191_1_alg».proof.Proof.Gen.ReferenceIdeal.Read
import proofs.«408234_j7662221656191_1_alg».proof.Proof.Spec
import proofs.«408234_j7662221656191_1_alg».proof.Proof.SumLaws
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.Spec

section Layers

variable (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 x9 x10 : (⟨S128, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x128, .f32⟩ : BufTy).Contents (Elt Ideal)) (x16 x17 x18 : (⟨S128, .f32⟩ : BufTy).Contents (Elt Ideal)) (b : Fin 1024)

/-! ### The composed index functions, by coordinates -/

private theorem lrow50 (j k : Fin 256) : lidx_main_v50 (ix2 b j) k = ix2 b k := funext fun a => Fin.ext (by match a with | ⟨0, _⟩ => rfl | ⟨1, _⟩ => rfl)
private theorem lrow55 (j k : Fin 256) : lidx_main_v55 (ix2 b j) k = ix2 b k := funext fun a => Fin.ext (by match a with | ⟨0, _⟩ => rfl | ⟨1, _⟩ => rfl)
private theorem lrow60 (j : Fin 128) (k : Fin 256) : lidx_main_v60 (ix2 b j) k = ix2 b k := funext fun a => Fin.ext (by match a with | ⟨0, _⟩ => rfl | ⟨1, _⟩ => rfl)
private theorem row64 (c : Fin 1) (k : Fin 128) : idx_main_v64 (idx_main_v65 (ix2 b c)) k = ix2 b k := funext fun a => Fin.ext (by match a with | ⟨0, _⟩ => rfl | ⟨1, _⟩ => rfl)
private theorem row71 (c : Fin 1) (k : Fin 128) : idx_main_v71 (idx_main_v72 (ix2 b c)) k = ix2 b k := funext fun a => Fin.ext (by match a with | ⟨0, _⟩ => rfl | ⟨1, _⟩ => rfl)
private theorem col68 (d : Fin 128) : idx_main_v68 (ix2 b d) = ix2 b (⟨0, Nat.one_pos⟩ : Fin 1) := funext fun a => Fin.ext (by match a with | ⟨0, _⟩ => rfl | ⟨1, _⟩ => rfl)
private theorem col75 (d : Fin 128) : idx_main_v75 (ix2 b d) = ix2 b (⟨0, Nat.one_pos⟩ : Fin 1) := funext fun a => Fin.ext (by match a with | ⟨0, _⟩ => rfl | ⟨1, _⟩ => rfl)
private theorem col80 (d : Fin 128) : idx_main_v80 (ix2 b d) = ix2 b (⟨0, Nat.one_pos⟩ : Fin 1) := funext fun a => Fin.ext (by match a with | ⟨0, _⟩ => rfl | ⟨1, _⟩ => rfl)

/-! ### The three layers -/

/-- The first layer: the row (agg b, u b) against the weight is agg b against its top half plus u b against its bottom half. -/
private theorem layer1 (j : Fin 256) :
    val_main_v53 (F := Ideal) x0 x1 x2 x3 x4 x5 x6 x7 x8 x9 x10 x11 x12 (ix2 b j) = (dense2 (top x11) (bot x11) (vec x12) (rows (val_main_v48 (F := Ideal) x0 x1 x2 x3 x4 x5 x6 x7 x8 x9 x10) b) (rows x1 b)) j := by
  rw [val_main_v53_apply, val_main_v50_apply, val_main_v52_apply, val_main_v51_apply, Ideal.addf_def]
  unfold val_main_v49 dense2
  generalize val_main_v48 (F := Ideal) x0 x1 x2 x3 x4 x5 x6 x7 x8 x9 x10 = ag
  rw [Cert.SumLaws.sum_256_split]
  refine congrArg₂ (· + ·) (congrArg₂ (· + ·) (Finset.sum_congr rfl fun k _ => congrArg₂ (· * ·) ?_ ?_) (Finset.sum_congr rfl fun k _ => congrArg₂ (· * ·) ?_ ?_)) ?_
  · exact concatenate_pair_apply_left (t := S1024x256) (s₁ := S1024x128) (s₂ := S1024x128) 1 ag x1 concatenates_S1024x128_S1024x128_S1024x256_d1
      (lidx_main_v50 (ix2 b j) ⟨k.val, by have := k.isLt; omega⟩) rfl (ix2 b k) (fun a => by match a with | ⟨0, _⟩ => rfl | ⟨1, _⟩ => rfl)
  · exact congrArg x11 (funext fun a => Fin.ext (by match a with | ⟨0, _⟩ => rfl | ⟨1, _⟩ => rfl))
  · exact concatenate_pair_apply_right (t := S1024x256) (s₁ := S1024x128) (s₂ := S1024x128) 1 ag x1 concatenates_S1024x128_S1024x128_S1024x256_d1
      (lidx_main_v50 (ix2 b j) ⟨128 + k.val, by have := k.isLt; omega⟩) rfl rfl (ix2 b k)
      (fun a h => by match a, h with | ⟨0, _⟩, _ => rfl | ⟨1, _⟩, h => exact absurd rfl h) (by show k.val + 128 = 128 + k.val; omega)
  · exact congrArg x11 (funext fun a => Fin.ext (by match a with | ⟨0, _⟩ => rfl | ⟨1, _⟩ => rfl))
  · exact congrArg x12 (funext fun a => Fin.ext (by match a with | ⟨0, _⟩ => rfl))

/-- The rectifier after the first layer. -/
private theorem layer2 (j : Fin 256) :
    val_main_v54 (F := Ideal) x0 x1 x2 x3 x4 x5 x6 x7 x8 x9 x10 x11 x12 (ix2 b j) = (relu (dense2 (top x11) (bot x11) (vec x12) (rows (val_main_v48 (F := Ideal) x0 x1 x2 x3 x4 x5 x6 x7 x8 x9 x10) b) (rows x1 b))) j := by
  rw [val_main_v54_apply, val_main_call2_v0_apply, val_main_call2_cst_apply, layer1, Ideal.maximumf_def, Ideal.ofBits_def, Ideal.ofBits_zero_f32]
  rfl

/-- The second layer. -/
private theorem layer3 (j : Fin 256) :
    val_main_v58 (F := Ideal) x0 x1 x2 x3 x4 x5 x6 x7 x8 x9 x10 x11 x12 x13 x14 (ix2 b j) = (dense (rows x13) (vec x14) (relu (dense2 (top x11) (bot x11) (vec x12) (rows (val_main_v48 (F := Ideal) x0 x1 x2 x3 x4 x5 x6 x7 x8 x9 x10) b) (rows x1 b)))) j := by
  rw [val_main_v58_apply, val_main_v55_apply, val_main_v57_apply, val_main_v56_apply, Ideal.addf_def]
  refine congrArg₂ (· + ·) (Finset.sum_congr rfl fun k _ => congrArg₂ (· * ·) ?_ ?_) ?_
  · rw [lrow55]; exact layer2 x0 x1 x2 x3 x4 x5 x6 x7 x8 x9 x10 x11 x12 b k
  · exact congrArg x13 (funext fun a => Fin.ext (by match a with | ⟨0, _⟩ => rfl | ⟨1, _⟩ => rfl))
  · exact congrArg x14 (funext fun a => Fin.ext (by match a with | ⟨0, _⟩ => rfl))

/-- The rectifier after the second layer. -/
private theorem layer4 (j : Fin 256) :
    val_main_v59 (F := Ideal) x0 x1 x2 x3 x4 x5 x6 x7 x8 x9 x10 x11 x12 x13 x14 (ix2 b j) = (relu (dense (rows x13) (vec x14) (relu (dense2 (top x11) (bot x11) (vec x12) (rows (val_main_v48 (F := Ideal) x0 x1 x2 x3 x4 x5 x6 x7 x8 x9 x10) b) (rows x1 b))))) j := by
  rw [val_main_v59_apply, val_main_call3_v0_apply, val_main_call3_cst_apply, layer3, Ideal.maximumf_def, Ideal.ofBits_def, Ideal.ofBits_zero_f32]
  rfl

/-- The third layer. -/
private theorem layer5 (j : Fin 128) :
    val_main_v63 (F := Ideal) x0 x1 x2 x3 x4 x5 x6 x7 x8 x9 x10 x11 x12 x13 x14 x15 x16 (ix2 b j) = (dense (rows x15) (vec x16) (relu (dense (rows x13) (vec x14) (relu (dense2 (top x11) (bot x11) (vec x12) (rows (val_main_v48 (F := Ideal) x0 x1 x2 x3 x4 x5 x6 x7 x8 x9 x10) b) (rows x1 b)))))) j := by
  rw [val_main_v63_apply, val_main_v60_apply, val_main_v62_apply, val_main_v61_apply, Ideal.addf_def]
  refine congrArg₂ (· + ·) (Finset.sum_congr rfl fun k _ => congrArg₂ (· * ·) ?_ ?_) ?_
  · rw [lrow60]; exact layer4 x0 x1 x2 x3 x4 x5 x6 x7 x8 x9 x10 x11 x12 x13 x14 b k
  · exact congrArg x15 (funext fun a => Fin.ext (by match a with | ⟨0, _⟩ => rfl | ⟨1, _⟩ => rfl))
  · exact congrArg x16 (funext fun a => Fin.ext (by match a with | ⟨0, _⟩ => rfl))

/-! ### The normalisation over the third layer's row -/

/-- The row's mean, read at the one column of the kept axis. -/
private theorem mean_apply (c : Fin 1) :
    val_main_v67 (F := Ideal) x0 x1 x2 x3 x4 x5 x6 x7 x8 x9 x10 x11 x12 x13 x14 x15 x16 (ix2 b c) = mean (rows (val_main_v63 (F := Ideal) x0 x1 x2 x3 x4 x5 x6 x7 x8 x9 x10 x11 x12 x13 x14 x15 x16) b) := by
  rw [val_main_v67_apply, val_main_v65_apply, val_main_v64_apply, val_main_v66_apply, val_main_cst_7_apply, val_main_cst_6_apply]
  simp only [Ideal.hostDivf_def, Ideal.ofBits_def, Ideal.ofBits_zero_f32, zero_add]
  exact congrArg (Ideal.div · c128) (Finset.sum_congr rfl fun k _ => congrArg _ (row64 b c k))

/-- The row's mean square deviation, read at the one column of the kept axis. -/
private theorem var_apply (c : Fin 1) :
    val_main_v74 (F := Ideal) x0 x1 x2 x3 x4 x5 x6 x7 x8 x9 x10 x11 x12 x13 x14 x15 x16 (ix2 b c)
      = Ideal.div (∑ k, (rows (val_main_v63 (F := Ideal) x0 x1 x2 x3 x4 x5 x6 x7 x8 x9 x10 x11 x12 x13 x14 x15 x16) b k - mean (rows (val_main_v63 (F := Ideal) x0 x1 x2 x3 x4 x5 x6 x7 x8 x9 x10 x11 x12 x13 x14 x15 x16) b)) * (rows (val_main_v63 (F := Ideal) x0 x1 x2 x3 x4 x5 x6 x7 x8 x9 x10 x11 x12 x13 x14 x15 x16) b k - mean (rows (val_main_v63 (F := Ideal) x0 x1 x2 x3 x4 x5 x6 x7 x8 x9 x10 x11 x12 x13 x14 x15 x16) b))) c128 := by
  rw [val_main_v74_apply, val_main_v72_apply, val_main_v71_apply, val_main_v73_apply, val_main_cst_9_apply, val_main_cst_8_apply]
  simp only [Ideal.hostDivf_def, Ideal.ofBits_def, Ideal.ofBits_zero_f32, zero_add]
  refine congrArg (Ideal.div · c128) (Finset.sum_congr rfl fun k _ => ?_)
  rw [val_main_v70_apply, val_main_v69_apply, val_main_v68_apply, row71, col68, mean_apply, Ideal.mulf_def, Ideal.subf_def]

/-- The normalised row with its affine map. -/
private theorem norm_apply (d : Fin 128) :
    val_main_v87 (F := Ideal) x0 x1 x2 x3 x4 x5 x6 x7 x8 x9 x10 x11 x12 x13 x14 x15 x16 x17 x18 (ix2 b d) = layerNorm (vec x17) (vec x18) (rows (val_main_v63 (F := Ideal) x0 x1 x2 x3 x4 x5 x6 x7 x8 x9 x10 x11 x12 x13 x14 x15 x16) b) d := by
  rw [val_main_v87_apply, val_main_v84_apply, val_main_v81_apply, val_main_v76_apply, val_main_v75_apply, val_main_v80_apply,
    val_main_v79_apply, val_main_v78_apply, val_main_v77_apply, val_main_cst_10_apply, val_main_v83_apply, val_main_v82_apply,
    val_main_v86_apply, val_main_v85_apply, col75, col80, mean_apply, var_apply]
  simp only [Ideal.addf_def, Ideal.mulf_def, Ideal.subf_def, Ideal.hostUnary_rsqrt_def, Ideal.ofBits_def]
  refine congrArg₂ (· + ·) (congrArg₂ (· * ·) rfl ?_) ?_
  · exact congrArg x17 (funext fun a => Fin.ext (by match a with | ⟨0, _⟩ => rfl))
  · exact congrArg x18 (funext fun a => Fin.ext (by match a with | ⟨0, _⟩ => rfl))

end Layers

/-- Stage B of the reference at graph b, feature d, over the segment sums. -/
theorem stageB_apply (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 x9 x10 : (⟨S128, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x128, .f32⟩ : BufTy).Contents (Elt Ideal)) (x16 x17 x18 : (⟨S128, .f32⟩ : BufTy).Contents (Elt Ideal)) (b : Fin 1024) (d : Fin 128) :
    val_main_v88 (F := Ideal) x0 x1 x2 x3 x4 x5 x6 x7 x8 x9 x10 x11 x12 x13 x14 x15 x16 x17 x18 (ix2 b d)
      = mlpLN (top x11) (bot x11) (vec x12) (rows x13) (vec x14) (rows x15) (vec x16) (vec x17) (vec x18)
          (rows (val_main_v48 (F := Ideal) x0 x1 x2 x3 x4 x5 x6 x7 x8 x9 x10) b) (rows x1 b) d + x1 (ix2 b d) := by
  have h63 : rows (val_main_v63 (F := Ideal) x0 x1 x2 x3 x4 x5 x6 x7 x8 x9 x10 x11 x12 x13 x14 x15 x16) b = (dense (rows x15) (vec x16) (relu (dense (rows x13) (vec x14) (relu (dense2 (top x11) (bot x11) (vec x12) (rows (val_main_v48 (F := Ideal) x0 x1 x2 x3 x4 x5 x6 x7 x8 x9 x10) b) (rows x1 b)))))) :=
    funext fun j => layer5 x0 x1 x2 x3 x4 x5 x6 x7 x8 x9 x10 x11 x12 x13 x14 x15 x16 b j
  rw [val_main_v88_apply, norm_apply, h63, Ideal.addf_def]
  rfl

end Cert.ReferenceIdeal.RefValue

end
-- ==== Proof.RefValue.lean ====
/-
  The reference's result is the model's result of its arguments: stage B over the segment sums, the segment sum over
  the nodes whose id reads b of stage A over the gathered rows, and a node whose id reads b gathers row b of u.
-/
import proofs.«408234_j7662221656191_1_alg».proof.Proof.Gen.ReferenceIdeal.Read
import proofs.«408234_j7662221656191_1_alg».proof.Proof.Spec
import Idealize.ShloMosaic.Lib.ValueIdx
import Idealize.ShloMosaic.Lib.Pipeline.Value
import Idealize.ShloMosaic.PureOps.Ideal.Laws
import proofs.«408234_j7662221656191_1_alg».proof.Proof.RefNode
import proofs.«408234_j7662221656191_1_alg».proof.Proof.RefGather
import proofs.«408234_j7662221656191_1_alg».proof.Proof.RefScatter
import proofs.«408234_j7662221656191_1_alg».proof.Proof.RefStageB

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.Spec

/-- The reference's last stage is the model's result array. -/
theorem ref_eq (x0 : (⟨S500000x128, .f32⟩ : BufTy).Contents (Elt Ideal)) (x1 : (⟨S1024x128, .f32⟩ : BufTy).Contents (Elt Ideal)) (x2 : (⟨S500000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 x9 x10 : (⟨S128, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x128, .f32⟩ : BufTy).Contents (Elt Ideal)) (x16 x17 x18 : (⟨S128, .f32⟩ : BufTy).Contents (Elt Ideal)) :
    val_main_v88 (F := Ideal) x0 x1 x2 x3 x4 x5 x6 x7 x8 x9 x10 x11 x12 x13 x14 x15 x16 x17 x18 = Spec.result x0 x1 x2 x3 x4 x5 x6 x7 x8 x9 x10 x11 x12 x13 x14 x15 x16 x17 x18 := by
  funext i
  obtain ⟨b, d, rfl⟩ : ∃ (b : Fin 1024) (d : Fin 128), i = ix2 b d := ⟨i 0, i 1, eq_ix2 i⟩
  rw [stageB_apply, result_ix2]
  unfold out
  have hag : rows (val_main_v48 (F := Ideal) x0 x1 x2 x3 x4 x5 x6 x7 x8 x9 x10) b = agg x0 x1 x2 x3 x4 x5 x6 x7 x8 x9 x10 b := by
    funext d'
    show val_main_v48 (F := Ideal) x0 x1 x2 x3 x4 x5 x6 x7 x8 x9 x10 (ix2 b d') = agg x0 x1 x2 x3 x4 x5 x6 x7 x8 x9 x10 b d'
    rw [scatter_apply]
    unfold agg nodeRow
    refine Finset.sum_congr rfl fun n _ => ?_
    by_cases h : (x2 (ix1 n)).toInt = (b.val : ℤ)
    · rw [if_pos h, if_pos h, node_apply]
      have hg : rows (val_main_v6 (F := Ideal) x1 x2) n = rows x1 b := funext fun k => gather_apply x1 x2 n k b h
      rw [hg]
    · rw [if_neg h, if_neg h]
  rw [hag]

end Cert.ReferenceIdeal.RefValue

end
-- ==== Proof.lean ====
/-
  The five claims about the two-stage graph model.

  Frames. The word-level program and its idealization keep their nineteen argument arrays and terminate: the two
  pipelined regions and the host operations around them write only buffers of their own. The reference is a straight
  line of host operations, so its frame is its run with the result dropped.

  Preserves. The idealization rewrote nothing, so there is nothing to state.

  Algebraic. At the ideal instance both programs end with the model's result array (Proof/Spec.lean) of their
  arguments. The kernel reaches it through one-hot matrix products over 123 tiles of 4096 padded rows (a one-hot row
  against u picks a row of u; its transpose against the normalised rows sums them by graph; a padding row's id reads no
  graph), the reference through a gather and a segment sum; on the extended reals 0 * a = 0, 1 * a = a and sums may be
  regrouped freely, so no finiteness of the inputs is used.
-/
import proofs.«408234_j7662221656191_1_alg».proof.Defs
import proofs.«408234_j7662221656191_1_alg».proof.Proof.Gen.Kernel
import proofs.«408234_j7662221656191_1_alg».proof.Proof.Gen.Kernel.Skeleton
import proofs.«408234_j7662221656191_1_alg».proof.Proof.Gen.Kernel.Launch
import proofs.«408234_j7662221656191_1_alg».proof.Proof.Gen.Kernel.Points
import proofs.«408234_j7662221656191_1_alg».proof.Proof.Gen.Kernel.Frame
import proofs.«408234_j7662221656191_1_alg».proof.Proof.Gen.KernelIdeal
import proofs.«408234_j7662221656191_1_alg».proof.Proof.Gen.KernelIdeal.Skeleton
import proofs.«408234_j7662221656191_1_alg».proof.Proof.Gen.KernelIdeal.Launch
import proofs.«408234_j7662221656191_1_alg».proof.Proof.Gen.KernelIdeal.Points
import proofs.«408234_j7662221656191_1_alg».proof.Proof.Gen.KernelIdeal.Frame
import proofs.«408234_j7662221656191_1_alg».proof.Proof.Gen.ReferenceIdeal
import proofs.«408234_j7662221656191_1_alg».proof.Proof.Gen.ReferenceIdeal.Run
import proofs.«408234_j7662221656191_1_alg».proof.Proof.Gen.ReferenceIdeal.Read
import proofs.«408234_j7662221656191_1_alg».proof.Proof.Gen.Pre_finite_inputs
import proofs.«408234_j7662221656191_1_alg».proof.Proof.KernelRun
import proofs.«408234_j7662221656191_1_alg».proof.Proof.KernelValue
import proofs.«408234_j7662221656191_1_alg».proof.Proof.RefValue
import Idealize.ShloMosaic.Adequacy
import Idealize.ShloMosaic.Init

noncomputable section

namespace Cert.Proof

open Idealize.ShloMosaic Idealize.ShloMosaic.TcCoe Idealize.SL.Sem

/-- The word-level program's frame. -/
theorem frame_k : Cert.frame_Kernel (hKernel := Cert.Kernel.Gen.facts) (hPre_finite_inputs := Cert.Pre_finite_inputs.Gen.facts) :=
  fun m ρ _ => Cert.Kernel.Gen.frame m ρ

/-- The idealized program's frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the model's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v16),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, Cert.ReferenceIdeal.RefValue.ref_eq]
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  exact (Cert.KernelIdeal.KernelValue.kernel_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
